-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v21) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096 : Shape := ⟨2, ![64, 4096]⟩
abbrev S4096x4096 : Shape := ⟨2, ![4096, 4096]⟩
abbrev S_ : Shape := ⟨0, ![]⟩

class Facts : Prop where
  bcast_S_S64x4096 : S_.BroadcastsInDim S64x4096 (![] : Fin 0 → Fin S64x4096.rank)
  reducesTo_S64x4096_S_d0_1 : S64x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_arg5 : FVec F S4096x4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096x4096 .f32 := Host.absf main_arg5
  let main_cst_8 : FVec F S_ .f32 := constant S_ .f32 0x7F800000#32
  let main_v25 : FVec F S4096x4096 .f32 := broadcastInDim S4096x4096 ![] bcast_S_S4096x4096 main_cst_8
  let main_v26 : IVec S4096x4096 1 := cmpf .olt main_v24 main_v25
  let main_c_9 : IVec S_ 1 := constantI S_ 1 1#1
  let main_v27 : IVec S_ 1 := (fun x v => Host.reduce IntOp.andi x v reducesTo_S4096x4096_S_d0_1 h_S_) main_v26 main_c_9
  let main_v28 : IVec S_ 1 := andi main_v23 main_v27
  main_v28

def fn {F : FTy → Type} [FloatOps F] (main_arg0 : FVec F S64x4096 .f32) (main_arg1 : FVec F S64x4096 .f32) (main_arg2 : FVec F S64x4096 .f32) (main_arg3 : FVec F S64x4096 .f32) (main_arg4 : FVec F S4096x4096 .f32) (main_arg5 : FVec F S4096x4096 .f32) : IVec S_ 1 :=
  let main_v0 : FVec F S64x4096 .f32 := Host.absf main_arg0
  let main_cst : FVec F S_ .f32 := constant S_ .f32 0x7F800000#32
  let main_v1 : FVec F S64x4096 .f32 := broadcastInDim S64x4096 ![] bcast_S_S64x4096 main_cst
  let main_v2 : IVec S64x4096 1 := cmpf .olt main_v0 main_v1
  let main_c : IVec S_ 1 := constantI S_ 1 1#1
  let main_v3 : IVec S_ 1 := (fun x v => Host.reduce IntOp.andi x v reducesTo_S64x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64x4096 .f32 := Host.absf main_arg2
  let main_cst_2 : FVec F S_ .f32 := constant S_ .f32 0x7F800000#32
  let main_v10 : FVec F S64x4096 .f32 := broadcastInDim S64x4096 ![] bcast_S_S64x4096 main_cst_2
  let main_v11 : IVec S64x4096 1 := cmpf .olt main_v9 main_v10
  let main_c_3 : IVec S_ 1 := constantI S_ 1 1#1
  let main_v12 : IVec S_ 1 := (fun x v => Host.reduce IntOp.andi x v reducesTo_S64x4096_S_d0_1 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_v13 main_v16
-- ==== Kernel.lean ====
abbrev S64x4096 : Shape := ⟨2, ![64, 4096]⟩
abbrev S4096x4096 : Shape := ⟨2, ![4096, 4096]⟩
abbrev S1024x1024 : Shape := ⟨2, ![1024, 1024]⟩
abbrev S64x1024 : Shape := ⟨2, ![64, 1024]⟩

abbrev nBuf : Space → Nat
  | .hbm => 8
  | .vmem => 24
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S64x4096, .f32⟩
  | .hbm, ⟨4, _⟩ => ⟨S4096x4096, .f32⟩
  | .hbm, ⟨5, _⟩ => ⟨S4096x4096, .f32⟩
  | .hbm, ⟨6, _⟩ => ⟨S64x4096, .f32⟩
  | .hbm, ⟨7, _⟩ => ⟨S64x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | .local _ .vmem, ⟨14, _⟩ => ⟨S64x1024, .f32⟩
  | .local _ .vmem, ⟨15, _⟩ => ⟨S64x1024, .f32⟩
  | .local _ .vmem, ⟨16, _⟩ => ⟨S64x1024, .f32⟩
  | .local _ .vmem, ⟨17, _⟩ => ⟨S64x1024, .f32⟩
  | .local _ .vmem, ⟨18, _⟩ => ⟨S64x1024, .f32⟩
  | .local _ .vmem, ⟨19, _⟩ => ⟨S64x1024, .f32⟩
  | .local _ .vmem, ⟨20, _⟩ => ⟨S64x1024, .f32⟩
  | .local _ .vmem, ⟨21, _⟩ => ⟨S64x1024, .f32⟩
  | .local _ .vmem, ⟨22, _⟩ => ⟨S64x1024, .f32⟩
  | .local _ .vmem, ⟨23, _⟩ => ⟨S64x1024, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v41 : BitVec 1 := Scalar.cmpi .eq arg1 c3_i32
  let v42 : BitVec 32 := Scalar.extui v41
  let c0_i32_31 : BitVec 32 := 0#32
  let v43 : BitVec 1 := Scalar.cmpi .ne v42 c0_i32_31
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  dot_S64x1024_S1024x1024_S64x1024_1_1_0_0_n_n_wf : DotDims.WF S64x1024 S1024x1024 S64x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x4096.size a
  hwx0_2 : ∀ i : grid0.Coords, EltTy.bits .f32 = 32 ∨ (Rect.block (s := S64x4096) S64x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x4096.size a
  hwx0_3 : ∀ i : grid0.Coords, EltTy.bits .f32 = 32 ∨ (Rect.block (s := S64x4096) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1024.size a ≤ S64x4096.size a
  hwx0_4 : ∀ i : grid0.Coords, EltTy.bits .f32 = 32 ∨ (Rect.block (s := S64x4096) S64x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1024.size a ≤ S64x4096.size a
  hwx0_5 : ∀ i : grid0.Coords, EltTy.bits .f32 = 32 ∨ (Rect.block (s := S64x4096) S64x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x1024.size a ≤ S64x4096.size a
  hwx0_6 : ∀ i : grid0.Coords, EltTy.bits .f32 = 32 ∨ (Rect.block (s := S64x4096) S64x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x1024.size a ≤ S64x4096.size a
  hwx0_7 : ∀ i : grid0.Coords, EltTy.bits .f32 = 32 ∨ (Rect.block (s := S64x4096) S64x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x1024.size a ≤ S64x4096.size a
  hwx0_8 : ∀ i : grid0.Coords, EltTy.bits .f32 = 32 ∨ (Rect.block (s := S64x4096) S64x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x1024.size a ≤ S64x4096.size a
  hwx0_9 : ∀ i : grid0.Coords, EltTy.bits .f32 = 32 ∨ (Rect.block (s := S64x4096) S64x1024.size (cc0_transform_9 i) (hinb0_9 i)).WholeWords (EltTy.packing .f32)

variable [Facts₀]

def dot_S64x1024_S1024x1024_S64x1024_1_1_0_0_n_n : DotDims S64x1024 S1024x1024 S64x1024 where
  lhsContracting := [1]
  rhsContracting := [1]
  lhsNonContracting := [0]
  rhsNonContracting := [0]
  lhsBatch := []
  rhsBatch := []
  wf := dot_S64x1024_S1024x1024_S64x1024_1_1_0_0_n_n_wf

abbrev win0_0 : Pipeline.Window sig grid0 :=
  Pipeline.Window.ofSpec (Memref.whole main_arg4) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S64x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S64x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg2) S64x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg3) S64x1024.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_0) S64x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_1) S64x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | 9 => fun i => !(k0_cond2 i == 1#1) | ⟨_ + 10, h⟩ => absurd h (Nat.not_lt.2 (Nat.le_add_left _ _))

class Facts : Prop extends Facts₀ where

variable [Facts]
-- ==== ReferenceIdeal.lean ====
abbrev S64x4096 : Shape := ⟨2, ![64, 4096]⟩
abbrev S4096x4096 : Shape := ⟨2, ![4096, 4096]⟩

abbrev nBuf : Space → Nat
  | .hbm => 28
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S64x4096, .f32⟩
  | .hbm, ⟨3, _⟩ => ⟨S64x4096, .f32⟩
  | .hbm, ⟨4, _⟩ => ⟨S4096x4096, .f32⟩
  | .hbm, ⟨5, _⟩ => ⟨S4096x4096, .f32⟩
  | .hbm, ⟨6, _⟩ => ⟨S64x4096, .f32⟩
  | .hbm, ⟨7, _⟩ => ⟨S64x4096, .f32⟩
  | .hbm, ⟨8, _⟩ => ⟨S64x4096, .f32⟩
  | .hbm, ⟨9, _⟩ => ⟨S64x4096, .f32⟩
  | .hbm, ⟨10, _⟩ => ⟨S64x4096, .f32⟩
  | .hbm, ⟨11, _⟩ => ⟨S64x4096, .f32⟩
  | .hbm, ⟨12, _⟩ => ⟨S64x4096, .f32⟩
  | .hbm, ⟨13, _⟩ => ⟨S64x4096, .f32⟩
  | .hbm, ⟨14, _⟩ => ⟨S64x4096, .f32⟩
  | .hbm, ⟨15, _⟩ => ⟨S64x4096, .f32⟩
  | .hbm, ⟨16, _⟩ => ⟨S64x4096, .f32⟩
  | .hbm, ⟨17, _⟩ => ⟨S64x4096, .f32⟩
  | .hbm, ⟨18, _⟩ => ⟨S64x4096, .f32⟩
  | .hbm, ⟨19, _⟩ => ⟨S64x4096, .f32⟩
  | .hbm, ⟨20, _⟩ => ⟨S64x4096, .f32⟩
  | .hbm, ⟨21, _⟩ => ⟨S64x4096, .f32⟩
  | .hbm, ⟨22, _⟩ => ⟨S64x4096, .f32⟩
  | .hbm, ⟨23, _⟩ => ⟨S64x4096, .f32⟩
  | .hbm, ⟨24, _⟩ => ⟨S64x4096, .f32⟩
  | .hbm, ⟨25, _⟩ => ⟨S64x4096, .f32⟩
  | .hbm, ⟨26, _⟩ => ⟨S64x4096, .f32⟩
  | .hbm, ⟨27, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩

abbrev nD : Nat := 1
abbrev τ : Topo := Topo.v7x

variable {F : FTy → Type} [FloatOps F]

class Facts₀ : Prop where
  dot_S64x4096_S4096x4096_S64x4096_1_1_0_0_n_n_wf : DotDims.WF S64x4096 S4096x4096 S64x4096 [1] [1] [0] [0] [] []

variable [Facts₀]

def dot_S64x4096_S4096x4096_S64x4096_1_1_0_0_n_n : DotDims S64x4096 S4096x4096 S64x4096 where
  lhsContracting := [1]
  rhsContracting := [1]
  lhsNonContracting := [0]
  rhsNonContracting := [0]
  lhsBatch := []
  rhsBatch := []
  wf := dot_S64x4096_S4096x4096_S64x4096_1_1_0_0_n_n_wf

class Facts : Prop extends Facts₀ where

variable [Facts]
-- ==== Proof.K.Runs.lean ====
/-
  What the three runs of the power-flow kernel's body share. The grid is 4 × 4, point t = 4·i + j with i the block of
  1024 output buses and j the block of 1024 source buses. The body zeroes its four accumulators where j = 0, adds the
  four partial products of the point's blocks into them at every point, and where j = 3 combines them with the
  output block's own angles and magnitudes into the two residual blocks; at the other points the two result windows
  are idle and are not written back. Here: the two branch conditions in closed form over the grid, where the result
  windows are idle and written back, and the names of the staging memrefs at a point.
-/
import proofs.«131548_j16355235463758_1_alg».proof.Proof.Gen.Kernel.Launch
import proofs.«131548_j16355235463758_1_alg».proof.Proof.Gen.Kernel.Skeleton
import proofs.«131548_j16355235463758_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (the accumulators are zeroed) is taken where the source-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the residual blocks are stored) is taken where the source-block coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle and written back -/

theorem liveAt_in : ∀ (w : Fin 10), w.val < 8 → ∀ t : Fin cfg0.N, cfg0.idle w (grid0.coords t) = false := by decide +kernel
theorem idleAt_8 : ∀ t : Fin cfg0.N, ¬cond0_1 (grid0.coords t) → cfg0.idle 8 (grid0.coords t) = true := by decide +kernel
theorem idleAt_9 : ∀ t : Fin cfg0.N, ¬cond0_1 (grid0.coords t) → cfg0.idle 9 (grid0.coords t) = true := by decide +kernel
theorem noFlush_8 : ∀ t : Fin cfg0.N, ¬cond0_1 (grid0.coords t) → (cfg0.win 8).flush t = false := by decide +kernel
theorem noFlush_9 : ∀ t : Fin cfg0.N, ¬cond0_1 (grid0.coords t) → (cfg0.win 9).flush t = false := by decide +kernel
theorem liveAt_8 : ∀ t : Fin cfg0.N, cond0_1 (grid0.coords t) → cfg0.idle 8 (grid0.coords t) = false := by decide +kernel
theorem liveAt_9 : ∀ t : Fin cfg0.N, cond0_1 (grid0.coords t) → cfg0.idle 9 (grid0.coords t) = false := by decide +kernel

/-! ## The staging memrefs at a point, as the pipeline passes them to the body -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x1024 .f32 := win0_9.stage (cfg0.slots t 9)
abbrev hs9 (t : Fin cfg0.N) : (ms9 t).IsWhole := hstage0_9 ((cfg0.slots t 9).cast nbuf0_9)

/-- The four accumulators: whole scoped buffers of the kernel's own, passed beside the windows. -/
abbrev sc0 : Memref sig .tc .vmem S64x1024 .f32 := Memref.whole cc0_scratch0
abbrev sc1 : Memref sig .tc .vmem S64x1024 .f32 := Memref.whole cc0_scratch1
abbrev sc2 : Memref sig .tc .vmem S64x1024 .f32 := Memref.whole cc0_scratch2
abbrev sc3 : Memref sig .tc .vmem S64x1024 .f32 := Memref.whole cc0_scratch3

/-- One view through which the contents of a 64 × 1024 buffer are stated (the choice does not matter). -/
abbrev VB : View sig .tc .vmem S64x1024 .f32 := sc0.view

/-- A piece of a 64 × 1024 buffer. -/
abbrev Pc (F : FTy → Type) [FloatOps F] : Type := View.Piece (Elt F) S64x1024 .f32

end Cert.Kernel.Hand

end
-- ==== Proof.K.RunA.lean ====
/-
  The body's run at a point where the source block is the first (j = 0): the four accumulators are zeroed and the
  point's four partial products added into them; the two result windows are idle and handed back as they were found.
  What each accumulator ends with, as the pieces its stores leave, is found by the run itself.
-/
import proofs.«131548_j16355235463758_1_alg».proof.Proof.K.Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the four accumulators where j = 0, WITH the proof that on whole staging memrefs, the
    inputs at their contents, the two result buffers at contents handed back untouched and the accumulators at
    anything, the body runs to the continuation holding the inputs as they were and each accumulator with its pieces
    written. -/
noncomputable def kernelRun0_A (c : Dev nD) (i : grid0.Coords) (a2 : Memref sig .tc .vmem S1024x1024 .f32) (h2 : a2.IsWhole) (a3 : Memref sig .tc .vmem S1024x1024 .f32) (h3 : a3.IsWhole) (a4 : Memref sig .tc .vmem S64x1024 .f32) (h4 : a4.IsWhole) (a5 : Memref sig .tc .vmem S64x1024 .f32) (h5 : a5.IsWhole) (a6 : Memref sig .tc .vmem S64x1024 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S64x1024 .f32) (h12 : a12.IsWhole) (a13 : Memref sig .tc .vmem S64x1024 .f32) (h13 : a13.IsWhole) (a14 : Memref sig .tc .vmem S64x1024 .f32) (h14 : a14.IsWhole) (a15 : Memref sig .tc .vmem S64x1024 .f32) (h15 : a15.IsWhole) (hc0 : cond0_0 i) (hc1 : ¬cond0_1 i)
    (x0 x1 : Vec F S1024x1024 .f32) (x2 x3 x4 x5 x6 x7 : Vec F S64x1024 .f32) :
    Σ' (LS0 LS1 LS2 : List (Pc F)), { LS3 : List (Pc F) //
      ∀ (xi8 xi9 : Vec F S64x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xi8 ∗ owns (c : Thread nD τ) a11 fullShare xi9
            ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xi8 ∗ owns (c : Thread nD τ) a11 fullShare xi9
                ∗ (∃ f, a12.view.loc (c : Thread nD τ) ↦[a12.view.set]{fullShare} a12.view.writes (Elt F) f LS0)
                ∗ (∃ f, a13.view.loc (c : Thread nD τ) ↦[a13.view.set]{fullShare} a13.view.writes (Elt F) f LS1)
                ∗ (∃ f, a14.view.loc (c : Thread nD τ) ↦[a14.view.set]{fullShare} a14.view.writes (Elt F) f LS2)
                ∗ (∃ f, a15.view.loc (c : Thread nD τ) ↦[a15.view.set]{fullShare} a15.view.writes (Elt F) f LS3)) -∗ K ⟨⟩))
          ⊢ wp frame (wpE (defs₀ (F := F)) Variants.none c none) E (cc0__power_flow_kernel i a2 h2 a3 h3 a4 h4 a5 h5 a6 h6 a7 h7 a8 h8 a9 h9 a10 h10 a11 h11 a12 h12 a13 h13 a14 h14 a15 h15) K } := by
  refine ⟨?_, ?_, ?_, ?_, fun xi8 xi9 E K => ?run⟩
  case run =>
    simp only [cc0__power_flow_kernel_eq_skeleton]; unfold cc0__power_flow_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6; obtain rfl := h9.eq_unread hf7
    obtain rfl := h10.eq_unread hf8; obtain rfl := h11.eq_unread hf9
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [HS0]; · iexists _; iexact HS0
    isplitl [HS1]; · iexists _; iexact HS1
    isplitl [HS2]; · iexists _; iexact HS2
    iexists _; iexact HS3

end Cert.Kernel.Hand

end
-- ==== Proof.K.RunB.lean ====
/-
  The body's run at a point where the source block is neither the first nor the last (j = 1 or 2): the point's four
  partial products are added into the four accumulators, which hold what the point before left; the two result
  windows are idle and handed back as they were found.
-/
import proofs.«131548_j16355235463758_1_alg».proof.Proof.K.RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the four accumulators where j is 1 or 2, WITH the proof that on whole staging
    memrefs, the inputs at their contents, the two result buffers at contents handed back untouched and the
    accumulators at the contents the point before left, the body runs to the continuation holding the inputs as they
    were and each accumulator with its pieces written. -/
noncomputable def kernelRun0_B (c : Dev nD) (i : grid0.Coords) (a2 : Memref sig .tc .vmem S1024x1024 .f32) (h2 : a2.IsWhole) (a3 : Memref sig .tc .vmem S1024x1024 .f32) (h3 : a3.IsWhole) (a4 : Memref sig .tc .vmem S64x1024 .f32) (h4 : a4.IsWhole) (a5 : Memref sig .tc .vmem S64x1024 .f32) (h5 : a5.IsWhole) (a6 : Memref sig .tc .vmem S64x1024 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S64x1024 .f32) (h12 : a12.IsWhole) (a13 : Memref sig .tc .vmem S64x1024 .f32) (h13 : a13.IsWhole) (a14 : Memref sig .tc .vmem S64x1024 .f32) (h14 : a14.IsWhole) (a15 : Memref sig .tc .vmem S64x1024 .f32) (h15 : a15.IsWhole) (hc0 : ¬cond0_0 i) (hc1 : ¬cond0_1 i)
    (x0 x1 : Vec F S1024x1024 .f32) (x2 x3 x4 x5 x6 x7 : Vec F S64x1024 .f32) (xs0 xs1 xs2 xs3 : Vec F S64x1024 .f32) :
    Σ' (LS0 LS1 LS2 : List (Pc F)), { LS3 : List (Pc F) //
      ∀ (xi8 xi9 : Vec F S64x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xi8 ∗ owns (c : Thread nD τ) a11 fullShare xi9
            ∗ owns (c : Thread nD τ) a12 fullShare xs0 ∗ owns (c : Thread nD τ) a13 fullShare xs1 ∗ owns (c : Thread nD τ) a14 fullShare xs2 ∗ owns (c : Thread nD τ) a15 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xi8 ∗ owns (c : Thread nD τ) a11 fullShare xi9
                ∗ (∃ f, a12.view.loc (c : Thread nD τ) ↦[a12.view.set]{fullShare} a12.view.writes (Elt F) f LS0)
                ∗ (∃ f, a13.view.loc (c : Thread nD τ) ↦[a13.view.set]{fullShare} a13.view.writes (Elt F) f LS1)
                ∗ (∃ f, a14.view.loc (c : Thread nD τ) ↦[a14.view.set]{fullShare} a14.view.writes (Elt F) f LS2)
                ∗ (∃ f, a15.view.loc (c : Thread nD τ) ↦[a15.view.set]{fullShare} a15.view.writes (Elt F) f LS3)) -∗ K ⟨⟩))
          ⊢ wp frame (wpE (defs₀ (F := F)) Variants.none c none) E (cc0__power_flow_kernel i a2 h2 a3 h3 a4 h4 a5 h5 a6 h6 a7 h7 a8 h8 a9 h9 a10 h10 a11 h11 a12 h12 a13 h13 a14 h14 a15 h15) K } := by
  refine ⟨?_, ?_, ?_, ?_, fun xi8 xi9 E K => ?run⟩
  case run =>
    simp only [cc0__power_flow_kernel_eq_skeleton]; unfold cc0__power_flow_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6; obtain rfl := h9.eq_unread hf7
    obtain rfl := h10.eq_unread hf8; obtain rfl := h11.eq_unread hf9
    obtain rfl := h12.eq_unread hfs0; obtain rfl := h13.eq_unread hfs1; obtain rfl := h14.eq_unread hfs2; obtain rfl := h15.eq_unread hfs3
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [HS0]; · iexists _; iexact HS0
    isplitl [HS1]; · iexists _; iexact HS1
    isplitl [HS2]; · iexists _; iexact HS2
    iexists _; iexact HS3

end Cert.Kernel.Hand

end
-- ==== Proof.K.RunC.lean ====
/-
  The body's run at a point where the source block is the last (j = 3): the point's four partial products are added
  into the four accumulators, which hold what the point before left, and the two residual blocks are computed from
  the completed accumulators and the output block's own magnitudes, angles and injections and stored whole into the
  two result buffers.
-/
import proofs.«131548_j16355235463758_1_alg».proof.Proof.K.RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the two result buffers and the four accumulators where j = 3, WITH the proof that on
    whole staging memrefs, the inputs at their contents, the result buffers at anything and the accumulators at the
    contents the point before left, the body runs to the continuation holding the inputs as they were and each result
    buffer and accumulator with its pieces written. -/
noncomputable def kernelRun0_C (c : Dev nD) (i : grid0.Coords) (a2 : Memref sig .tc .vmem S1024x1024 .f32) (h2 : a2.IsWhole) (a3 : Memref sig .tc .vmem S1024x1024 .f32) (h3 : a3.IsWhole) (a4 : Memref sig .tc .vmem S64x1024 .f32) (h4 : a4.IsWhole) (a5 : Memref sig .tc .vmem S64x1024 .f32) (h5 : a5.IsWhole) (a6 : Memref sig .tc .vmem S64x1024 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S64x1024 .f32) (h12 : a12.IsWhole) (a13 : Memref sig .tc .vmem S64x1024 .f32) (h13 : a13.IsWhole) (a14 : Memref sig .tc .vmem S64x1024 .f32) (h14 : a14.IsWhole) (a15 : Memref sig .tc .vmem S64x1024 .f32) (h15 : a15.IsWhole) (hc0 : ¬cond0_0 i) (hc1 : cond0_1 i)
    (x0 x1 : Vec F S1024x1024 .f32) (x2 x3 x4 x5 x6 x7 : Vec F S64x1024 .f32) (xs0 xs1 xs2 xs3 : Vec F S64x1024 .f32) :
    Σ' (L8 L9 LS0 LS1 LS2 : List (Pc F)), { LS3 : List (Pc F) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ (∃ d, owns (c : Thread nD τ) a11 fullShare d)
            ∗ owns (c : Thread nD τ) a12 fullShare xs0 ∗ owns (c : Thread nD τ) a13 fullShare xs1 ∗ owns (c : Thread nD τ) a14 fullShare xs2 ∗ owns (c : Thread nD τ) a15 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7
                ∗ (∃ f, a10.view.loc (c : Thread nD τ) ↦[a10.view.set]{fullShare} a10.view.writes (Elt F) f L8)
                ∗ (∃ f, a11.view.loc (c : Thread nD τ) ↦[a11.view.set]{fullShare} a11.view.writes (Elt F) f L9)
                ∗ (∃ f, a12.view.loc (c : Thread nD τ) ↦[a12.view.set]{fullShare} a12.view.writes (Elt F) f LS0)
                ∗ (∃ f, a13.view.loc (c : Thread nD τ) ↦[a13.view.set]{fullShare} a13.view.writes (Elt F) f LS1)
                ∗ (∃ f, a14.view.loc (c : Thread nD τ) ↦[a14.view.set]{fullShare} a14.view.writes (Elt F) f LS2)
                ∗ (∃ f, a15.view.loc (c : Thread nD τ) ↦[a15.view.set]{fullShare} a15.view.writes (Elt F) f LS3)) -∗ K ⟨⟩))
          ⊢ wp frame (wpE (defs₀ (F := F)) Variants.none c none) E (cc0__power_flow_kernel i a2 h2 a3 h3 a4 h4 a5 h5 a6 h6 a7 h7 a8 h8 a9 h9 a10 h10 a11 h11 a12 h12 a13 h13 a14 h14 a15 h15) K } := by
  refine ⟨?_, ?_, ?_, ?_, ?_, ?_, fun E K => ?run⟩
  case run =>
    simp only [cc0__power_flow_kernel_eq_skeleton]; unfold cc0__power_flow_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6; obtain rfl := h9.eq_unread hf7
    obtain rfl := h12.eq_unread hfs0; obtain rfl := h13.eq_unread hfs1; obtain rfl := h14.eq_unread hfs2; obtain rfl := h15.eq_unread hfs3
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.Kernel.Hand

end
-- ==== Proof.K.Frame.lean ====
/-
  The frame of the power-flow kernel as printed (read at the word level), point by point. What the four accumulators and the two result buffers
  hold after each of the sixteen grid points is defined by recursion on the point: where j = 0 the accumulators are
  zeroed and take the point's four partial products; elsewhere they take what the point before left plus the point's
  partial products; where j = 3 the two result buffers take the residual blocks computed from the completed
  accumulators. The region's invariant holds the accumulators at those contents between points (at anything before
  the first point). The proof data name each input window's buffer at its block of the array (fetched at this point
  or kept from an earlier one) and the result windows' buffers at the recursion's values; the magnitudes and the
  angles, each read through two windows, are held by each of the two at half a share. The body obligation at a
  point is the run of the point's case.
-/
import proofs.«131548_j16355235463758_1_alg».proof.Proof.K.RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core c's buffer contents when the region is entered: the launch contents (no host operation precedes it). -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves -/

/-- The contents of the two result buffers and the four accumulators after a point. -/
structure Outs (F : FTy → Type) [FloatOps F] where
  o8 : Vec F S64x1024 .f32
  o9 : Vec F S64x1024 .f32
  s0 : Vec F S64x1024 .f32
  s1 : Vec F S64x1024 .f32
  s2 : Vec F S64x1024 .f32
  s3 : Vec F S64x1024 .f32

/-- A placeholder for a result buffer at a point where the window is idle: nothing consults it. -/
def junkV : Vec F S64x1024 .f32 := VB.read (Elt F) VB.junk

/-- A list of pieces read back over junk. -/
abbrev rd (L : List (Pc F)) : Vec F S64x1024 .f32 := VB.read (Elt F) (VB.writes (Elt F) VB.junk L)

/-- The run of case A (j = 0) at point t, on the point's memrefs and input blocks. -/
abbrev runA (c : Dev nD) (t : Fin cfg0.N) (hc0 : cond0_0 (grid0.coords t)) (hc1 : ¬cond0_1 (grid0.coords t)) :=
  kernelRun0_A (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) hc0 hc1 (iblk m c 0 t) (iblk m c 1 t) (iblk m c 2 t) (iblk m c 3 t) (iblk m c 4 t) (iblk m c 5 t) (iblk m c 6 t) (iblk m c 7 t)
/-- The run of case B (j = 1, 2) at point t, the accumulators found at xs. -/
abbrev runB (c : Dev nD) (t : Fin cfg0.N) (hc0 : ¬cond0_0 (grid0.coords t)) (hc1 : ¬cond0_1 (grid0.coords t)) (xs0 xs1 xs2 xs3 : Vec F S64x1024 .f32) :=
  kernelRun0_B (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) hc0 hc1 (iblk m c 0 t) (iblk m c 1 t) (iblk m c 2 t) (iblk m c 3 t) (iblk m c 4 t) (iblk m c 5 t) (iblk m c 6 t) (iblk m c 7 t) xs0 xs1 xs2 xs3
/-- The run of case C (j = 3) at point t, the accumulators found at xs. -/
abbrev runC (c : Dev nD) (t : Fin cfg0.N) (hc0 : ¬cond0_0 (grid0.coords t)) (hc1 : cond0_1 (grid0.coords t)) (xs0 xs1 xs2 xs3 : Vec F S64x1024 .f32) :=
  kernelRun0_C (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) hc0 hc1 (iblk m c 0 t) (iblk m c 1 t) (iblk m c 2 t) (iblk m c 3 t) (iblk m c 4 t) (iblk m c 5 t) (iblk m c 6 t) (iblk m c 7 t) xs0 xs1 xs2 xs3

/-- What case A leaves. -/
def outA (c : Dev nD) (t : Fin cfg0.N) (hc0 : cond0_0 (grid0.coords t)) (hc1 : ¬cond0_1 (grid0.coords t)) : Outs F :=
  ⟨junkV, junkV, rd (runA m c t hc0 hc1).1, rd (runA m c t hc0 hc1).2.1, rd (runA m c t hc0 hc1).2.2.1, rd (runA m c t hc0 hc1).2.2.2.1⟩
/-- What case B leaves over xs. -/
def outB (c : Dev nD) (t : Fin cfg0.N) (hc0 : ¬cond0_0 (grid0.coords t)) (hc1 : ¬cond0_1 (grid0.coords t)) (p : Outs F) : Outs F :=
  ⟨junkV, junkV, rd (runB m c t hc0 hc1 p.s0 p.s1 p.s2 p.s3).1, rd (runB m c t hc0 hc1 p.s0 p.s1 p.s2 p.s3).2.1, rd (runB m c t hc0 hc1 p.s0 p.s1 p.s2 p.s3).2.2.1, rd (runB m c t hc0 hc1 p.s0 p.s1 p.s2 p.s3).2.2.2.1⟩
/-- What case C leaves over xs. -/
def outC (c : Dev nD) (t : Fin cfg0.N) (hc0 : ¬cond0_0 (grid0.coords t)) (hc1 : cond0_1 (grid0.coords t)) (p : Outs F) : Outs F :=
  ⟨rd (runC m c t hc0 hc1 p.s0 p.s1 p.s2 p.s3).1, rd (runC m c t hc0 hc1 p.s0 p.s1 p.s2 p.s3).2.1, rd (runC m c t hc0 hc1 p.s0 p.s1 p.s2 p.s3).2.2.1, rd (runC m c t hc0 hc1 p.s0 p.s1 p.s2 p.s3).2.2.2.1, rd (runC m c t hc0 hc1 p.s0 p.s1 p.s2 p.s3).2.2.2.2.1, rd (runC m c t hc0 hc1 p.s0 p.s1 p.s2 p.s3).2.2.2.2.2.1⟩

/-! Every list of pieces the runs find tiles its buffer (each store is of the whole block), so it covers it. -/

theorem coverA0 (c : Dev nD) (t) (hc0) (hc1) (y : S64x1024.Idx) : ∃ pc ∈ (runA m c t hc0 hc1).1, y ∈ pc.1.set := View.cover_of_tiledL _ S64x1024.size (by sl_kernel_rfl) y
theorem coverA1 (c : Dev nD) (t) (hc0) (hc1) (y : S64x1024.Idx) : ∃ pc ∈ (runA m c t hc0 hc1).2.1, y ∈ pc.1.set := View.cover_of_tiledL _ S64x1024.size (by sl_kernel_rfl) y
theorem coverA2 (c : Dev nD) (t) (hc0) (hc1) (y : S64x1024.Idx) : ∃ pc ∈ (runA m c t hc0 hc1).2.2.1, y ∈ pc.1.set := View.cover_of_tiledL _ S64x1024.size (by sl_kernel_rfl) y
theorem coverA3 (c : Dev nD) (t) (hc0) (hc1) (y : S64x1024.Idx) : ∃ pc ∈ (runA m c t hc0 hc1).2.2.2.1, y ∈ pc.1.set := View.cover_of_tiledL _ S64x1024.size (by sl_kernel_rfl) y
theorem coverB0 (c : Dev nD) (t) (hc0) (hc1) (a b d e) (y : S64x1024.Idx) : ∃ pc ∈ (runB m c t hc0 hc1 a b d e).1, y ∈ pc.1.set := View.cover_of_tiledL _ S64x1024.size (by sl_kernel_rfl) y
theorem coverB1 (c : Dev nD) (t) (hc0) (hc1) (a b d e) (y : S64x1024.Idx) : ∃ pc ∈ (runB m c t hc0 hc1 a b d e).2.1, y ∈ pc.1.set := View.cover_of_tiledL _ S64x1024.size (by sl_kernel_rfl) y
theorem coverB2 (c : Dev nD) (t) (hc0) (hc1) (a b d e) (y : S64x1024.Idx) : ∃ pc ∈ (runB m c t hc0 hc1 a b d e).2.2.1, y ∈ pc.1.set := View.cover_of_tiledL _ S64x1024.size (by sl_kernel_rfl) y
theorem coverB3 (c : Dev nD) (t) (hc0) (hc1) (a b d e) (y : S64x1024.Idx) : ∃ pc ∈ (runB m c t hc0 hc1 a b d e).2.2.2.1, y ∈ pc.1.set := View.cover_of_tiledL _ S64x1024.size (by sl_kernel_rfl) y
theorem coverC8 (c : Dev nD) (t) (hc0) (hc1) (a b d e) (y : S64x1024.Idx) : ∃ pc ∈ (runC m c t hc0 hc1 a b d e).1, y ∈ pc.1.set := View.cover_of_tiledL _ S64x1024.size (by sl_kernel_rfl) y
theorem coverC9 (c : Dev nD) (t) (hc0) (hc1) (a b d e) (y : S64x1024.Idx) : ∃ pc ∈ (runC m c t hc0 hc1 a b d e).2.1, y ∈ pc.1.set := View.cover_of_tiledL _ S64x1024.size (by sl_kernel_rfl) y
theorem coverC0 (c : Dev nD) (t) (hc0) (hc1) (a b d e) (y : S64x1024.Idx) : ∃ pc ∈ (runC m c t hc0 hc1 a b d e).2.2.1, y ∈ pc.1.set := View.cover_of_tiledL _ S64x1024.size (by sl_kernel_rfl) y
theorem coverC1 (c : Dev nD) (t) (hc0) (hc1) (a b d e) (y : S64x1024.Idx) : ∃ pc ∈ (runC m c t hc0 hc1 a b d e).2.2.2.1, y ∈ pc.1.set := View.cover_of_tiledL _ S64x1024.size (by sl_kernel_rfl) y
theorem coverC2 (c : Dev nD) (t) (hc0) (hc1) (a b d e) (y : S64x1024.Idx) : ∃ pc ∈ (runC m c t hc0 hc1 a b d e).2.2.2.2.1, y ∈ pc.1.set := View.cover_of_tiledL _ S64x1024.size (by sl_kernel_rfl) y
theorem coverC3 (c : Dev nD) (t) (hc0) (hc1) (a b d e) (y : S64x1024.Idx) : ∃ pc ∈ (runC m c t hc0 hc1 a b d e).2.2.2.2.2.1, y ∈ pc.1.set := View.cover_of_tiledL _ S64x1024.size (by sl_kernel_rfl) y

/-! ## What the buffers hold after each point -/

/-- THE ACCUMULATION: the result buffers and the accumulators after the body at position n, the case chosen by
    n modulo 4, cases B and C over what position n - 1 left. -/
def outsAt0 (c : Dev nD) : (n : ℕ) → n < cfg0.N → Outs F
  | 0, hn => outA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      outA m c ⟨n + 1, hn⟩ ((hcond0_0 ⟨n + 1, hn⟩).mpr h0) (fun h => (fun h => by (try dsimp only at h); omega) ((hcond0_1 ⟨n + 1, hn⟩).mp h))
    else
      if h1 : (n + 1) % 4 = 3 then
        outC m c ⟨n + 1, hn⟩ (fun h => h0 ((hcond0_0 ⟨n + 1, hn⟩).mp h)) ((hcond0_1 ⟨n + 1, hn⟩).mpr h1) (outsAt0 c n (Nat.lt_of_succ_lt hn))
      else
        outB m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 4 = 0) :
    outsAt0 m c t.val t.isLt = outA m c t ((hcond0_0 t).mpr h0) (fun h => (fun h => by omega) ((hcond0_1 t).mp h)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = outB m c t (fun h => h0 ((hcond0_0 t).mp h)) (fun h => h1 ((hcond0_1 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = outC m c t (fun h => h0 ((hcond0_0 t).mp h)) ((hcond0_1 t).mpr h1) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The four accumulators at some contents: what the launch hands the region and takes back. -/
def PhiAny (c : Dev nD) : sProp 𝕄 :=
  iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))

/-- The invariant before position n: before the first point the accumulators at anything, afterwards at what the
    point before left. -/
def PhiS (c : Dev nD) : (n : ℕ) → n ≤ cfg0.N → sProp 𝕄
  | 0, _ => PhiAny c
  | n + 1, hn => iprop(owns (c : Thread nD τ) sc0 fullShare (outsAt0 m c n hn).s0 ∗ owns (c : Thread nD τ) sc1 fullShare (outsAt0 m c n hn).s1 ∗ owns (c : Thread nD τ) sc2 fullShare (outsAt0 m c n hn).s2 ∗ owns (c : Thread nD τ) sc3 fullShare (outsAt0 m c n hn).s3)

theorem PhiS_zero (c : Dev nD) (n : ℕ) (h : n ≤ cfg0.N) (hz : n = 0) : PhiS m c n h = PhiAny c := by
  subst hz; rfl

theorem PhiS_succ (c : Dev nD) (n : ℕ) (hn : n < cfg0.N) :
    PhiS m c (n + 1) hn = iprop(owns (c : Thread nD τ) sc0 fullShare (outsAt0 m c n hn).s0 ∗ owns (c : Thread nD τ) sc1 fullShare (outsAt0 m c n hn).s1 ∗ owns (c : Thread nD τ) sc2 fullShare (outsAt0 m c n hn).s2 ∗ owns (c : Thread nD τ) sc3 fullShare (outsAt0 m c n hn).s3) := rfl

theorem PhiS_pos (c : Dev nD) (n : ℕ) (h : n ≤ cfg0.N) (hz : n ≠ 0) :
    PhiS m c n h = iprop(owns (c : Thread nD τ) sc0 fullShare (outsAt0 m c (n - 1) (by omega)).s0 ∗ owns (c : Thread nD τ) sc1 fullShare (outsAt0 m c (n - 1) (by omega)).s1 ∗ owns (c : Thread nD τ) sc2 fullShare (outsAt0 m c (n - 1) (by omega)).s2 ∗ owns (c : Thread nD τ) sc3 fullShare (outsAt0 m c (n - 1) (by omega)).s3) := by
  cases n with
  | zero => exact absurd rfl hz
  | succ n => rfl

/-! ## The pipeline's proof data -/

/-- The proof data of the pipeline on core c: the arrays as the region finds them; after the body at point t each
    input's buffer at its block and the result buffers at the recursion's values; the invariant above; nothing
    owed; the magnitudes and the angles, each read through two windows, at half a share for each of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).o8
    | ⟨9, _⟩ => (outsAt0 m c t.val t.isLt).o9
    | ⟨_ + 10, h⟩ => absurd h (Nat.not_lt.2 (Nat.le_add_left _ _))
  Φ t := PhiS m c t.val (Nat.le_of_lt_succ t.isLt)
  q w := match w with
    | ⟨0, _⟩ => fullShare
    | ⟨1, _⟩ => fullShare
    | ⟨2, _⟩ => fullShare.left
    | ⟨3, _⟩ => fullShare.left
    | ⟨4, _⟩ => fullShare.right
    | ⟨5, _⟩ => fullShare.right
    | ⟨6, _⟩ => fullShare
    | ⟨7, _⟩ => fullShare
    | ⟨8, _⟩ => fullShare
    | ⟨9, _⟩ => fullShare
    | ⟨_ + 10, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]

/-! Each input's current staging buffer holds its block at every point, fetched there or not. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

end Cert.Kernel.Hand

end
-- ==== Proof.K.Body.lean ====
/-
  The body obligation of the power-flow kernel as printed (read at the word level) at a generic grid point: the point's residue modulo 4 says
  which of the three cases it is in, and that case's run applies. The invariant hands the body the four accumulators
  at what the point before left (at anything at the first point) and takes them back at this point's contents; the
  input windows' buffers hold their blocks and are handed back as found; the two result windows' buffers are handed
  back untouched where the window is idle, and with the residual blocks where j = 3.
-/
import proofs.«131548_j16355235463758_1_alg».proof.Proof.K.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [liveAt_in 0 (by decide) t], after0_0]
  rw [show (dats m 0 c).leavesExact 1 t = owns (c : Thread nD τ) (ms1 t) fullShare ((dats m 0 c).after 1 t) from by
    unfold Dat.leavesExact; rw [liveAt_in 1 (by decide) t], after0_1]
  rw [show (dats m 0 c).leavesExact 2 t = owns (c : Thread nD τ) (ms2 t) fullShare ((dats m 0 c).after 2 t) from by
    unfold Dat.leavesExact; rw [liveAt_in 2 (by decide) t], after0_2]
  rw [show (dats m 0 c).leavesExact 3 t = owns (c : Thread nD τ) (ms3 t) fullShare ((dats m 0 c).after 3 t) from by
    unfold Dat.leavesExact; rw [liveAt_in 3 (by decide) t], after0_3]
  rw [show (dats m 0 c).leavesExact 4 t = owns (c : Thread nD τ) (ms4 t) fullShare ((dats m 0 c).after 4 t) from by
    unfold Dat.leavesExact; rw [liveAt_in 4 (by decide) t], after0_4]
  rw [show (dats m 0 c).leavesExact 5 t = owns (c : Thread nD τ) (ms5 t) fullShare ((dats m 0 c).after 5 t) from by
    unfold Dat.leavesExact; rw [liveAt_in 5 (by decide) t], after0_5]
  rw [show (dats m 0 c).leavesExact 6 t = owns (c : Thread nD τ) (ms6 t) fullShare ((dats m 0 c).after 6 t) from by
    unfold Dat.leavesExact; rw [liveAt_in 6 (by decide) t], after0_6]
  rw [show (dats m 0 c).leavesExact 7 t = owns (c : Thread nD τ) (ms7 t) fullShare ((dats m 0 c).after 7 t) from by
    unfold Dat.leavesExact; rw [liveAt_in 7 (by decide) t], after0_7]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dats m 0 c) 8 t (idleAt_8 t hc1) (noFlush_8 t hc1), Dat.leavesExact_idle (dats m 0 c) 9 t (idleAt_9 t hc1) (noFlush_9 t hc1)]
    rw [outsAt0_A m c t h0]
    unfold outA; dsimp only
    by_cases hz : t.val = 0
    · rw [PhiS_castSucc m c t, PhiS_zero m c _ _ hz]; unfold PhiAny
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA m c t hc0 hc1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%es0, HS0⟩, ⟨%es1, HS1⟩, ⟨%es2, HS2⟩, ⟨%es3, HS3⟩⟩
      isplitl [HS0 HS1 HS2 HS3]
      ·
        isplitl [HS0]
        · unfold owns; iexists _; isplitr
          swap; · iexact HS0
          ipureintro; exact View.read_writes_of_cover _ _ _ _ _ (coverA0 m c t hc0 hc1)
        isplitl [HS1]
        · unfold owns; iexists _; isplitr
          swap; · iexact HS1
          ipureintro; exact View.read_writes_of_cover _ _ _ _ _ (coverA1 m c t hc0 hc1)
        isplitl [HS2]
        · unfold owns; iexists _; isplitr
          swap; · iexact HS2
          ipureintro; exact View.read_writes_of_cover _ _ _ _ _ (coverA2 m c t hc0 hc1)
        unfold owns; iexists _; isplitr
        swap; · iexact HS3
        ipureintro; exact View.read_writes_of_cover _ _ _ _ _ (coverA3 m c t hc0 hc1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA m c t hc0 hc1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, ⟨%es0, HS0⟩, ⟨%es1, HS1⟩, ⟨%es2, HS2⟩, ⟨%es3, HS3⟩⟩
      isplitl [HS0 HS1 HS2 HS3]
      ·
        isplitl [HS0]
        · unfold owns; iexists _; isplitr
          swap; · iexact HS0
          ipureintro; exact View.read_writes_of_cover _ _ _ _ _ (coverA0 m c t hc0 hc1)
        isplitl [HS1]
        · unfold owns; iexists _; isplitr
          swap; · iexact HS1
          ipureintro; exact View.read_writes_of_cover _ _ _ _ _ (coverA1 m c t hc0 hc1)
        isplitl [HS2]
        · unfold owns; iexists _; isplitr
          swap; · iexact HS2
          ipureintro; exact View.read_writes_of_cover _ _ _ _ _ (coverA2 m c t hc0 hc1)
        unfold owns; iexists _; isplitr
        swap; · iexact HS3
        ipureintro; exact View.read_writes_of_cover _ _ _ _ _ (coverA3 m c t hc0 hc1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hc0 : ¬cond0_0 (grid0.coords t) := fun h => h0 ((hcond0_0 t).mp h)
    have hz : t.val ≠ 0 := fun h => h0 (by rw [h])
    by_cases h1 : t.val % 4 = 3
    · have hc1 : cond0_1 (grid0.coords t) := (hcond0_1 t).mpr h1
      rw [show (dats m 0 c).leavesExact 8 t = owns (c : Thread nD τ) (ms8 t) fullShare ((dats m 0 c).after 8 t) from by
        unfold Dat.leavesExact; rw [liveAt_8 t hc1], after0_8]
      rw [show (dats m 0 c).leavesExact 9 t = owns (c : Thread nD τ) (ms9 t) fullShare ((dats m 0 c).after 9 t) from by
        unfold Dat.leavesExact; rw [liveAt_9 t hc1], after0_9]
      rw [outsAt0_C m c t h0 h1]
      unfold outC; dsimp only
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC m c t hc0 hc1 _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, ⟨%es0, HS0⟩, ⟨%es1, HS1⟩, ⟨%es2, HS2⟩, ⟨%es3, HS3⟩⟩
      isplitl [HS0 HS1 HS2 HS3]
      ·
        isplitl [HS0]
        · unfold owns; iexists _; isplitr
          swap; · iexact HS0
          ipureintro; exact View.read_writes_of_cover _ _ _ _ _ (coverC0 m c t hc0 hc1 _ _ _ _)
        isplitl [HS1]
        · unfold owns; iexists _; isplitr
          swap; · iexact HS1
          ipureintro; exact View.read_writes_of_cover _ _ _ _ _ (coverC1 m c t hc0 hc1 _ _ _ _)
        isplitl [HS2]
        · unfold owns; iexists _; isplitr
          swap; · iexact HS2
          ipureintro; exact View.read_writes_of_cover _ _ _ _ _ (coverC2 m c t hc0 hc1 _ _ _ _)
        unfold owns; iexists _; isplitr
        swap; · iexact HS3
        ipureintro; exact View.read_writes_of_cover _ _ _ _ _ (coverC3 m c t hc0 hc1 _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverC8 m c t hc0 hc1 _ _ _ _)
      unfold owns; iexists _; isplitr
      swap; · iexact H9
      ipureintro; exact View.read_writes_of_cover _ _ _ _ _ (coverC9 m c t hc0 hc1 _ _ _ _)
    · have hc1 : ¬cond0_1 (grid0.coords t) := fun h => h1 ((hcond0_1 t).mp h)
      rw [Dat.leavesExact_idle (dats m 0 c) 8 t (idleAt_8 t hc1) (noFlush_8 t hc1), Dat.leavesExact_idle (dats m 0 c) 9 t (idleAt_9 t hc1) (noFlush_9 t hc1)]
      rw [outsAt0_B m c t h0 h1]
      unfold outB; dsimp only
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB m c t hc0 hc1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%es0, HS0⟩, ⟨%es1, HS1⟩, ⟨%es2, HS2⟩, ⟨%es3, HS3⟩⟩
      isplitl [HS0 HS1 HS2 HS3]
      ·
        isplitl [HS0]
        · unfold owns; iexists _; isplitr
          swap; · iexact HS0
          ipureintro; exact View.read_writes_of_cover _ _ _ _ _ (coverB0 m c t hc0 hc1 _ _ _ _)
        isplitl [HS1]
        · unfold owns; iexists _; isplitr
          swap; · iexact HS1
          ipureintro; exact View.read_writes_of_cover _ _ _ _ _ (coverB1 m c t hc0 hc1 _ _ _ _)
        isplitl [HS2]
        · unfold owns; iexists _; isplitr
          swap; · iexact HS2
          ipureintro; exact View.read_writes_of_cover _ _ _ _ _ (coverB2 m c t hc0 hc1 _ _ _ _)
        unfold owns; iexists _; isplitr
        swap; · iexact HS3
        ipureintro; exact View.read_writes_of_cover _ _ _ _ _ (coverB3 m c t hc0 hc1 _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Launch.lean ====
/-
  The launch of the power-flow program as printed (read at the word level) and its frame. The program is the one kernel region; the region's
  ten windows stand on eight arrays, the magnitudes and the angles each being read through two windows (one indexed
  by the source block, one by the output block). At entry the full share of each of those two arrays is split in two
  halves, one for each window on it; the other six arrays go to their windows whole. The four accumulators, the
  core's only other scoped buffers, enter the invariant at some contents and leave it so. The run ends with every
  window's array at what the write-backs of the sixteen points leave; an input window's array is never written, so
  the six argument arrays end as they began.
-/
import proofs.«131548_j16355235463758_1_alg».proof.Proof.K.Body
import Idealize.ShloMosaic.Lib.Pipeline.Launch
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt among the windows -/

/-- A window's array holds at entry what the region finds in the buffer behind it. -/
theorem arrAt_zero (c : Dev nD) (w : Fin cfg0.W) : (dats m 0 c).arrAt w 0 = V m c (Pipeline.arrRef spec0 w) := rfl

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.left := rfl
theorem share_4 (c : Dev nD) : (dats m 0 c).share 4 = fullShare.right := rfl
theorem share_5 (c : Dev nD) : (dats m 0 c).share 5 = fullShare.right := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem arrRef_0 : Pipeline.arrRef spec0 0 = main_arg4 := rfl
theorem arrRef_1 : Pipeline.arrRef spec0 1 = main_arg5 := rfl
theorem arrRef_2 : Pipeline.arrRef spec0 2 = main_arg0 := rfl
theorem arrRef_3 : Pipeline.arrRef spec0 3 = main_arg1 := rfl
theorem arrRef_4 : Pipeline.arrRef spec0 4 = main_arg0 := rfl
theorem arrRef_5 : Pipeline.arrRef spec0 5 = main_arg1 := rfl
theorem arrRef_6 : Pipeline.arrRef spec0 6 = main_arg2 := rfl
theorem arrRef_7 : Pipeline.arrRef spec0 7 = main_arg3 := rfl
theorem arrRef_8 : Pipeline.arrRef spec0 8 = main_v0_0 := rfl
theorem arrRef_9 : Pipeline.arrRef spec0 9 = main_v0_1 := rfl

/-- The buffers behind the windows' arrays, each whole at the full share, make the proof data's arrays at entry:
    the magnitudes' and the angles' full shares split between their two windows. -/
theorem hsplit (c : Dev nD) :
    (Pipeline.arrBufs spec0 c (V m c) : sProp 𝕄) ⊢ (dats m 0 c).arrays ((dats m 0 c).arrAt · 0) := by
  have hL : (Pipeline.arrBufs spec0 c (V m c) : sProp 𝕄)
      = iprop((((c.tc : Thread nD τ).loc main_arg4) ↦{fullShare} V m c main_arg4) ∗ (((c.tc : Thread nD τ).loc main_arg5) ↦{fullShare} V m c main_arg5) ∗ (((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_v0_0) ↦{fullShare} V m c main_v0_0) ∗ (((c.tc : Thread nD τ).loc main_v0_1) ↦{fullShare} V m c main_v0_1)) := by
    unfold Pipeline.arrBufs
    exact BI.bigSep_eq_bigSepL_of_eq [main_arg4, main_arg5, main_arg0, main_arg1, main_arg2, main_arg3, main_v0_0, main_v0_1] (by decide) (by decide) _
  rw [hL]
  unfold Dat.arrays
  rw [bigSep_W0]
  simp only [View.set_whole, arrAt_zero m c]
  simp only [share_0 m c, share_1 m c, share_2 m c, share_3 m c, share_4 m c, share_5 m c, share_6 m c, share_7 m c, share_8 m c, share_9 m c, arrRef_0, arrRef_1, arrRef_2, arrRef_3, arrRef_4, arrRef_5, arrRef_6, arrRef_7, arrRef_8, arrRef_9]
  iintro ⟨H4, H5, H0, H1, H2, H3, H6, H7⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H4]; · iexact H4
  isplitl [H5]; · iexact H5
  isplitl [H0l]; · iexact H0l
  isplitl [H1l]; · iexact H1l
  isplitl [H0r]; · iexact H0r
  isplitl [H1r]; · iexact H1r
  isplitl [H2]; · iexact H2
  isplitl [H3]; · iexact H3
  isplitl [H6]; · iexact H6
  iexact H7

/-! ## The invariant at entry and at exit -/

/-- The core's scoped buffers that are no staging buffer are the four accumulators, owned at some contents. -/
theorem scopedRest_eq (c : Dev nD) : (Pipeline.scopedRest spec0 c : sProp 𝕄) = PhiAny c := by
  rw [scopedRest0_eq]; unfold PhiAny; simp only [sc0, sc1, sc2, sc3, owns_whole]; try rfl

theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl, scopedRest_eq]
  iintro ⟨-, H⟩; iexact H

theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scopedRest_eq]
  unfold PhiAny
  iintro ⟨HS0, HS1, HS2, HS3⟩
  isplitr; · iempintro
  isplitl [HS0]; · iexists _; iexact HS0
  isplitl [HS1]; · iexists _; iexact HS1
  isplitl [HS2]; · iexists _; iexact HS2
  iexists _; iexact HS3

/-! ## The run -/

set_option backward.isDefEq.respectTransparency.types false in
/-- From any memory with zero counters every weakly fair execution of the program terminates, and every final state
    has each window's array at what the write-backs of all sixteen points leave. -/
theorem run_main : θ_run defs (onTc (τ := τ) (main (F := F))) ⟨m, fun _ => 0, ρ⟩
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (Rounds.initOf (Pipeline.cells cfgs cellOf_inj) (Pipeline.launchToks cfgs cellOf_inj)) .rfl
    (V m) (Pipeline.hmain_region cfgs 0 defs₀ Variants.none m main (fun c => rfl))
    (hsplit m) (fun _ => BI.emp) (fun _ => BI.emp) (fun _ => BI.emp)
    (fun c => by rw [unscopedRest0_eq]; iintro -; isplitr <;> iempintro)
    (hin m) (hout m) (fun _ _ => True)
    (fun c s' => by iintro ⟨-, -, HSI⟩; imodintro; isplitr; · ipureintro; trivial
                    iexact HSI)
    (fun s h c w => (h c).1 w)

/-- info: 'Cert.Kernel.Hand.run_main' depends on axioms: [propext, Classical.choice, Quot.sound] -/
#guard_msgs in #print axioms run_main

/-! ## The frame -/

/-- The six argument arrays end as they began: each is the array of an input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c 2).trans (((dats m 0 c).arrAt_in 2 rfl _).trans (A_eq m c 2))),
     ((h c 3).trans (((dats m 0 c).arrAt_in 3 rfl _).trans (A_eq m c 3))),
     ((h c 6).trans (((dats m 0 c).arrAt_in 6 rfl _).trans (A_eq m c 6))),
     ((h c 7).trans (((dats m 0 c).arrAt_in 7 rfl _).trans (A_eq m c 7))),
     ((h c 0).trans (((dats m 0 c).arrAt_in 0 rfl _).trans (A_eq m c 0))),
     ((h c 1).trans (((dats m 0 c).arrAt_in 1 rfl _).trans (A_eq m c 1)))⟩) (run_main m ρ)

end Cert.Kernel.Hand

end
-- ==== Proof.KI.Runs.lean ====
/-
  What the three runs of the power-flow kernel's body share. The grid is 4 × 4, point t = 4·i + j with i the block of
  1024 output buses and j the block of 1024 source buses. The body zeroes its four accumulators where j = 0, adds the
  four partial products of the point's blocks into them at every point, and where j = 3 combines them with the
  output block's own angles and magnitudes into the two residual blocks; at the other points the two result windows
  are idle and are not written back. Here: the two branch conditions in closed form over the grid, where the result
  windows are idle and written back, and the names of the staging memrefs at a point.
-/
import proofs.«131548_j16355235463758_1_alg».proof.Proof.Gen.KernelIdeal.Launch
import proofs.«131548_j16355235463758_1_alg».proof.Proof.Gen.KernelIdeal.Skeleton
import proofs.«131548_j16355235463758_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The first branch (the accumulators are zeroed) is taken where the source-block coordinate is 0. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

/-- The second branch (the residual blocks are stored) is taken where the source-block coordinate is 3. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle and written back -/

theorem liveAt_in : ∀ (w : Fin 10), w.val < 8 → ∀ t : Fin cfg0.N, cfg0.idle w (grid0.coords t) = false := by decide +kernel
theorem idleAt_8 : ∀ t : Fin cfg0.N, ¬cond0_1 (grid0.coords t) → cfg0.idle 8 (grid0.coords t) = true := by decide +kernel
theorem idleAt_9 : ∀ t : Fin cfg0.N, ¬cond0_1 (grid0.coords t) → cfg0.idle 9 (grid0.coords t) = true := by decide +kernel
theorem noFlush_8 : ∀ t : Fin cfg0.N, ¬cond0_1 (grid0.coords t) → (cfg0.win 8).flush t = false := by decide +kernel
theorem noFlush_9 : ∀ t : Fin cfg0.N, ¬cond0_1 (grid0.coords t) → (cfg0.win 9).flush t = false := by decide +kernel
theorem liveAt_8 : ∀ t : Fin cfg0.N, cond0_1 (grid0.coords t) → cfg0.idle 8 (grid0.coords t) = false := by decide +kernel
theorem liveAt_9 : ∀ t : Fin cfg0.N, cond0_1 (grid0.coords t) → cfg0.idle 9 (grid0.coords t) = false := by decide +kernel

/-! ## The staging memrefs at a point, as the pipeline passes them to the body -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S64x1024 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S64x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S64x1024 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S64x1024 .f32 := win0_9.stage (cfg0.slots t 9)
abbrev hs9 (t : Fin cfg0.N) : (ms9 t).IsWhole := hstage0_9 ((cfg0.slots t 9).cast nbuf0_9)

/-- The four accumulators: whole scoped buffers of the kernel's own, passed beside the windows. -/
abbrev sc0 : Memref sig .tc .vmem S64x1024 .f32 := Memref.whole cc0_scratch0
abbrev sc1 : Memref sig .tc .vmem S64x1024 .f32 := Memref.whole cc0_scratch1
abbrev sc2 : Memref sig .tc .vmem S64x1024 .f32 := Memref.whole cc0_scratch2
abbrev sc3 : Memref sig .tc .vmem S64x1024 .f32 := Memref.whole cc0_scratch3

/-- One view through which the contents of a 64 × 1024 buffer are stated (the choice does not matter). -/
abbrev VB : View sig .tc .vmem S64x1024 .f32 := sc0.view

/-- A piece of a 64 × 1024 buffer. -/
abbrev Pc (F : FTy → Type) [FloatOps F] : Type := View.Piece (Elt F) S64x1024 .f32

end Cert.KernelIdeal.Hand

end
-- ==== Proof.KI.RunA.lean ====
/-
  The body's run at a point where the source block is the first (j = 0): the four accumulators are zeroed and the
  point's four partial products added into them; the two result windows are idle and handed back as they were found.
  What each accumulator ends with, as the pieces its stores leave, is found by the run itself.
-/
import proofs.«131548_j16355235463758_1_alg».proof.Proof.KI.Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the four accumulators where j = 0, WITH the proof that on whole staging memrefs, the
    inputs at their contents, the two result buffers at contents handed back untouched and the accumulators at
    anything, the body runs to the continuation holding the inputs as they were and each accumulator with its pieces
    written. -/
noncomputable def kernelRun0_A (c : Dev nD) (i : grid0.Coords) (a2 : Memref sig .tc .vmem S1024x1024 .f32) (h2 : a2.IsWhole) (a3 : Memref sig .tc .vmem S1024x1024 .f32) (h3 : a3.IsWhole) (a4 : Memref sig .tc .vmem S64x1024 .f32) (h4 : a4.IsWhole) (a5 : Memref sig .tc .vmem S64x1024 .f32) (h5 : a5.IsWhole) (a6 : Memref sig .tc .vmem S64x1024 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S64x1024 .f32) (h12 : a12.IsWhole) (a13 : Memref sig .tc .vmem S64x1024 .f32) (h13 : a13.IsWhole) (a14 : Memref sig .tc .vmem S64x1024 .f32) (h14 : a14.IsWhole) (a15 : Memref sig .tc .vmem S64x1024 .f32) (h15 : a15.IsWhole) (hc0 : cond0_0 i) (hc1 : ¬cond0_1 i)
    (x0 x1 : Vec F S1024x1024 .f32) (x2 x3 x4 x5 x6 x7 : Vec F S64x1024 .f32) :
    Σ' (LS0 LS1 LS2 : List (Pc F)), { LS3 : List (Pc F) //
      ∀ (xi8 xi9 : Vec F S64x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xi8 ∗ owns (c : Thread nD τ) a11 fullShare xi9
            ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xi8 ∗ owns (c : Thread nD τ) a11 fullShare xi9
                ∗ (∃ f, a12.view.loc (c : Thread nD τ) ↦[a12.view.set]{fullShare} a12.view.writes (Elt F) f LS0)
                ∗ (∃ f, a13.view.loc (c : Thread nD τ) ↦[a13.view.set]{fullShare} a13.view.writes (Elt F) f LS1)
                ∗ (∃ f, a14.view.loc (c : Thread nD τ) ↦[a14.view.set]{fullShare} a14.view.writes (Elt F) f LS2)
                ∗ (∃ f, a15.view.loc (c : Thread nD τ) ↦[a15.view.set]{fullShare} a15.view.writes (Elt F) f LS3)) -∗ K ⟨⟩))
          ⊢ wp frame (wpE (defs₀ (F := F)) Variants.none c none) E (cc0__power_flow_kernel i a2 h2 a3 h3 a4 h4 a5 h5 a6 h6 a7 h7 a8 h8 a9 h9 a10 h10 a11 h11 a12 h12 a13 h13 a14 h14 a15 h15) K } := by
  refine ⟨?_, ?_, ?_, ?_, fun xi8 xi9 E K => ?run⟩
  case run =>
    simp only [cc0__power_flow_kernel_eq_skeleton]; unfold cc0__power_flow_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, ⟨%ds2, %fs2, -, HS2⟩, ⟨%ds3, %fs3, -, HS3⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6; obtain rfl := h9.eq_unread hf7
    obtain rfl := h10.eq_unread hf8; obtain rfl := h11.eq_unread hf9
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [HS0]; · iexists _; iexact HS0
    isplitl [HS1]; · iexists _; iexact HS1
    isplitl [HS2]; · iexists _; iexact HS2
    iexists _; iexact HS3

end Cert.KernelIdeal.Hand

end
-- ==== Proof.KI.RunB.lean ====
/-
  The body's run at a point where the source block is neither the first nor the last (j = 1 or 2): the point's four
  partial products are added into the four accumulators, which hold what the point before left; the two result
  windows are idle and handed back as they were found.
-/
import proofs.«131548_j16355235463758_1_alg».proof.Proof.KI.RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the four accumulators where j is 1 or 2, WITH the proof that on whole staging
    memrefs, the inputs at their contents, the two result buffers at contents handed back untouched and the
    accumulators at the contents the point before left, the body runs to the continuation holding the inputs as they
    were and each accumulator with its pieces written. -/
noncomputable def kernelRun0_B (c : Dev nD) (i : grid0.Coords) (a2 : Memref sig .tc .vmem S1024x1024 .f32) (h2 : a2.IsWhole) (a3 : Memref sig .tc .vmem S1024x1024 .f32) (h3 : a3.IsWhole) (a4 : Memref sig .tc .vmem S64x1024 .f32) (h4 : a4.IsWhole) (a5 : Memref sig .tc .vmem S64x1024 .f32) (h5 : a5.IsWhole) (a6 : Memref sig .tc .vmem S64x1024 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S64x1024 .f32) (h12 : a12.IsWhole) (a13 : Memref sig .tc .vmem S64x1024 .f32) (h13 : a13.IsWhole) (a14 : Memref sig .tc .vmem S64x1024 .f32) (h14 : a14.IsWhole) (a15 : Memref sig .tc .vmem S64x1024 .f32) (h15 : a15.IsWhole) (hc0 : ¬cond0_0 i) (hc1 : ¬cond0_1 i)
    (x0 x1 : Vec F S1024x1024 .f32) (x2 x3 x4 x5 x6 x7 : Vec F S64x1024 .f32) (xs0 xs1 xs2 xs3 : Vec F S64x1024 .f32) :
    Σ' (LS0 LS1 LS2 : List (Pc F)), { LS3 : List (Pc F) //
      ∀ (xi8 xi9 : Vec F S64x1024 .f32) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xi8 ∗ owns (c : Thread nD τ) a11 fullShare xi9
            ∗ owns (c : Thread nD τ) a12 fullShare xs0 ∗ owns (c : Thread nD τ) a13 fullShare xs1 ∗ owns (c : Thread nD τ) a14 fullShare xs2 ∗ owns (c : Thread nD τ) a15 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ owns (c : Thread nD τ) a10 fullShare xi8 ∗ owns (c : Thread nD τ) a11 fullShare xi9
                ∗ (∃ f, a12.view.loc (c : Thread nD τ) ↦[a12.view.set]{fullShare} a12.view.writes (Elt F) f LS0)
                ∗ (∃ f, a13.view.loc (c : Thread nD τ) ↦[a13.view.set]{fullShare} a13.view.writes (Elt F) f LS1)
                ∗ (∃ f, a14.view.loc (c : Thread nD τ) ↦[a14.view.set]{fullShare} a14.view.writes (Elt F) f LS2)
                ∗ (∃ f, a15.view.loc (c : Thread nD τ) ↦[a15.view.set]{fullShare} a15.view.writes (Elt F) f LS3)) -∗ K ⟨⟩))
          ⊢ wp frame (wpE (defs₀ (F := F)) Variants.none c none) E (cc0__power_flow_kernel i a2 h2 a3 h3 a4 h4 a5 h5 a6 h6 a7 h7 a8 h8 a9 h9 a10 h10 a11 h11 a12 h12 a13 h13 a14 h14 a15 h15) K } := by
  refine ⟨?_, ?_, ?_, ?_, fun xi8 xi9 E K => ?run⟩
  case run =>
    simp only [cc0__power_flow_kernel_eq_skeleton]; unfold cc0__power_flow_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, ⟨%fs1, %hfs1, HS1⟩, ⟨%fs2, %hfs2, HS2⟩, ⟨%fs3, %hfs3, HS3⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6; obtain rfl := h9.eq_unread hf7
    obtain rfl := h10.eq_unread hf8; obtain rfl := h11.eq_unread hf9
    obtain rfl := h12.eq_unread hfs0; obtain rfl := h13.eq_unread hfs1; obtain rfl := h14.eq_unread hfs2; obtain rfl := h15.eq_unread hfs3
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]
    · iexists _; isplitr; · ipureintro; exact h10.read_unread _
      iexact H8
    isplitl [H9]
    · iexists _; isplitr; · ipureintro; exact h11.read_unread _
      iexact H9
    isplitl [HS0]; · iexists _; iexact HS0
    isplitl [HS1]; · iexists _; iexact HS1
    isplitl [HS2]; · iexists _; iexact HS2
    iexists _; iexact HS3

end Cert.KernelIdeal.Hand

end
-- ==== Proof.KI.RunC.lean ====
/-
  The body's run at a point where the source block is the last (j = 3): the point's four partial products are added
  into the four accumulators, which hold what the point before left, and the two residual blocks are computed from
  the completed accumulators and the output block's own magnitudes, angles and injections and stored whole into the
  two result buffers.
-/
import proofs.«131548_j16355235463758_1_alg».proof.Proof.KI.RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the two result buffers and the four accumulators where j = 3, WITH the proof that on
    whole staging memrefs, the inputs at their contents, the result buffers at anything and the accumulators at the
    contents the point before left, the body runs to the continuation holding the inputs as they were and each result
    buffer and accumulator with its pieces written. -/
noncomputable def kernelRun0_C (c : Dev nD) (i : grid0.Coords) (a2 : Memref sig .tc .vmem S1024x1024 .f32) (h2 : a2.IsWhole) (a3 : Memref sig .tc .vmem S1024x1024 .f32) (h3 : a3.IsWhole) (a4 : Memref sig .tc .vmem S64x1024 .f32) (h4 : a4.IsWhole) (a5 : Memref sig .tc .vmem S64x1024 .f32) (h5 : a5.IsWhole) (a6 : Memref sig .tc .vmem S64x1024 .f32) (h6 : a6.IsWhole) (a7 : Memref sig .tc .vmem S64x1024 .f32) (h7 : a7.IsWhole) (a8 : Memref sig .tc .vmem S64x1024 .f32) (h8 : a8.IsWhole) (a9 : Memref sig .tc .vmem S64x1024 .f32) (h9 : a9.IsWhole) (a10 : Memref sig .tc .vmem S64x1024 .f32) (h10 : a10.IsWhole) (a11 : Memref sig .tc .vmem S64x1024 .f32) (h11 : a11.IsWhole) (a12 : Memref sig .tc .vmem S64x1024 .f32) (h12 : a12.IsWhole) (a13 : Memref sig .tc .vmem S64x1024 .f32) (h13 : a13.IsWhole) (a14 : Memref sig .tc .vmem S64x1024 .f32) (h14 : a14.IsWhole) (a15 : Memref sig .tc .vmem S64x1024 .f32) (h15 : a15.IsWhole) (hc0 : ¬cond0_0 i) (hc1 : cond0_1 i)
    (x0 x1 : Vec F S1024x1024 .f32) (x2 x3 x4 x5 x6 x7 : Vec F S64x1024 .f32) (xs0 xs1 xs2 xs3 : Vec F S64x1024 .f32) :
    Σ' (L8 L9 LS0 LS1 LS2 : List (Pc F)), { LS3 : List (Pc F) //
      ∀ (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7 ∗ (∃ d, owns (c : Thread nD τ) a10 fullShare d) ∗ (∃ d, owns (c : Thread nD τ) a11 fullShare d)
            ∗ owns (c : Thread nD τ) a12 fullShare xs0 ∗ owns (c : Thread nD τ) a13 fullShare xs1 ∗ owns (c : Thread nD τ) a14 fullShare xs2 ∗ owns (c : Thread nD τ) a15 fullShare xs3
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare x6 ∗ owns (c : Thread nD τ) a9 fullShare x7
                ∗ (∃ f, a10.view.loc (c : Thread nD τ) ↦[a10.view.set]{fullShare} a10.view.writes (Elt F) f L8)
                ∗ (∃ f, a11.view.loc (c : Thread nD τ) ↦[a11.view.set]{fullShare} a11.view.writes (Elt F) f L9)
                ∗ (∃ f, a12.view.loc (c : Thread nD τ) ↦[a12.view.set]{fullShare} a12.view.writes (Elt F) f LS0)
                ∗ (∃ f, a13.view.loc (c : Thread nD τ) ↦[a13.view.set]{fullShare} a13.view.writes (Elt F) f LS1)
                ∗ (∃ f, a14.view.loc (c : Thread nD τ) ↦[a14.view.set]{fullShare} a14.view.writes (Elt F) f LS2)
                ∗ (∃ f, a15.view.loc (c : Thread nD τ) ↦[a15.view.set]{fullShare} a15.view.writes (Elt F) f LS3)) -∗ K ⟨⟩))
          ⊢ wp frame (wpE (defs₀ (F := F)) Variants.none c none) E (cc0__power_flow_kernel i a2 h2 a3 h3 a4 h4 a5 h5 a6 h6 a7 h7 a8 h8 a9 h9 a10 h10 a11 h11 a12 h12 a13 h13 a14 h14 a15 h15) K } := by
  refine ⟨?_, ?_, ?_, ?_, ?_, ?_, fun E K => ?run⟩
  case run =>
    simp only [cc0__power_flow_kernel_eq_skeleton]; unfold cc0__power_flow_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, ⟨%fs1, %hfs1, HS1⟩, ⟨%fs2, %hfs2, HS2⟩, ⟨%fs3, %hfs3, HS3⟩, Hk⟩
    obtain rfl := h2.eq_unread hf0; obtain rfl := h3.eq_unread hf1; obtain rfl := h4.eq_unread hf2; obtain rfl := h5.eq_unread hf3
    obtain rfl := h6.eq_unread hf4; obtain rfl := h7.eq_unread hf5; obtain rfl := h8.eq_unread hf6; obtain rfl := h9.eq_unread hf7
    obtain rfl := h12.eq_unread hfs0; obtain rfl := h13.eq_unread hfs1; obtain rfl := h14.eq_unread hfs2; obtain rfl := h15.eq_unread hfs3
    sl_exec (disch := first | exact hc0 | exact hc1)
    sl_step
    iapply Hk
    isplitl [H0]
    · iexists _; isplitr; · ipureintro; exact h2.read_unread _
      iexact H0
    isplitl [H1]
    · iexists _; isplitr; · ipureintro; exact h3.read_unread _
      iexact H1
    isplitl [H2]
    · iexists _; isplitr; · ipureintro; exact h4.read_unread _
      iexact H2
    isplitl [H3]
    · iexists _; isplitr; · ipureintro; exact h5.read_unread _
      iexact H3
    isplitl [H4]
    · iexists _; isplitr; · ipureintro; exact h6.read_unread _
      iexact H4
    isplitl [H5]
    · iexists _; isplitr; · ipureintro; exact h7.read_unread _
      iexact H5
    isplitl [H6]
    · iexists _; isplitr; · ipureintro; exact h8.read_unread _
      iexact H6
    isplitl [H7]
    · iexists _; isplitr; · ipureintro; exact h9.read_unread _
      iexact H7
    isplitl [H8]; · iexists _; iexact H8
    isplitl [H9]; · iexists _; iexact H9
    isplitl [HS0]; · iexists _; iexact HS0
    isplitl [HS1]; · iexists _; iexact HS1
    isplitl [HS2]; · iexists _; iexact HS2
    iexists _; iexact HS3

end Cert.KernelIdeal.Hand

end
-- ==== Proof.KI.Frame.lean ====
/-
  The frame of the idealized power-flow kernel, point by point. What the four accumulators and the two result buffers
  hold after each of the sixteen grid points is defined by recursion on the point: where j = 0 the accumulators are
  zeroed and take the point's four partial products; elsewhere they take what the point before left plus the point's
  partial products; where j = 3 the two result buffers take the residual blocks computed from the completed
  accumulators. The region's invariant holds the accumulators at those contents between points (at anything before
  the first point). The proof data name each input window's buffer at its block of the array (fetched at this point
  or kept from an earlier one) and the result windows' buffers at the recursion's values; the magnitudes and the
  angles, each read through two windows, are held by each of the two at half a share. The body obligation at a
  point is the run of the point's case.
-/
import proofs.«131548_j16355235463758_1_alg».proof.Proof.KI.RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and the windows' blocks -/

/-- Core c's buffer contents when the region is entered: the launch contents (no host operation precedes it). -/
abbrev V (c : Dev nD) (b : Ref sig .tc) : Buf (Elt F) ((c : Thread nD τ).loc b) := m ((c : Thread nD τ).loc b)

/-- Window w's block at point t, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What each case leaves -/

/-- The contents of the two result buffers and the four accumulators after a point. -/
structure Outs (F : FTy → Type) [FloatOps F] where
  o8 : Vec F S64x1024 .f32
  o9 : Vec F S64x1024 .f32
  s0 : Vec F S64x1024 .f32
  s1 : Vec F S64x1024 .f32
  s2 : Vec F S64x1024 .f32
  s3 : Vec F S64x1024 .f32

/-- A placeholder for a result buffer at a point where the window is idle: nothing consults it. -/
def junkV : Vec F S64x1024 .f32 := VB.read (Elt F) VB.junk

/-- A list of pieces read back over junk. -/
abbrev rd (L : List (Pc F)) : Vec F S64x1024 .f32 := VB.read (Elt F) (VB.writes (Elt F) VB.junk L)

/-- The run of case A (j = 0) at point t, on the point's memrefs and input blocks. -/
abbrev runA (c : Dev nD) (t : Fin cfg0.N) (hc0 : cond0_0 (grid0.coords t)) (hc1 : ¬cond0_1 (grid0.coords t)) :=
  kernelRun0_A (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) hc0 hc1 (iblk m c 0 t) (iblk m c 1 t) (iblk m c 2 t) (iblk m c 3 t) (iblk m c 4 t) (iblk m c 5 t) (iblk m c 6 t) (iblk m c 7 t)
/-- The run of case B (j = 1, 2) at point t, the accumulators found at xs. -/
abbrev runB (c : Dev nD) (t : Fin cfg0.N) (hc0 : ¬cond0_0 (grid0.coords t)) (hc1 : ¬cond0_1 (grid0.coords t)) (xs0 xs1 xs2 xs3 : Vec F S64x1024 .f32) :=
  kernelRun0_B (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) hc0 hc1 (iblk m c 0 t) (iblk m c 1 t) (iblk m c 2 t) (iblk m c 3 t) (iblk m c 4 t) (iblk m c 5 t) (iblk m c 6 t) (iblk m c 7 t) xs0 xs1 xs2 xs3
/-- The run of case C (j = 3) at point t, the accumulators found at xs. -/
abbrev runC (c : Dev nD) (t : Fin cfg0.N) (hc0 : ¬cond0_0 (grid0.coords t)) (hc1 : cond0_1 (grid0.coords t)) (xs0 xs1 xs2 xs3 : Vec F S64x1024 .f32) :=
  kernelRun0_C (F := F) c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) sc0 (Memref.isWhole_whole _) sc1 (Memref.isWhole_whole _) sc2 (Memref.isWhole_whole _) sc3 (Memref.isWhole_whole _) hc0 hc1 (iblk m c 0 t) (iblk m c 1 t) (iblk m c 2 t) (iblk m c 3 t) (iblk m c 4 t) (iblk m c 5 t) (iblk m c 6 t) (iblk m c 7 t) xs0 xs1 xs2 xs3

/-- What case A leaves. -/
def outA (c : Dev nD) (t : Fin cfg0.N) (hc0 : cond0_0 (grid0.coords t)) (hc1 : ¬cond0_1 (grid0.coords t)) : Outs F :=
  ⟨junkV, junkV, rd (runA m c t hc0 hc1).1, rd (runA m c t hc0 hc1).2.1, rd (runA m c t hc0 hc1).2.2.1, rd (runA m c t hc0 hc1).2.2.2.1⟩
/-- What case B leaves over xs. -/
def outB (c : Dev nD) (t : Fin cfg0.N) (hc0 : ¬cond0_0 (grid0.coords t)) (hc1 : ¬cond0_1 (grid0.coords t)) (p : Outs F) : Outs F :=
  ⟨junkV, junkV, rd (runB m c t hc0 hc1 p.s0 p.s1 p.s2 p.s3).1, rd (runB m c t hc0 hc1 p.s0 p.s1 p.s2 p.s3).2.1, rd (runB m c t hc0 hc1 p.s0 p.s1 p.s2 p.s3).2.2.1, rd (runB m c t hc0 hc1 p.s0 p.s1 p.s2 p.s3).2.2.2.1⟩
/-- What case C leaves over xs. -/
def outC (c : Dev nD) (t : Fin cfg0.N) (hc0 : ¬cond0_0 (grid0.coords t)) (hc1 : cond0_1 (grid0.coords t)) (p : Outs F) : Outs F :=
  ⟨rd (runC m c t hc0 hc1 p.s0 p.s1 p.s2 p.s3).1, rd (runC m c t hc0 hc1 p.s0 p.s1 p.s2 p.s3).2.1, rd (runC m c t hc0 hc1 p.s0 p.s1 p.s2 p.s3).2.2.1, rd (runC m c t hc0 hc1 p.s0 p.s1 p.s2 p.s3).2.2.2.1, rd (runC m c t hc0 hc1 p.s0 p.s1 p.s2 p.s3).2.2.2.2.1, rd (runC m c t hc0 hc1 p.s0 p.s1 p.s2 p.s3).2.2.2.2.2.1⟩

/-! Every list of pieces the runs find tiles its buffer (each store is of the whole block), so it covers it. -/

theorem coverA0 (c : Dev nD) (t) (hc0) (hc1) (y : S64x1024.Idx) : ∃ pc ∈ (runA m c t hc0 hc1).1, y ∈ pc.1.set := View.cover_of_tiledL _ S64x1024.size (by sl_kernel_rfl) y
theorem coverA1 (c : Dev nD) (t) (hc0) (hc1) (y : S64x1024.Idx) : ∃ pc ∈ (runA m c t hc0 hc1).2.1, y ∈ pc.1.set := View.cover_of_tiledL _ S64x1024.size (by sl_kernel_rfl) y
theorem coverA2 (c : Dev nD) (t) (hc0) (hc1) (y : S64x1024.Idx) : ∃ pc ∈ (runA m c t hc0 hc1).2.2.1, y ∈ pc.1.set := View.cover_of_tiledL _ S64x1024.size (by sl_kernel_rfl) y
theorem coverA3 (c : Dev nD) (t) (hc0) (hc1) (y : S64x1024.Idx) : ∃ pc ∈ (runA m c t hc0 hc1).2.2.2.1, y ∈ pc.1.set := View.cover_of_tiledL _ S64x1024.size (by sl_kernel_rfl) y
theorem coverB0 (c : Dev nD) (t) (hc0) (hc1) (a b d e) (y : S64x1024.Idx) : ∃ pc ∈ (runB m c t hc0 hc1 a b d e).1, y ∈ pc.1.set := View.cover_of_tiledL _ S64x1024.size (by sl_kernel_rfl) y
theorem coverB1 (c : Dev nD) (t) (hc0) (hc1) (a b d e) (y : S64x1024.Idx) : ∃ pc ∈ (runB m c t hc0 hc1 a b d e).2.1, y ∈ pc.1.set := View.cover_of_tiledL _ S64x1024.size (by sl_kernel_rfl) y
theorem coverB2 (c : Dev nD) (t) (hc0) (hc1) (a b d e) (y : S64x1024.Idx) : ∃ pc ∈ (runB m c t hc0 hc1 a b d e).2.2.1, y ∈ pc.1.set := View.cover_of_tiledL _ S64x1024.size (by sl_kernel_rfl) y
theorem coverB3 (c : Dev nD) (t) (hc0) (hc1) (a b d e) (y : S64x1024.Idx) : ∃ pc ∈ (runB m c t hc0 hc1 a b d e).2.2.2.1, y ∈ pc.1.set := View.cover_of_tiledL _ S64x1024.size (by sl_kernel_rfl) y
theorem coverC8 (c : Dev nD) (t) (hc0) (hc1) (a b d e) (y : S64x1024.Idx) : ∃ pc ∈ (runC m c t hc0 hc1 a b d e).1, y ∈ pc.1.set := View.cover_of_tiledL _ S64x1024.size (by sl_kernel_rfl) y
theorem coverC9 (c : Dev nD) (t) (hc0) (hc1) (a b d e) (y : S64x1024.Idx) : ∃ pc ∈ (runC m c t hc0 hc1 a b d e).2.1, y ∈ pc.1.set := View.cover_of_tiledL _ S64x1024.size (by sl_kernel_rfl) y
theorem coverC0 (c : Dev nD) (t) (hc0) (hc1) (a b d e) (y : S64x1024.Idx) : ∃ pc ∈ (runC m c t hc0 hc1 a b d e).2.2.1, y ∈ pc.1.set := View.cover_of_tiledL _ S64x1024.size (by sl_kernel_rfl) y
theorem coverC1 (c : Dev nD) (t) (hc0) (hc1) (a b d e) (y : S64x1024.Idx) : ∃ pc ∈ (runC m c t hc0 hc1 a b d e).2.2.2.1, y ∈ pc.1.set := View.cover_of_tiledL _ S64x1024.size (by sl_kernel_rfl) y
theorem coverC2 (c : Dev nD) (t) (hc0) (hc1) (a b d e) (y : S64x1024.Idx) : ∃ pc ∈ (runC m c t hc0 hc1 a b d e).2.2.2.2.1, y ∈ pc.1.set := View.cover_of_tiledL _ S64x1024.size (by sl_kernel_rfl) y
theorem coverC3 (c : Dev nD) (t) (hc0) (hc1) (a b d e) (y : S64x1024.Idx) : ∃ pc ∈ (runC m c t hc0 hc1 a b d e).2.2.2.2.2.1, y ∈ pc.1.set := View.cover_of_tiledL _ S64x1024.size (by sl_kernel_rfl) y

/-! ## What the buffers hold after each point -/

/-- THE ACCUMULATION: the result buffers and the accumulators after the body at position n, the case chosen by
    n modulo 4, cases B and C over what position n - 1 left. -/
def outsAt0 (c : Dev nD) : (n : ℕ) → n < cfg0.N → Outs F
  | 0, hn => outA m c ⟨0, hn⟩ ((hcond0_0 ⟨0, hn⟩).mpr (Nat.zero_mod _)) (fun h => (fun h => by (try dsimp only at h); omega) ((hcond0_1 ⟨0, hn⟩).mp h))
  | n + 1, hn =>
    if h0 : (n + 1) % 4 = 0 then
      outA m c ⟨n + 1, hn⟩ ((hcond0_0 ⟨n + 1, hn⟩).mpr h0) (fun h => (fun h => by (try dsimp only at h); omega) ((hcond0_1 ⟨n + 1, hn⟩).mp h))
    else
      if h1 : (n + 1) % 4 = 3 then
        outC m c ⟨n + 1, hn⟩ (fun h => h0 ((hcond0_0 ⟨n + 1, hn⟩).mp h)) ((hcond0_1 ⟨n + 1, hn⟩).mpr h1) (outsAt0 c n (Nat.lt_of_succ_lt hn))
      else
        outB m c ⟨n + 1, hn⟩ (fun h => h0 ((hcond0_0 ⟨n + 1, hn⟩).mp h)) (fun h => h1 ((hcond0_1 ⟨n + 1, hn⟩).mp h)) (outsAt0 c n (Nat.lt_of_succ_lt hn))

theorem outsAt0_A (c : Dev nD) (t : Fin cfg0.N) (h0 : t.val % 4 = 0) :
    outsAt0 m c t.val t.isLt = outA m c t ((hcond0_0 t).mpr h0) (fun h => (fun h => by omega) ((hcond0_1 t).mp h)) := by
  obtain ⟨n, hn⟩ := t
  cases n with
  | zero => exact rfl
  | succ n => exact (dif_pos h0).trans rfl

theorem outsAt0_B (c : Dev nD) (t : Fin cfg0.N) (h0 : ¬t.val % 4 = 0) (h1 : ¬t.val % 4 = 3) :
    outsAt0 m c t.val t.isLt = outB m c t (fun h => h0 ((hcond0_0 t).mp h)) (fun h => h1 ((hcond0_1 t).mp h)) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = outC m c t (fun h => h0 ((hcond0_0 t).mp h)) ((hcond0_1 t).mpr h1) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The four accumulators at some contents: what the launch hands the region and takes back. -/
def PhiAny (c : Dev nD) : sProp 𝕄 :=
  iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d))

/-- The invariant before position n: before the first point the accumulators at anything, afterwards at what the
    point before left. -/
def PhiS (c : Dev nD) : (n : ℕ) → n ≤ cfg0.N → sProp 𝕄
  | 0, _ => PhiAny c
  | n + 1, hn => iprop(owns (c : Thread nD τ) sc0 fullShare (outsAt0 m c n hn).s0 ∗ owns (c : Thread nD τ) sc1 fullShare (outsAt0 m c n hn).s1 ∗ owns (c : Thread nD τ) sc2 fullShare (outsAt0 m c n hn).s2 ∗ owns (c : Thread nD τ) sc3 fullShare (outsAt0 m c n hn).s3)

theorem PhiS_zero (c : Dev nD) (n : ℕ) (h : n ≤ cfg0.N) (hz : n = 0) : PhiS m c n h = PhiAny c := by
  subst hz; rfl

theorem PhiS_succ (c : Dev nD) (n : ℕ) (hn : n < cfg0.N) :
    PhiS m c (n + 1) hn = iprop(owns (c : Thread nD τ) sc0 fullShare (outsAt0 m c n hn).s0 ∗ owns (c : Thread nD τ) sc1 fullShare (outsAt0 m c n hn).s1 ∗ owns (c : Thread nD τ) sc2 fullShare (outsAt0 m c n hn).s2 ∗ owns (c : Thread nD τ) sc3 fullShare (outsAt0 m c n hn).s3) := rfl

theorem PhiS_pos (c : Dev nD) (n : ℕ) (h : n ≤ cfg0.N) (hz : n ≠ 0) :
    PhiS m c n h = iprop(owns (c : Thread nD τ) sc0 fullShare (outsAt0 m c (n - 1) (by omega)).s0 ∗ owns (c : Thread nD τ) sc1 fullShare (outsAt0 m c (n - 1) (by omega)).s1 ∗ owns (c : Thread nD τ) sc2 fullShare (outsAt0 m c (n - 1) (by omega)).s2 ∗ owns (c : Thread nD τ) sc3 fullShare (outsAt0 m c (n - 1) (by omega)).s3) := by
  cases n with
  | zero => exact absurd rfl hz
  | succ n => rfl

/-! ## The pipeline's proof data -/

/-- The proof data of the pipeline on core c: the arrays as the region finds them; after the body at point t each
    input's buffer at its block and the result buffers at the recursion's values; the invariant above; nothing
    owed; the magnitudes and the angles, each read through two windows, at half a share for each of the two. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).o8
    | ⟨9, _⟩ => (outsAt0 m c t.val t.isLt).o9
    | ⟨_ + 10, h⟩ => absurd h (Nat.not_lt.2 (Nat.le_add_left _ _))
  Φ t := PhiS m c t.val (Nat.le_of_lt_succ t.isLt)
  q w := match w with
    | ⟨0, _⟩ => fullShare
    | ⟨1, _⟩ => fullShare
    | ⟨2, _⟩ => fullShare.left
    | ⟨3, _⟩ => fullShare.left
    | ⟨4, _⟩ => fullShare.right
    | ⟨5, _⟩ => fullShare.right
    | ⟨6, _⟩ => fullShare
    | ⟨7, _⟩ => fullShare
    | ⟨8, _⟩ => fullShare
    | ⟨9, _⟩ => fullShare
    | ⟨_ + 10, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).o8 := by dsimp only [dats]
theorem after0_9 (c : Dev nD) (t : Fin cfg0.N) : (dats m 0 c).after 9 t = (outsAt0 m c t.val t.isLt).o9 := by dsimp only [dats]

/-! Each input's current staging buffer holds its block at every point, fetched there or not. -/

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)

end Cert.KernelIdeal.Hand

end
-- ==== Proof.KI.Step.lean ====
/-
  The body's arithmetic at one grid point, as named functions of what it loads. With vm, va the magnitudes' and
  angles' block over the point's 1024 source buses, g and bb the point's 1024 × 1024 blocks of the two matrices and
  acc what an accumulator holds, the four accumulator updates are

    acc + (vm·cos va) gᵀ,   acc + (vm·sin va) gᵀ,   acc + (vm·cos va) bbᵀ,   acc + (vm·sin va) bbᵀ

  (rows of the weights against rows of the matrix block, contracted over the source bus), and with vmi, vai, pin,
  qin the magnitudes, angles and injections over the point's 1024 output buses and s0 … s3 the four completed
  accumulators, the residual blocks are

    vmi·(cos vai·(s0 + s3) + sin vai·(s1 − s2)) − pin,    vmi·(sin vai·(s0 + s3) − cos vai·(s1 − s2)) − qin.

  Each is the composition of the generated payloads the body's stores are stated over.
-/
import proofs.«131548_j16355235463758_1_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The first accumulator's update: acc + (vm·cos va) gᵀ. -/
def accGc (vm va : Vec F S64x1024 .f32) (g : Vec F S1024x1024 .f32) (acc : Vec F S64x1024 .f32) : FVec F S64x1024 .f32 :=
  k0_pay18 va vm g acc
/-- The second accumulator's update: acc + (vm·sin va) gᵀ. -/
def accGs (vm va : Vec F S64x1024 .f32) (g : Vec F S1024x1024 .f32) (acc : Vec F S64x1024 .f32) : FVec F S64x1024 .f32 :=
  k0_pay1 (k0_pay19 va vm g acc)
/-- The third accumulator's update: acc + (vm·cos va) bbᵀ. -/
def accBc (vm va : Vec F S64x1024 .f32) (bb : Vec F S1024x1024 .f32) (acc : Vec F S64x1024 .f32) : FVec F S64x1024 .f32 :=
  k0_pay2 (k0_pay16 va vm bb) acc
/-- The fourth accumulator's update: acc + (vm·sin va) bbᵀ. -/
def accBs (vm va : Vec F S64x1024 .f32) (bb : Vec F S1024x1024 .f32) (acc : Vec F S64x1024 .f32) : FVec F S64x1024 .f32 :=
  k0_pay3 (k0_pay17 va vm bb) acc

/-- The active-power residual block from the completed accumulators. -/
def resPblk (vmi vai pin s0 s1 s2 s3 : Vec F S64x1024 .f32) : FVec F S64x1024 .f32 :=
  k0_pay6 vai vai s0 s1 s2 s3 vmi pin
/-- The reactive-power residual block from the completed accumulators. -/
def resQblk (vmi vai qin s0 s1 s2 s3 : Vec F S64x1024 .f32) : FVec F S64x1024 .f32 :=
  k0_pay7 vai vai s0 s1 s2 s3 vmi qin

end Cert.KernelIdeal.Hand

end
-- ==== Proof.KI.Pieces.lean ====
/-
  What the runs' found pieces read back as: at every point each accumulator ends at its update of what it held (of
  zero where j = 0), and where j = 3 each result buffer ends at its residual block of the completed accumulators.
-/
import proofs.«131548_j16355235463758_1_alg».proof.Proof.KI.Frame
import proofs.«131548_j16355235463758_1_alg».proof.Proof.KI.Step
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.Tactic
open Idealize.SL Idealize.SL.Sem
open Idealize.ShloMosaic.Pipeline (Dat Cfg Window)
open scoped BigOperators

variable {F : FTy → Type} [FloatOps F]
variable (m : (ℓ : Loc nD τ sig) → Buf (Elt F) ℓ)

/-! ## One found piece at a time

Every store of the body is of a whole 64 × 1024 block, through the rectangle at offset zero of the block's own sizes:
the last such store of a list leaves its payload whatever came before it, a load through that rectangle of a whole
buffer reads the buffer, and a load of what one such store left reads the store's payload. -/

/-- The offsets of every load and store of the body are zero. -/
theorem off00 : (![0, 0] : Fin 2 → ℕ) = fun _ => 0 := funext fun a => by fin_cases a <;> rfl

/-- Where j = 0 the first accumulator, zeroed, read back and stored again, ends at its update of the zero block. -/
theorem pieceA0 (c : Dev nD) (t : Fin cfg0.N) (hc0 : cond0_0 (grid0.coords t)) (hc1 : ¬cond0_1 (grid0.coords t)) :
    rd (runA m c t hc0 hc1).1 = accGc (iblk m c 2 t) (iblk m c 3 t) (iblk m c 0 t) k0_pay8 := by
  refine (View.read_writes_junk_eq_canon VB _).trans ?_
  unfold runA kernelRun0_A
  dsimp only
  sl_unfold_words
  rw [View.canon_cons_unit_zero (S := S64x1024) off00, View.readCov_unit_zero (S := S64x1024) _ off00]
  simp only [View.readAt_eq_ld, (hs0 t).read_unread, (hs2 t).read_unread, (hs3 t).read_unread, View.ld_unit_zero (S := S64x1024) off00, View.ld_unit_zero (S := S1024x1024) off00]
  rfl

/-- Where j = 0 the second accumulator, zeroed, read back and stored again, ends at its update of the zero block. -/
theorem pieceA1 (c : Dev nD) (t : Fin cfg0.N) (hc0 : cond0_0 (grid0.coords t)) (hc1 : ¬cond0_1 (grid0.coords t)) :
    rd (runA m c t hc0 hc1).2.1 = accGs (iblk m c 2 t) (iblk m c 3 t) (iblk m c 0 t) k0_pay9 := by
  refine (View.read_writes_junk_eq_canon VB _).trans ?_
  unfold runA kernelRun0_A
  dsimp only
  sl_unfold_words
  rw [View.canon_cons_unit_zero (S := S64x1024) off00, View.readCov_unit_zero (S := S64x1024) _ off00]
  simp only [View.readAt_eq_ld, (hs0 t).read_unread, (hs2 t).read_unread, (hs3 t).read_unread, View.ld_unit_zero (S := S64x1024) off00, View.ld_unit_zero (S := S1024x1024) off00]
  rfl

/-- Where j = 0 the third accumulator, zeroed, read back and stored again, ends at its update of the zero block. -/
theorem pieceA2 (c : Dev nD) (t : Fin cfg0.N) (hc0 : cond0_0 (grid0.coords t)) (hc1 : ¬cond0_1 (grid0.coords t)) :
    rd (runA m c t hc0 hc1).2.2.1 = accBc (iblk m c 2 t) (iblk m c 3 t) (iblk m c 1 t) k0_pay10 := by
  refine (View.read_writes_junk_eq_canon VB _).trans ?_
  unfold runA kernelRun0_A
  dsimp only
  sl_unfold_words
  rw [View.canon_cons_unit_zero (S := S64x1024) off00, View.readCov_unit_zero (S := S64x1024) _ off00]
  simp only [View.readAt_eq_ld, (hs1 t).read_unread, (hs2 t).read_unread, (hs3 t).read_unread, View.ld_unit_zero (S := S64x1024) off00, View.ld_unit_zero (S := S1024x1024) off00]
  rfl

/-- Where j = 0 the fourth accumulator, zeroed, read back and stored again, ends at its update of the zero block. -/
theorem pieceA3 (c : Dev nD) (t : Fin cfg0.N) (hc0 : cond0_0 (grid0.coords t)) (hc1 : ¬cond0_1 (grid0.coords t)) :
    rd (runA m c t hc0 hc1).2.2.2.1 = accBs (iblk m c 2 t) (iblk m c 3 t) (iblk m c 1 t) k0_pay11 := by
  refine (View.read_writes_junk_eq_canon VB _).trans ?_
  unfold runA kernelRun0_A
  dsimp only
  sl_unfold_words
  rw [View.canon_cons_unit_zero (S := S64x1024) off00, View.readCov_unit_zero (S := S64x1024) _ off00]
  simp only [View.readAt_eq_ld, (hs1 t).read_unread, (hs2 t).read_unread, (hs3 t).read_unread, View.ld_unit_zero (S := S64x1024) off00, View.ld_unit_zero (S := S1024x1024) off00]
  rfl

/-- Where j is 1 or 2 the first accumulator ends at its update of what it held. -/
theorem pieceB0 (c : Dev nD) (t : Fin cfg0.N) (hc0 : ¬cond0_0 (grid0.coords t)) (hc1 : ¬cond0_1 (grid0.coords t)) (xs0 xs1 xs2 xs3 : Vec F S64x1024 .f32) :
    rd (runB m c t hc0 hc1 xs0 xs1 xs2 xs3).1 = accGc (iblk m c 2 t) (iblk m c 3 t) (iblk m c 0 t) xs0 := by
  refine (View.read_writes_junk_eq_canon VB _).trans ?_
  unfold runB kernelRun0_B
  dsimp only
  sl_unfold_words
  rw [View.canon_unit_zero (S := S64x1024) off00]
  simp only [View.readAt_eq_ld, (hs0 t).read_unread, (hs2 t).read_unread, (hs3 t).read_unread, (Memref.isWhole_whole cc0_scratch0).read_unread, View.ld_unit_zero (S := S64x1024) off00, View.ld_unit_zero (S := S1024x1024) off00]
  rfl

/-- Where j is 1 or 2 the second accumulator ends at its update of what it held. -/
theorem pieceB1 (c : Dev nD) (t : Fin cfg0.N) (hc0 : ¬cond0_0 (grid0.coords t)) (hc1 : ¬cond0_1 (grid0.coords t)) (xs0 xs1 xs2 xs3 : Vec F S64x1024 .f32) :
    rd (runB m c t hc0 hc1 xs0 xs1 xs2 xs3).2.1 = accGs (iblk m c 2 t) (iblk m c 3 t) (iblk m c 0 t) xs1 := by
  refine (View.read_writes_junk_eq_canon VB _).trans ?_
  unfold runB kernelRun0_B
  dsimp only
  sl_unfold_words
  rw [View.canon_unit_zero (S := S64x1024) off00]
  simp only [View.readAt_eq_ld, (hs0 t).read_unread, (hs2 t).read_unread, (hs3 t).read_unread, (Memref.isWhole_whole cc0_scratch1).read_unread, View.ld_unit_zero (S := S64x1024) off00, View.ld_unit_zero (S := S1024x1024) off00]
  rfl

/-- Where j is 1 or 2 the third accumulator ends at its update of what it held. -/
theorem pieceB2 (c : Dev nD) (t : Fin cfg0.N) (hc0 : ¬cond0_0 (grid0.coords t)) (hc1 : ¬cond0_1 (grid0.coords t)) (xs0 xs1 xs2 xs3 : Vec F S64x1024 .f32) :
    rd (runB m c t hc0 hc1 xs0 xs1 xs2 xs3).2.2.1 = accBc (iblk m c 2 t) (iblk m c 3 t) (iblk m c 1 t) xs2 := by
  refine (View.read_writes_junk_eq_canon VB _).trans ?_
  unfold runB kernelRun0_B
  dsimp only
  sl_unfold_words
  rw [View.canon_unit_zero (S := S64x1024) off00]
  simp only [View.readAt_eq_ld, (hs1 t).read_unread, (hs2 t).read_unread, (hs3 t).read_unread, (Memref.isWhole_whole cc0_scratch2).read_unread, View.ld_unit_zero (S := S64x1024) off00, View.ld_unit_zero (S := S1024x1024) off00]
  rfl

/-- Where j is 1 or 2 the fourth accumulator ends at its update of what it held. -/
theorem pieceB3 (c : Dev nD) (t : Fin cfg0.N) (hc0 : ¬cond0_0 (grid0.coords t)) (hc1 : ¬cond0_1 (grid0.coords t)) (xs0 xs1 xs2 xs3 : Vec F S64x1024 .f32) :
    rd (runB m c t hc0 hc1 xs0 xs1 xs2 xs3).2.2.2.1 = accBs (iblk m c 2 t) (iblk m c 3 t) (iblk m c 1 t) xs3 := by
  refine (View.read_writes_junk_eq_canon VB _).trans ?_
  unfold runB kernelRun0_B
  dsimp only
  sl_unfold_words
  rw [View.canon_unit_zero (S := S64x1024) off00]
  simp only [View.readAt_eq_ld, (hs1 t).read_unread, (hs2 t).read_unread, (hs3 t).read_unread, (Memref.isWhole_whole cc0_scratch3).read_unread, View.ld_unit_zero (S := S64x1024) off00, View.ld_unit_zero (S := S1024x1024) off00]
  rfl

/-- Where j = 3 the first accumulator ends at its update of what it held. -/
theorem pieceC0 (c : Dev nD) (t : Fin cfg0.N) (hc0 : ¬cond0_0 (grid0.coords t)) (hc1 : cond0_1 (grid0.coords t)) (xs0 xs1 xs2 xs3 : Vec F S64x1024 .f32) :
    rd (runC m c t hc0 hc1 xs0 xs1 xs2 xs3).2.2.1 = accGc (iblk m c 2 t) (iblk m c 3 t) (iblk m c 0 t) xs0 := by
  refine (View.read_writes_junk_eq_canon VB _).trans ?_
  unfold runC kernelRun0_C
  dsimp only
  sl_unfold_words
  rw [View.canon_unit_zero (S := S64x1024) off00]
  simp only [View.readAt_eq_ld, (hs0 t).read_unread, (hs2 t).read_unread, (hs3 t).read_unread, (Memref.isWhole_whole cc0_scratch0).read_unread, View.ld_unit_zero (S := S64x1024) off00, View.ld_unit_zero (S := S1024x1024) off00]
  rfl

/-- Where j = 3 the second accumulator ends at its update of what it held. -/
theorem pieceC1 (c : Dev nD) (t : Fin cfg0.N) (hc0 : ¬cond0_0 (grid0.coords t)) (hc1 : cond0_1 (grid0.coords t)) (xs0 xs1 xs2 xs3 : Vec F S64x1024 .f32) :
    rd (runC m c t hc0 hc1 xs0 xs1 xs2 xs3).2.2.2.1 = accGs (iblk m c 2 t) (iblk m c 3 t) (iblk m c 0 t) xs1 := by
  refine (View.read_writes_junk_eq_canon VB _).trans ?_
  unfold runC kernelRun0_C
  dsimp only
  sl_unfold_words
  rw [View.canon_unit_zero (S := S64x1024) off00]
  simp only [View.readAt_eq_ld, (hs0 t).read_unread, (hs2 t).read_unread, (hs3 t).read_unread, (Memref.isWhole_whole cc0_scratch1).read_unread, View.ld_unit_zero (S := S64x1024) off00, View.ld_unit_zero (S := S1024x1024) off00]
  rfl

/-- Where j = 3 the third accumulator ends at its update of what it held. -/
theorem pieceC2 (c : Dev nD) (t : Fin cfg0.N) (hc0 : ¬cond0_0 (grid0.coords t)) (hc1 : cond0_1 (grid0.coords t)) (xs0 xs1 xs2 xs3 : Vec F S64x1024 .f32) :
    rd (runC m c t hc0 hc1 xs0 xs1 xs2 xs3).2.2.2.2.1 = accBc (iblk m c 2 t) (iblk m c 3 t) (iblk m c 1 t) xs2 := by
  refine (View.read_writes_junk_eq_canon VB _).trans ?_
  unfold runC kernelRun0_C
  dsimp only
  sl_unfold_words
  rw [View.canon_unit_zero (S := S64x1024) off00]
  simp only [View.readAt_eq_ld, (hs1 t).read_unread, (hs2 t).read_unread, (hs3 t).read_unread, (Memref.isWhole_whole cc0_scratch2).read_unread, View.ld_unit_zero (S := S64x1024) off00, View.ld_unit_zero (S := S1024x1024) off00]
  rfl

/-- Where j = 3 the fourth accumulator ends at its update of what it held. -/
theorem pieceC3 (c : Dev nD) (t : Fin cfg0.N) (hc0 : ¬cond0_0 (grid0.coords t)) (hc1 : cond0_1 (grid0.coords t)) (xs0 xs1 xs2 xs3 : Vec F S64x1024 .f32) :
    rd (runC m c t hc0 hc1 xs0 xs1 xs2 xs3).2.2.2.2.2.1 = accBs (iblk m c 2 t) (iblk m c 3 t) (iblk m c 1 t) xs3 := by
  refine (View.read_writes_junk_eq_canon VB _).trans ?_
  unfold runC kernelRun0_C
  dsimp only
  sl_unfold_words
  rw [View.canon_unit_zero (S := S64x1024) off00]
  simp only [View.readAt_eq_ld, (hs1 t).read_unread, (hs2 t).read_unread, (hs3 t).read_unread, (Memref.isWhole_whole cc0_scratch3).read_unread, View.ld_unit_zero (S := S64x1024) off00, View.ld_unit_zero (S := S1024x1024) off00]
  rfl

/-- Where j = 3 the active-power result buffer ends at its residual block of the four updated accumulators (each read
    back from the one store that updated it). -/
theorem pieceC8 (c : Dev nD) (t : Fin cfg0.N) (hc0 : ¬cond0_0 (grid0.coords t)) (hc1 : cond0_1 (grid0.coords t)) (xs0 xs1 xs2 xs3 : Vec F S64x1024 .f32) :
    rd (runC m c t hc0 hc1 xs0 xs1 xs2 xs3).1 = resPblk (iblk m c 4 t) (iblk m c 5 t) (iblk m c 6 t)
        (accGc (iblk m c 2 t) (iblk m c 3 t) (iblk m c 0 t) xs0)
        (accGs (iblk m c 2 t) (iblk m c 3 t) (iblk m c 0 t) xs1)
        (accBc (iblk m c 2 t) (iblk m c 3 t) (iblk m c 1 t) xs2)
        (accBs (iblk m c 2 t) (iblk m c 3 t) (iblk m c 1 t) xs3) := by
  refine (View.read_writes_junk_eq_canon VB _).trans ?_
  unfold runC kernelRun0_C
  dsimp only
  sl_unfold_words
  rw [View.canon_unit_zero (S := S64x1024) off00]
  simp only [View.readCov_unit_zero (S := S64x1024) _ off00, View.readAt_eq_ld, (hs0 t).read_unread, (hs1 t).read_unread, (hs2 t).read_unread, (hs3 t).read_unread, (hs4 t).read_unread, (hs5 t).read_unread, (hs6 t).read_unread,
    (Memref.isWhole_whole cc0_scratch0).read_unread, (Memref.isWhole_whole cc0_scratch1).read_unread, (Memref.isWhole_whole cc0_scratch2).read_unread, (Memref.isWhole_whole cc0_scratch3).read_unread, View.ld_unit_zero (S := S64x1024) off00, View.ld_unit_zero (S := S1024x1024) off00]
  rfl

/-- Where j = 3 the reactive-power result buffer ends at its residual block of the four updated accumulators (each read
    back from the one store that updated it). -/
theorem pieceC9 (c : Dev nD) (t : Fin cfg0.N) (hc0 : ¬cond0_0 (grid0.coords t)) (hc1 : cond0_1 (grid0.coords t)) (xs0 xs1 xs2 xs3 : Vec F S64x1024 .f32) :
    rd (runC m c t hc0 hc1 xs0 xs1 xs2 xs3).2.1 = resQblk (iblk m c 4 t) (iblk m c 5 t) (iblk m c 7 t)
        (accGc (iblk m c 2 t) (iblk m c 3 t) (iblk m c 0 t) xs0)
        (accGs (iblk m c 2 t) (iblk m c 3 t) (iblk m c 0 t) xs1)
        (accBc (iblk m c 2 t) (iblk m c 3 t) (iblk m c 1 t) xs2)
        (accBs (iblk m c 2 t) (iblk m c 3 t) (iblk m c 1 t) xs3) := by
  refine (View.read_writes_junk_eq_canon VB _).trans ?_
  unfold runC kernelRun0_C
  dsimp only
  sl_unfold_words
  rw [View.canon_unit_zero (S := S64x1024) off00]
  simp only [View.readCov_unit_zero (S := S64x1024) _ off00, View.readAt_eq_ld, (hs0 t).read_unread, (hs1 t).read_unread, (hs2 t).read_unread, (hs3 t).read_unread, (hs4 t).read_unread, (hs5 t).read_unread, (hs7 t).read_unread,
    (Memref.isWhole_whole cc0_scratch0).read_unread, (Memref.isWhole_whole cc0_scratch1).read_unread, (Memref.isWhole_whole cc0_scratch2).read_unread, (Memref.isWhole_whole cc0_scratch3).read_unread, View.ld_unit_zero (S := S64x1024) off00, View.ld_unit_zero (S := S1024x1024) off00]
  rfl

/-! ## The three cases -/

/-- Two tuples of buffer contents are equal when they are equal buffer by buffer. -/
theorem outs_congr {o8 o8' o9 o9' s0 s0' s1 s1' s2 s2' s3 s3' : Vec F S64x1024 .f32}
    (h8 : o8 = o8') (h9 : o9 = o9') (h0 : s0 = s0') (h1 : s1 = s1') (h2 : s2 = s2') (h3 : s3 = s3') :
    (⟨o8, o9, s0, s1, s2, s3⟩ : Outs F) = ⟨o8', o9', s0', s1', s2', s3'⟩ := by
  subst h8 h9 h0 h1 h2 h3; rfl

/-- Where j = 0: the accumulators' updates of zero. -/
theorem outA_eq (c : Dev nD) (t : Fin cfg0.N) (hc0 : cond0_0 (grid0.coords t)) (hc1 : ¬cond0_1 (grid0.coords t)) :
    outA m c t hc0 hc1 = ⟨junkV, junkV,
      accGc (iblk m c 2 t) (iblk m c 3 t) (iblk m c 0 t) k0_pay8, accGs (iblk m c 2 t) (iblk m c 3 t) (iblk m c 0 t) k0_pay9,
      accBc (iblk m c 2 t) (iblk m c 3 t) (iblk m c 1 t) k0_pay10, accBs (iblk m c 2 t) (iblk m c 3 t) (iblk m c 1 t) k0_pay11⟩ := by
  unfold outA
  exact outs_congr rfl rfl (pieceA0 m c t hc0 hc1) (pieceA1 m c t hc0 hc1) (pieceA2 m c t hc0 hc1) (pieceA3 m c t hc0 hc1)

/-- Where j is 1 or 2: the accumulators' updates of what the point before left. -/
theorem outB_eq (c : Dev nD) (t : Fin cfg0.N) (hc0 : ¬cond0_0 (grid0.coords t)) (hc1 : ¬cond0_1 (grid0.coords t)) (p : Outs F) :
    outB m c t hc0 hc1 p = ⟨junkV, junkV,
      accGc (iblk m c 2 t) (iblk m c 3 t) (iblk m c 0 t) p.s0, accGs (iblk m c 2 t) (iblk m c 3 t) (iblk m c 0 t) p.s1,
      accBc (iblk m c 2 t) (iblk m c 3 t) (iblk m c 1 t) p.s2, accBs (iblk m c 2 t) (iblk m c 3 t) (iblk m c 1 t) p.s3⟩ := by
  unfold outB
  exact outs_congr rfl rfl (pieceB0 m c t hc0 hc1 p.s0 p.s1 p.s2 p.s3) (pieceB1 m c t hc0 hc1 p.s0 p.s1 p.s2 p.s3)
    (pieceB2 m c t hc0 hc1 p.s0 p.s1 p.s2 p.s3) (pieceB3 m c t hc0 hc1 p.s0 p.s1 p.s2 p.s3)

/-- Where j = 3: the accumulators' updates, and the residual blocks of the updated accumulators. -/
theorem outC_eq (c : Dev nD) (t : Fin cfg0.N) (hc0 : ¬cond0_0 (grid0.coords t)) (hc1 : cond0_1 (grid0.coords t)) (p : Outs F) :
    outC m c t hc0 hc1 p = ⟨
      resPblk (iblk m c 4 t) (iblk m c 5 t) (iblk m c 6 t)
        (accGc (iblk m c 2 t) (iblk m c 3 t) (iblk m c 0 t) p.s0) (accGs (iblk m c 2 t) (iblk m c 3 t) (iblk m c 0 t) p.s1)
        (accBc (iblk m c 2 t) (iblk m c 3 t) (iblk m c 1 t) p.s2) (accBs (iblk m c 2 t) (iblk m c 3 t) (iblk m c 1 t) p.s3),
      resQblk (iblk m c 4 t) (iblk m c 5 t) (iblk m c 7 t)
        (accGc (iblk m c 2 t) (iblk m c 3 t) (iblk m c 0 t) p.s0) (accGs (iblk m c 2 t) (iblk m c 3 t) (iblk m c 0 t) p.s1)
        (accBc (iblk m c 2 t) (iblk m c 3 t) (iblk m c 1 t) p.s2) (accBs (iblk m c 2 t) (iblk m c 3 t) (iblk m c 1 t) p.s3),
      accGc (iblk m c 2 t) (iblk m c 3 t) (iblk m c 0 t) p.s0, accGs (iblk m c 2 t) (iblk m c 3 t) (iblk m c 0 t) p.s1,
      accBc (iblk m c 2 t) (iblk m c 3 t) (iblk m c 1 t) p.s2, accBs (iblk m c 2 t) (iblk m c 3 t) (iblk m c 1 t) p.s3⟩ := by
  unfold outC
  exact outs_congr (pieceC8 m c t hc0 hc1 p.s0 p.s1 p.s2 p.s3) (pieceC9 m c t hc0 hc1 p.s0 p.s1 p.s2 p.s3)
    (pieceC0 m c t hc0 hc1 p.s0 p.s1 p.s2 p.s3) (pieceC1 m c t hc0 hc1 p.s0 p.s1 p.s2 p.s3)
    (pieceC2 m c t hc0 hc1 p.s0 p.s1 p.s2 p.s3) (pieceC3 m c t hc0 hc1 p.s0 p.s1 p.s2 p.s3)

end Cert.KernelIdeal.Hand

end
-- ==== Proof.LibDotFormats.lean ====
/-
  Matrix products with ONE contracted axis, read at an index, for operands of any float formats.

  Two arrangements of the dimension numbers of a rank-2 product without batch axes:
  * rows by columns: an `A × K` left operand against a `K × B` right operand, the left operand's second axis
    contracted against the right operand's first; entry `(p, q)` is `∑ k, f (p, k) · g (k, q)`;
  * rows by rows: an `A × K` left operand against a `B × K` right operand, the second axis of both contracted
    (the right operand enters transposed); entry `(p, q)` is `∑ k, f (p, k) · g (q, k)`.
  In both the contraction index has the one coordinate `k : Fin K`. Any record with those dimension numbers is
  the library's `DotDims.plain`, respectively `DotDims.transposedRhs`, for which the operand indices compute.
  The operands' element formats are arbitrary (at the ideal values every format is the extended reals), so the
  statements serve a product of half-precision operands accumulated in single precision as well.
-/
import Idealize.ShloMosaic.PureOps.Ideal
import Idealize.ShloMosaic.PureOps.Ideal.Laws
import Idealize.ShloMosaic.Lib.ValueIdx

noncomputable section

namespace Cert.LibDotFormats

open Idealize.ShloMosaic Idealize.ShloMosaic.ValueIdx
open scoped BigOperators

variable {A K B : Nat}

/-! ## Rows by columns: `[A, K] × [K, B]`, dimension numbers `[1] × [0]` -/

/-- Dimension numbers `[1] × [0]`, free axes `[0]` and `[1]`, no batch: the record is `DotDims.plain`. -/
theorem eq_plain (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = []) : d = DotDims.plain A K B := by
  cases d
  simp only at hlc hrc hln hrn hlb hrb
  subst hlc hrc hln hrn hlb hrb
  rfl

theorem plain_rank : (DotDims.plain A K B).contr.rank = 1 := rfl
theorem plain_size : (DotDims.plain A K B).contr.size ⟨0, by rw [plain_rank]; exact Nat.one_pos⟩ = K := rfl

theorem plain_lhs (p : Fin A) (q : Fin B) (k : Fin K) :
    (DotDims.plain A K B).lhsIdx (ix2 p q) ((contrEquiv1 (DotDims.plain A K B) K plain_rank plain_size).symm k) = ix2 p k := by
  funext a
  apply Fin.ext
  match a with
  | ⟨0, _⟩ => rfl
  | ⟨1, _⟩ => rfl

theorem plain_rhs (p : Fin A) (q : Fin B) (k : Fin K) :
    (DotDims.plain A K B).rhsIdx (ix2 p q) ((contrEquiv1 (DotDims.plain A K B) K plain_rank plain_size).symm k) = ix2 k q := by
  funext a
  apply Fin.ext
  match a with
  | ⟨0, _⟩ => rfl
  | ⟨1, _⟩ => rfl

/-- The sum over the contraction index is the sum over `k : Fin K` of `f (p, k) · g (k, q)`. -/
theorem plain_sum (f : (⟨2, ![A, K]⟩ : Shape).Idx → EReal) (g : (⟨2, ![K, B]⟩ : Shape).Idx → EReal) (p : Fin A) (q : Fin B) :
    ∑ k : (DotDims.plain A K B).contr.Idx, f ((DotDims.plain A K B).lhsIdx (ix2 p q) k) * g ((DotDims.plain A K B).rhsIdx (ix2 p q) k)
      = ∑ k : Fin K, f (ix2 p k) * g (ix2 k q) := by
  rw [← Equiv.sum_comp (contrEquiv1 (DotDims.plain A K B) K plain_rank plain_size).symm]
  refine Finset.sum_congr rfl fun k _ => ?_
  rw [plain_lhs, plain_rhs]

/-- A product into the zero accumulator, at `(p, q)`: `∑ k, lhs (p, k) · rhs (k, q)`. -/
theorem matmul_cols_zero_apply {φ₁ φ₂ : FTy} (d : DotDims ⟨2, ![A, K]⟩ ⟨2, ![K, B]⟩ ⟨2, ![A, B]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (lhs : FVec Ideal ⟨2, ![A, K]⟩ φ₁) (rhs : FVec Ideal ⟨2, ![K, B]⟩ φ₂)
    (p : Fin A) (q : Fin B) :
    FloatOps.matmul d prec lhs rhs (constant ⟨2, ![A, B]⟩ .f32 0x00000000#32) (ix2 p q) = ∑ k : Fin K, lhs (ix2 p k) * rhs (ix2 k q) := by
  rw [eq_plain d hlc hrc hln hrn hlb hrb, Ideal.matmul_constant_zero_apply]
  exact plain_sum lhs rhs p q

/-! ## Rows by rows: `[A, K] × [B, K]`, dimension numbers `[1] × [1]` -/

/-- Dimension numbers `[1] × [1]`, free axes `[0]` and `[0]`, no batch: the record is `DotDims.transposedRhs`. -/
theorem eq_transposedRhs (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = []) : d = DotDims.transposedRhs A K B := by
  cases d
  simp only at hlc hrc hln hrn hlb hrb
  subst hlc hrc hln hrn hlb hrb
  rfl

theorem rows_rank : (DotDims.transposedRhs A K B).contr.rank = 1 := rfl
theorem rows_size : (DotDims.transposedRhs A K B).contr.size ⟨0, by rw [rows_rank]; exact Nat.one_pos⟩ = K := rfl

theorem rows_lhs (p : Fin A) (q : Fin B) (k : Fin K) :
    (DotDims.transposedRhs A K B).lhsIdx (ix2 p q) ((contrEquiv1 (DotDims.transposedRhs A K B) K rows_rank rows_size).symm k) = ix2 p k := by
  funext a
  apply Fin.ext
  match a with
  | ⟨0, _⟩ => rfl
  | ⟨1, _⟩ => rfl

theorem rows_rhs (p : Fin A) (q : Fin B) (k : Fin K) :
    (DotDims.transposedRhs A K B).rhsIdx (ix2 p q) ((contrEquiv1 (DotDims.transposedRhs A K B) K rows_rank rows_size).symm k) = ix2 q k := by
  funext a
  apply Fin.ext
  match a with
  | ⟨0, _⟩ => rfl
  | ⟨1, _⟩ => rfl

/-- The sum over the contraction index is the sum over `k : Fin K` of `f (p, k) · g (q, k)`. -/
theorem rows_sum (f : (⟨2, ![A, K]⟩ : Shape).Idx → EReal) (g : (⟨2, ![B, K]⟩ : Shape).Idx → EReal) (p : Fin A) (q : Fin B) :
    ∑ k : (DotDims.transposedRhs A K B).contr.Idx,
        f ((DotDims.transposedRhs A K B).lhsIdx (ix2 p q) k) * g ((DotDims.transposedRhs A K B).rhsIdx (ix2 p q) k)
      = ∑ k : Fin K, f (ix2 p k) * g (ix2 q k) := by
  rw [← Equiv.sum_comp (contrEquiv1 (DotDims.transposedRhs A K B) K rows_rank rows_size).symm]
  refine Finset.sum_congr rfl fun k _ => ?_
  rw [rows_lhs, rows_rhs]

/-- A product into the zero accumulator with the right operand contracted on its last axis, at `(p, q)`:
    `∑ k, lhs (p, k) · rhs (q, k)`. -/
theorem matmul_rows_zero_apply {φ₁ φ₂ : FTy} (d : DotDims ⟨2, ![A, K]⟩ ⟨2, ![B, K]⟩ ⟨2, ![A, B]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (lhs : FVec Ideal ⟨2, ![A, K]⟩ φ₁) (rhs : FVec Ideal ⟨2, ![B, K]⟩ φ₂)
    (p : Fin A) (q : Fin B) :
    FloatOps.matmul d prec lhs rhs (constant ⟨2, ![A, B]⟩ .f32 0x00000000#32) (ix2 p q) = ∑ k : Fin K, lhs (ix2 p k) * rhs (ix2 q k) := by
  rw [eq_transposedRhs d hlc hrc hln hrn hlb hrb, Ideal.matmul_constant_zero_apply]
  exact rows_sum lhs rhs p q

end Cert.LibDotFormats

end
-- ==== Proof.KI.PayIdx.lean ====
/-
  The body's arithmetic read at an index, on the extended reals: a change of float format is the identity there, a
  matrix product into a zero accumulator is the plain sum over the contracted source bus, and the elementwise
  operations are those of the extended reals.
-/
import proofs.«131548_j16355235463758_1_alg».proof.Proof.KI.Step
import proofs.«131548_j16355235463758_1_alg».proof.Proof.LibDotFormats
import Idealize.ShloMosaic.PureOps.Ideal
import Idealize.ShloMosaic.PureOps.Ideal.Laws
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

/-- The kernel's matrix product into the zero accumulator, at (p, q): rows of the left operand against rows of
    the right one, summed over the 1024 contracted source buses. The operands may be of any float formats. -/
theorem matmul_zero_apply {φ₁ φ₂ : FTy} (lhs : FVec Ideal S64x1024 φ₁) (rhs : FVec Ideal S1024x1024 φ₂)
    (p : Fin 64) (q : Fin 1024) :
    matmul dot_S64x1024_S1024x1024_S64x1024_1_1_0_0_n_n none lhs rhs (constant (F := Ideal) S64x1024 .f32 0x00000000#32) (ix2 p q)
      = ∑ k : Fin 1024, lhs (ix2 p k) * rhs (ix2 q k) :=
  Cert.LibDotFormats.matmul_rows_zero_apply dot_S64x1024_S1024x1024_S64x1024_1_1_0_0_n_n rfl rfl rfl rfl rfl rfl none lhs rhs p q

/-- An accumulator is zeroed to the real number zero, at every index. -/
theorem zero8_apply (j : S64x1024.Idx) : (k0_pay8 (F := Ideal) j : EReal) = 0 := by
  unfold k0_pay8
  rw [shapeCast_self]
  exact Ideal.ofBits_zero_f32
theorem zero9_apply (j : S64x1024.Idx) : (k0_pay9 (F := Ideal) j : EReal) = 0 := by
  unfold k0_pay9
  rw [shapeCast_self]
  exact Ideal.ofBits_zero_f32
theorem zero10_apply (j : S64x1024.Idx) : (k0_pay10 (F := Ideal) j : EReal) = 0 := by
  unfold k0_pay10
  rw [shapeCast_self]
  exact Ideal.ofBits_zero_f32
theorem zero11_apply (j : S64x1024.Idx) : (k0_pay11 (F := Ideal) j : EReal) = 0 := by
  unfold k0_pay11
  rw [shapeCast_self]
  exact Ideal.ofBits_zero_f32

/-- The first accumulator's update at (b, r): what it held plus the sum over the block's 1024 source buses of the
    cosine weight times the matrix block's entry (r, k). -/
theorem accGc_apply (vm va : Vec Ideal S64x1024 .f32) (g : Vec Ideal S1024x1024 .f32) (acc : Vec Ideal S64x1024 .f32) (b : Fin 64) (r : Fin 1024) :
    (accGc (F := Ideal) vm va g acc (ix2 b r) : EReal)
      = (acc (ix2 b r) : EReal) + ∑ k : Fin 1024, ((vm (ix2 b k) : EReal) * Ideal.cos (va (ix2 b k))) * (g (ix2 r k) : EReal) := by
  unfold accGc k0_pay18
  rw [shapeCast_self]
  refine (addf_apply _ _ _).trans ?_
  refine congrArg (fun x => (acc (ix2 b r) : EReal) + x) ?_
  exact matmul_zero_apply _ _ b r

theorem accGs_apply (vm va : Vec Ideal S64x1024 .f32) (g : Vec Ideal S1024x1024 .f32) (acc : Vec Ideal S64x1024 .f32) (b : Fin 64) (r : Fin 1024) :
    (accGs (F := Ideal) vm va g acc (ix2 b r) : EReal)
      = (acc (ix2 b r) : EReal) + ∑ k : Fin 1024, ((vm (ix2 b k) : EReal) * Ideal.sin (va (ix2 b k))) * (g (ix2 r k) : EReal) := by
  unfold accGs k0_pay1 k0_pay19
  rw [shapeCast_self]
  refine (addf_apply _ _ _).trans ?_
  refine congrArg (fun x => (acc (ix2 b r) : EReal) + x) ?_
  exact matmul_zero_apply _ _ b r

theorem accBc_apply (vm va : Vec Ideal S64x1024 .f32) (bb : Vec Ideal S1024x1024 .f32) (acc : Vec Ideal S64x1024 .f32) (b : Fin 64) (r : Fin 1024) :
    (accBc (F := Ideal) vm va bb acc (ix2 b r) : EReal)
      = (acc (ix2 b r) : EReal) + ∑ k : Fin 1024, ((vm (ix2 b k) : EReal) * Ideal.cos (va (ix2 b k))) * (bb (ix2 r k) : EReal) := by
  unfold accBc k0_pay2 k0_pay16
  rw [shapeCast_self]
  refine (addf_apply _ _ _).trans ?_
  refine congrArg (fun x => (acc (ix2 b r) : EReal) + x) ?_
  exact matmul_zero_apply _ _ b r

theorem accBs_apply (vm va : Vec Ideal S64x1024 .f32) (bb : Vec Ideal S1024x1024 .f32) (acc : Vec Ideal S64x1024 .f32) (b : Fin 64) (r : Fin 1024) :
    (accBs (F := Ideal) vm va bb acc (ix2 b r) : EReal)
      = (acc (ix2 b r) : EReal) + ∑ k : Fin 1024, ((vm (ix2 b k) : EReal) * Ideal.sin (va (ix2 b k))) * (bb (ix2 r k) : EReal) := by
  unfold accBs k0_pay3 k0_pay17
  rw [shapeCast_self]
  refine (addf_apply _ _ _).trans ?_
  refine congrArg (fun x => (acc (ix2 b r) : EReal) + x) ?_
  exact matmul_zero_apply _ _ b r

/-- The active-power residual block at (b, r). -/
theorem resPblk_apply (vmi vai pin s0 s1 s2 s3 : Vec Ideal S64x1024 .f32) (b : Fin 64) (r : Fin 1024) :
    (resPblk (F := Ideal) vmi vai pin s0 s1 s2 s3 (ix2 b r) : EReal)
      = (vmi (ix2 b r) : EReal) * (Ideal.cos (vai (ix2 b r)) * ((s0 (ix2 b r) : EReal) + (s3 (ix2 b r) : EReal))
          + Ideal.sin (vai (ix2 b r)) * ((s1 (ix2 b r) : EReal) - (s2 (ix2 b r) : EReal))) - (pin (ix2 b r) : EReal) := by
  unfold resPblk k0_pay6 k0_pay4 k0_pay5
  rfl

/-- The reactive-power residual block at (b, r). -/
theorem resQblk_apply (vmi vai qin s0 s1 s2 s3 : Vec Ideal S64x1024 .f32) (b : Fin 64) (r : Fin 1024) :
    (resQblk (F := Ideal) vmi vai qin s0 s1 s2 s3 (ix2 b r) : EReal)
      = (vmi (ix2 b r) : EReal) * (Ideal.sin (vai (ix2 b r)) * ((s0 (ix2 b r) : EReal) + (s3 (ix2 b r) : EReal))
          - Ideal.cos (vai (ix2 b r)) * ((s1 (ix2 b r) : EReal) - (s2 (ix2 b r) : EReal))) - (qin (ix2 b r) : EReal) := by
  unfold resQblk k0_pay7 k0_pay4 k0_pay5
  rfl

end Cert.KernelIdeal.Hand

end
-- ==== Proof.Spec.lean ====
/-
  The two power-flow residuals as ONE function each of the six argument arrays, index by index, on the extended
  reals. With the weights c(b,k) = V(b,k)·cos θ(b,k) and s(b,k) = V(b,k)·sin θ(b,k), and for a square matrix M the
  contraction (M u)(b,i) = ∑ k, u(b,k)·M(i,k) over the source bus k,

    P(b,i) = V(b,i)·(cos θ(b,i)·((G c)(b,i) + (B s)(b,i)) + sin θ(b,i)·((G s)(b,i) − (B c)(b,i))) − P_in(b,i)
    Q(b,i) = V(b,i)·(sin θ(b,i)·((G c)(b,i) + (B s)(b,i)) − cos θ(b,i)·((G s)(b,i) − (B c)(b,i))) − Q_in(b,i).

  Both programs compute exactly these expressions; they differ only in how the sum over the 4096 source buses is
  grouped (four consecutive blocks of 1024 added one after the other into a zero, against one sum), which on the
  extended reals is the same element: addition there is commutative and associative.
-/
import Idealize.ShloMosaic.PureOps.Ideal
import Idealize.ShloMosaic.Lib.ValueIdx

noncomputable section

namespace Cert.Proof.Spec

open Idealize.ShloMosaic Idealize.ShloMosaic.ValueIdx
open scoped BigOperators

/-- A batch-by-bus array, 64 × 4096, of extended reals. -/
abbrev Arr : Type := (⟨2, ![64, 4096]⟩ : Shape).Idx → EReal
/-- A bus-by-bus matrix, 4096 × 4096, of extended reals. -/
abbrev Mat : Type := (⟨2, ![4096, 4096]⟩ : Shape).Idx → EReal

/-- The cosine weight V(b,k)·cos θ(b,k). -/
def cw (vmag vang : Arr) (b : Fin 64) (k : Fin 4096) : EReal := vmag (ix2 b k) * Ideal.cos (vang (ix2 b k))
/-- The sine weight V(b,k)·sin θ(b,k). -/
def sw (vmag vang : Arr) (b : Fin 64) (k : Fin 4096) : EReal := vmag (ix2 b k) * Ideal.sin (vang (ix2 b k))

/-- The contraction over the source bus: (M u)(b,i) = ∑ k, u(b,k)·M(i,k). -/
def mv (u : Fin 64 → Fin 4096 → EReal) (M : Mat) (b : Fin 64) (i : Fin 4096) : EReal := ∑ k : Fin 4096, u b k * M (ix2 i k)

/-- The active-power residual at batch b, bus i. -/
def resP (vmag vang pin : Arr) (G B : Mat) (b : Fin 64) (i : Fin 4096) : EReal :=
  vmag (ix2 b i) * (Ideal.cos (vang (ix2 b i)) * (mv (cw vmag vang) G b i + mv (sw vmag vang) B b i)
      + Ideal.sin (vang (ix2 b i)) * (mv (sw vmag vang) G b i - mv (cw vmag vang) B b i)) - pin (ix2 b i)

/-- The reactive-power residual at batch b, bus i. -/
def resQ (vmag vang qin : Arr) (G B : Mat) (b : Fin 64) (i : Fin 4096) : EReal :=
  vmag (ix2 b i) * (Ideal.sin (vang (ix2 b i)) * (mv (cw vmag vang) G b i + mv (sw vmag vang) B b i)
      - Ideal.cos (vang (ix2 b i)) * (mv (sw vmag vang) G b i - mv (cw vmag vang) B b i)) - qin (ix2 b i)

/-- The active-power residuals as a whole array. -/
def arrP (vmag vang pin : Arr) (G B : Mat) : Arr := fun j => resP vmag vang pin G B (j 0) (j 1)
/-- The reactive-power residuals as a whole array. -/
def arrQ (vmag vang qin : Arr) (G B : Mat) : Arr := fun j => resQ vmag vang qin G B (j 0) (j 1)

theorem arrP_apply (vmag vang pin : Arr) (G B : Mat) (b : Fin 64) (i : Fin 4096) :
    arrP vmag vang pin G B (ix2 b i) = resP vmag vang pin G B b i := rfl
theorem arrQ_apply (vmag vang qin : Arr) (G B : Mat) (b : Fin 64) (i : Fin 4096) :
    arrQ vmag vang qin G B (ix2 b i) = resQ vmag vang qin G B b i := rfl

end Cert.Proof.Spec

end
-- ==== Proof.KI.Blocks.lean ====
/-
  The windows' blocks read at an index, and the result arrays assembled from their blocks. Point t = 4·i + j of the
  4 × 4 grid stages the (i, j) blocks of the two matrices, the j-th column block of the magnitudes and the angles
  (source buses 1024·j … 1024·j + 1023), and the i-th column block of the magnitudes, the angles and the two
  injections (output buses 1024·i … 1024·i + 1023); the two result windows' block is the i-th column block, written
  back at the four points with j = 3, which between them cover each result array.
-/
import proofs.«131548_j16355235463758_1_alg».proof.Proof.KI.Frame
import proofs.«131548_j16355235463758_1_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.Proof

variable (m : (ℓ : Loc nD τ sig) → Buf (Elt Ideal) ℓ)

/-! ## The six argument arrays, as the region finds them -/

abbrev aVm (c : Dev nD) : Spec.Arr := V m c main_arg0
abbrev aVa (c : Dev nD) : Spec.Arr := V m c main_arg1
abbrev aPin (c : Dev nD) : Spec.Arr := V m c main_arg2
abbrev aQin (c : Dev nD) : Spec.Arr := V m c main_arg3
abbrev aG (c : Dev nD) : Spec.Mat := V m c main_arg4
abbrev aB (c : Dev nD) : Spec.Mat := V m c main_arg5

/-! ## A point's output bus and source bus -/

/-- The r-th output bus of point t's output block: 1024·(t / 4) + r. -/
def gi (t : Fin cfg0.N) (r : Fin 1024) : Fin 4096 :=
  ⟨1024 * (t.val / 4) + r.val, by have h1 := t.isLt; have h2 : cfg0.N = 16 := N_0; have h3 := r.isLt; omega⟩
/-- The k-th source bus of point t's source block: 1024·(t % 4) + k. -/
def gj (t : Fin cfg0.N) (k : Fin 1024) : Fin 4096 :=
  ⟨1024 * (t.val % 4) + k.val, by have h3 := k.isLt; omega⟩

theorem gi_val (t : Fin cfg0.N) (r : Fin 1024) : (gi t r).val = 1024 * (t.val / 4) + r.val := rfl
theorem gj_val (t : Fin cfg0.N) (k : Fin 1024) : (gj t k).val = 1024 * (t.val % 4) + k.val := rfl

/-! ## The windows' block indices, decided over the sixteen points

Windows 0 and 1 move with both grid coordinates; windows 2 and 3 follow the source coordinate t % 4 on the bus axis;
windows 4 to 9 follow the output coordinate t / 4 on the bus axis. The batch axis is never cut: its block index is 0. -/

theorem idx0 : ∀ t : Fin cfg0.N, win0_0.index t (0 : Fin 2) = t.val / 4 ∧ win0_0.index t (1 : Fin 2) = t.val % 4 :=
  (by decide +kernel : ∀ t : Fin grid0.N, _)
theorem idx1 : ∀ t : Fin cfg0.N, win0_1.index t (0 : Fin 2) = t.val / 4 ∧ win0_1.index t (1 : Fin 2) = t.val % 4 :=
  (by decide +kernel : ∀ t : Fin grid0.N, _)
theorem idx2 : ∀ t : Fin cfg0.N, win0_2.index t (0 : Fin 2) = 0 ∧ win0_2.index t (1 : Fin 2) = t.val % 4 :=
  (by decide +kernel : ∀ t : Fin grid0.N, _)
theorem idx3 : ∀ t : Fin cfg0.N, win0_3.index t (0 : Fin 2) = 0 ∧ win0_3.index t (1 : Fin 2) = t.val % 4 :=
  (by decide +kernel : ∀ t : Fin grid0.N, _)
theorem idx4 : ∀ t : Fin cfg0.N, win0_4.index t (0 : Fin 2) = 0 ∧ win0_4.index t (1 : Fin 2) = t.val / 4 :=
  (by decide +kernel : ∀ t : Fin grid0.N, _)
theorem idx5 : ∀ t : Fin cfg0.N, win0_5.index t (0 : Fin 2) = 0 ∧ win0_5.index t (1 : Fin 2) = t.val / 4 :=
  (by decide +kernel : ∀ t : Fin grid0.N, _)
theorem idx6 : ∀ t : Fin cfg0.N, win0_6.index t (0 : Fin 2) = 0 ∧ win0_6.index t (1 : Fin 2) = t.val / 4 :=
  (by decide +kernel : ∀ t : Fin grid0.N, _)
theorem idx7 : ∀ t : Fin cfg0.N, win0_7.index t (0 : Fin 2) = 0 ∧ win0_7.index t (1 : Fin 2) = t.val / 4 :=
  (by decide +kernel : ∀ t : Fin grid0.N, _)
theorem idx8 : ∀ t : Fin cfg0.N, win0_8.index t (0 : Fin 2) = 0 ∧ win0_8.index t (1 : Fin 2) = t.val / 4 :=
  (by decide +kernel : ∀ t : Fin grid0.N, _)
theorem idx9 : ∀ t : Fin cfg0.N, win0_9.index t (0 : Fin 2) = 0 ∧ win0_9.index t (1 : Fin 2) = t.val / 4 :=
  (by decide +kernel : ∀ t : Fin grid0.N, _)

/-! ## The input windows' blocks at an index

An element of a block sits in its array, on each axis, at the block index times the block's size plus its own
coordinate inside the block. -/

theorem blk0 (c : Dev nD) (t : Fin cfg0.N) (r k : Fin 1024) :
    ((iblk m c 0 t : Vec Ideal S1024x1024 .f32) (ix2 r k) : EReal) = aG m c (ix2 (gi t r) (gj t k)) := by
  unfold iblk
  rw [View.read_apply]
  show V m c main_arg4 (((cfg0.win 0).blk t).view.emb (ix2 r k)) = V m c main_arg4 (ix2 (gi t r) (gj t k))
  obtain ⟨e0, e1⟩ := idx0 t
  congr 1
  funext a
  apply Fin.ext
  match a with
  | ⟨0, _⟩ =>
    show win0_0.index t (0 : Fin 2) * 1024 + 1 * r.val = 1024 * (t.val / 4) + r.val
    omega
  | ⟨1, _⟩ =>
    show win0_0.index t (1 : Fin 2) * 1024 + 1 * k.val = 1024 * (t.val % 4) + k.val
    omega
theorem blk1 (c : Dev nD) (t : Fin cfg0.N) (r k : Fin 1024) :
    ((iblk m c 1 t : Vec Ideal S1024x1024 .f32) (ix2 r k) : EReal) = aB m c (ix2 (gi t r) (gj t k)) := by
  unfold iblk
  rw [View.read_apply]
  show V m c main_arg5 (((cfg0.win 1).blk t).view.emb (ix2 r k)) = V m c main_arg5 (ix2 (gi t r) (gj t k))
  obtain ⟨e0, e1⟩ := idx1 t
  congr 1
  funext a
  apply Fin.ext
  match a with
  | ⟨0, _⟩ =>
    show win0_1.index t (0 : Fin 2) * 1024 + 1 * r.val = 1024 * (t.val / 4) + r.val
    omega
  | ⟨1, _⟩ =>
    show win0_1.index t (1 : Fin 2) * 1024 + 1 * k.val = 1024 * (t.val % 4) + k.val
    omega
theorem blk2 (c : Dev nD) (t : Fin cfg0.N) (b : Fin 64) (k : Fin 1024) :
    ((iblk m c 2 t : Vec Ideal S64x1024 .f32) (ix2 b k) : EReal) = aVm m c (ix2 b (gj t k)) := by
  unfold iblk
  rw [View.read_apply]
  show V m c main_arg0 (((cfg0.win 2).blk t).view.emb (ix2 b k)) = V m c main_arg0 (ix2 b (gj t k))
  obtain ⟨e0, e1⟩ := idx2 t
  congr 1
  funext a
  apply Fin.ext
  match a with
  | ⟨0, _⟩ =>
    show win0_2.index t (0 : Fin 2) * 64 + 1 * b.val = b.val
    omega
  | ⟨1, _⟩ =>
    show win0_2.index t (1 : Fin 2) * 1024 + 1 * k.val = 1024 * (t.val % 4) + k.val
    omega
theorem blk3 (c : Dev nD) (t : Fin cfg0.N) (b : Fin 64) (k : Fin 1024) :
    ((iblk m c 3 t : Vec Ideal S64x1024 .f32) (ix2 b k) : EReal) = aVa m c (ix2 b (gj t k)) := by
  unfold iblk
  rw [View.read_apply]
  show V m c main_arg1 (((cfg0.win 3).blk t).view.emb (ix2 b k)) = V m c main_arg1 (ix2 b (gj t k))
  obtain ⟨e0, e1⟩ := idx3 t
  congr 1
  funext a
  apply Fin.ext
  match a with
  | ⟨0, _⟩ =>
    show win0_3.index t (0 : Fin 2) * 64 + 1 * b.val = b.val
    omega
  | ⟨1, _⟩ =>
    show win0_3.index t (1 : Fin 2) * 1024 + 1 * k.val = 1024 * (t.val % 4) + k.val
    omega
theorem blk4 (c : Dev nD) (t : Fin cfg0.N) (b : Fin 64) (r : Fin 1024) :
    ((iblk m c 4 t : Vec Ideal S64x1024 .f32) (ix2 b r) : EReal) = aVm m c (ix2 b (gi t r)) := by
  unfold iblk
  rw [View.read_apply]
  show V m c main_arg0 (((cfg0.win 4).blk t).view.emb (ix2 b r)) = V m c main_arg0 (ix2 b (gi t r))
  obtain ⟨e0, e1⟩ := idx4 t
  congr 1
  funext a
  apply Fin.ext
  match a with
  | ⟨0, _⟩ =>
    show win0_4.index t (0 : Fin 2) * 64 + 1 * b.val = b.val
    omega
  | ⟨1, _⟩ =>
    show win0_4.index t (1 : Fin 2) * 1024 + 1 * r.val = 1024 * (t.val / 4) + r.val
    omega
theorem blk5 (c : Dev nD) (t : Fin cfg0.N) (b : Fin 64) (r : Fin 1024) :
    ((iblk m c 5 t : Vec Ideal S64x1024 .f32) (ix2 b r) : EReal) = aVa m c (ix2 b (gi t r)) := by
  unfold iblk
  rw [View.read_apply]
  show V m c main_arg1 (((cfg0.win 5).blk t).view.emb (ix2 b r)) = V m c main_arg1 (ix2 b (gi t r))
  obtain ⟨e0, e1⟩ := idx5 t
  congr 1
  funext a
  apply Fin.ext
  match a with
  | ⟨0, _⟩ =>
    show win0_5.index t (0 : Fin 2) * 64 + 1 * b.val = b.val
    omega
  | ⟨1, _⟩ =>
    show win0_5.index t (1 : Fin 2) * 1024 + 1 * r.val = 1024 * (t.val / 4) + r.val
    omega
theorem blk6 (c : Dev nD) (t : Fin cfg0.N) (b : Fin 64) (r : Fin 1024) :
    ((iblk m c 6 t : Vec Ideal S64x1024 .f32) (ix2 b r) : EReal) = aPin m c (ix2 b (gi t r)) := by
  unfold iblk
  rw [View.read_apply]
  show V m c main_arg2 (((cfg0.win 6).blk t).view.emb (ix2 b r)) = V m c main_arg2 (ix2 b (gi t r))
  obtain ⟨e0, e1⟩ := idx6 t
  congr 1
  funext a
  apply Fin.ext
  match a with
  | ⟨0, _⟩ =>
    show win0_6.index t (0 : Fin 2) * 64 + 1 * b.val = b.val
    omega
  | ⟨1, _⟩ =>
    show win0_6.index t (1 : Fin 2) * 1024 + 1 * r.val = 1024 * (t.val / 4) + r.val
    omega
theorem blk7 (c : Dev nD) (t : Fin cfg0.N) (b : Fin 64) (r : Fin 1024) :
    ((iblk m c 7 t : Vec Ideal S64x1024 .f32) (ix2 b r) : EReal) = aQin m c (ix2 b (gi t r)) := by
  unfold iblk
  rw [View.read_apply]
  show V m c main_arg3 (((cfg0.win 7).blk t).view.emb (ix2 b r)) = V m c main_arg3 (ix2 b (gi t r))
  obtain ⟨e0, e1⟩ := idx7 t
  congr 1
  funext a
  apply Fin.ext
  match a with
  | ⟨0, _⟩ =>
    show win0_7.index t (0 : Fin 2) * 64 + 1 * b.val = b.val
    omega
  | ⟨1, _⟩ =>
    show win0_7.index t (1 : Fin 2) * 1024 + 1 * r.val = 1024 * (t.val / 4) + r.val
    omega

/-! ## The result arrays from their blocks

What a point with j = 3 writes back is the result buffer's whole contents (the window is never cut at the array's
end); when that is the point's column block of one whole-array function, and the four such points' blocks cover the
array, the array ends at that function. -/

/-- Result window 8's block at point t, read off a whole array, is the array's column block of point t's output buses. -/
theorem rd8 (t : Fin cfg0.N) (Gf : Spec.Arr) (b : Fin 64) (r : Fin 1024) :
    ((((cfg0.win 8).blk t).view.read (Elt Ideal) Gf : Vec Ideal S64x1024 .f32) (ix2 b r) : EReal) = Gf (ix2 b (gi t r)) := by
  rw [View.read_apply]
  show Gf (((cfg0.win 8).blk t).view.emb (ix2 b r)) = Gf (ix2 b (gi t r))
  obtain ⟨e0, e1⟩ := idx8 t
  congr 1
  funext a
  apply Fin.ext
  match a with
  | ⟨0, _⟩ =>
    show win0_8.index t (0 : Fin 2) * 64 + 1 * b.val = b.val
    omega
  | ⟨1, _⟩ =>
    show win0_8.index t (1 : Fin 2) * 1024 + 1 * r.val = 1024 * (t.val / 4) + r.val
    omega

/-- An index of the result array is in point t's block iff each coordinate is in the block's range on its axis. -/
theorem mem_blk8 (t : Fin cfg0.N) (i : S64x4096.Idx) :
    i ∈ ((cfg0.win 8).blk t).view.set ↔ ∀ a : Fin 2, win0_8.index t a * S64x1024.size a ≤ (i a).val ∧ (i a).val < win0_8.index t a * S64x1024.size a + S64x1024.size a := by
  show i ∈ ((View.whole main_v0_0).slice (win0_8.rect t)).set ↔ _
  rw [View.set_slice_whole, Rect.mem_set_unit]
  exact Iff.rfl

/-- Every index of the result array is in the block of a point that writes back: bus i is covered by the last point
    of its column block's reduction, t = 4·(i / 1024) + 3. -/
theorem cover8 (i : S64x4096.Idx) : ∃ t : Fin cfg0.N, (cfg0.win 8).flush t = true ∧ i ∈ ((cfg0.win 8).blk t).view.set := by
  have hi0 : (i 0).val < 64 := (i 0).isLt
  have hi1 : (i 1).val < 4096 := (i 1).isLt
  have hN : cfg0.N = 16 := N_0
  have hlt : 4 * ((i 1).val / 1024) + 3 < cfg0.N := by omega
  refine ⟨⟨4 * ((i 1).val / 1024) + 3, hlt⟩, (flush0_8 _).mpr (by show (4 * ((i 1).val / 1024) + 3) % 4 = 3; omega), ?_⟩
  rw [mem_blk8]
  obtain ⟨e0, e1⟩ := idx8 ⟨4 * ((i 1).val / 1024) + 3, hlt⟩
  have e1' : win0_8.index ⟨4 * ((i 1).val / 1024) + 3, hlt⟩ (1 : Fin 2) = (4 * ((i 1).val / 1024) + 3) / 4 := e1
  intro a
  match a with
  | ⟨0, _⟩ =>
    show win0_8.index ⟨4 * ((i 1).val / 1024) + 3, hlt⟩ (0 : Fin 2) * 64 ≤ (i 0).val ∧ (i 0).val < win0_8.index ⟨4 * ((i 1).val / 1024) + 3, hlt⟩ (0 : Fin 2) * 64 + 64
    omega
  | ⟨1, _⟩ =>
    show win0_8.index ⟨4 * ((i 1).val / 1024) + 3, hlt⟩ (1 : Fin 2) * 1024 ≤ (i 1).val ∧ (i 1).val < win0_8.index ⟨4 * ((i 1).val / 1024) + 3, hlt⟩ (1 : Fin 2) * 1024 + 1024
    omega

/-- Result window 9's block at point t, read off a whole array, is the array's column block of point t's output buses. -/
theorem rd9 (t : Fin cfg0.N) (Gf : Spec.Arr) (b : Fin 64) (r : Fin 1024) :
    ((((cfg0.win 9).blk t).view.read (Elt Ideal) Gf : Vec Ideal S64x1024 .f32) (ix2 b r) : EReal) = Gf (ix2 b (gi t r)) := by
  rw [View.read_apply]
  show Gf (((cfg0.win 9).blk t).view.emb (ix2 b r)) = Gf (ix2 b (gi t r))
  obtain ⟨e0, e1⟩ := idx9 t
  congr 1
  funext a
  apply Fin.ext
  match a with
  | ⟨0, _⟩ =>
    show win0_9.index t (0 : Fin 2) * 64 + 1 * b.val = b.val
    omega
  | ⟨1, _⟩ =>
    show win0_9.index t (1 : Fin 2) * 1024 + 1 * r.val = 1024 * (t.val / 4) + r.val
    omega

/-- An index of the result array is in point t's block iff each coordinate is in the block's range on its axis. -/
theorem mem_blk9 (t : Fin cfg0.N) (i : S64x4096.Idx) :
    i ∈ ((cfg0.win 9).blk t).view.set ↔ ∀ a : Fin 2, win0_9.index t a * S64x1024.size a ≤ (i a).val ∧ (i a).val < win0_9.index t a * S64x1024.size a + S64x1024.size a := by
  show i ∈ ((View.whole main_v0_1).slice (win0_9.rect t)).set ↔ _
  rw [View.set_slice_whole, Rect.mem_set_unit]
  exact Iff.rfl

/-- Every index of the result array is in the block of a point that writes back: bus i is covered by the last point
    of its column block's reduction, t = 4·(i / 1024) + 3. -/
theorem cover9 (i : S64x4096.Idx) : ∃ t : Fin cfg0.N, (cfg0.win 9).flush t = true ∧ i ∈ ((cfg0.win 9).blk t).view.set := by
  have hi0 : (i 0).val < 64 := (i 0).isLt
  have hi1 : (i 1).val < 4096 := (i 1).isLt
  have hN : cfg0.N = 16 := N_0
  have hlt : 4 * ((i 1).val / 1024) + 3 < cfg0.N := by omega
  refine ⟨⟨4 * ((i 1).val / 1024) + 3, hlt⟩, (flush0_9 _).mpr (by show (4 * ((i 1).val / 1024) + 3) % 4 = 3; omega), ?_⟩
  rw [mem_blk9]
  obtain ⟨e0, e1⟩ := idx9 ⟨4 * ((i 1).val / 1024) + 3, hlt⟩
  have e1' : win0_9.index ⟨4 * ((i 1).val / 1024) + 3, hlt⟩ (1 : Fin 2) = (4 * ((i 1).val / 1024) + 3) / 4 := e1
  intro a
  match a with
  | ⟨0, _⟩ =>
    show win0_9.index ⟨4 * ((i 1).val / 1024) + 3, hlt⟩ (0 : Fin 2) * 64 ≤ (i 0).val ∧ (i 0).val < win0_9.index ⟨4 * ((i 1).val / 1024) + 3, hlt⟩ (0 : Fin 2) * 64 + 64
    omega
  | ⟨1, _⟩ =>
    show win0_9.index ⟨4 * ((i 1).val / 1024) + 3, hlt⟩ (1 : Fin 2) * 1024 ≤ (i 1).val ∧ (i 1).val < win0_9.index ⟨4 * ((i 1).val / 1024) + 3, hlt⟩ (1 : Fin 2) * 1024 + 1024
    omega

/-- If at each of the four points with j = 3 the first result buffer holds, index by index, the point's column block
    of one whole-array function, the first result array ends at that function. -/
theorem final8 (c : Dev nD) (Gf : Spec.Arr)
    (h : ∀ t : Fin cfg0.N, t.val % 4 = 3 → ∀ (b : Fin 64) (r : Fin 1024), ((outsAt0 m c t.val t.isLt).o8 (ix2 b r) : EReal) = Gf (ix2 b (gi t r))) :
    (dats m 0 c).arrAt 8 cfg0.N = Gf := by
  refine (dats m 0 c).arrAt_eq_of_cover 8 Gf ?_ cover8
  intro t hf
  have ht : t.val % 4 = 3 := (flush0_8 t).mp hf
  show (cfg0.win 8).cut (grid0.coords t) ((dats m 0 c).after 8 t) = _
  rw [after0_8]
  show ((outsAt0 m c t.val t.isLt).o8 : Vec Ideal S64x1024 .f32) = (((cfg0.win 8).blk t).view.read (Elt Ideal) Gf : Vec Ideal S64x1024 .f32)
  funext y
  obtain ⟨b, r, rfl⟩ : ∃ b r, y = ix2 b r := ⟨y 0, y 1, eq_ix2 y⟩
  exact (h t ht b r).trans (rd8 t Gf b r).symm

/-- The same for the second result array. -/
theorem final9 (c : Dev nD) (Gf : Spec.Arr)
    (h : ∀ t : Fin cfg0.N, t.val % 4 = 3 → ∀ (b : Fin 64) (r : Fin 1024), ((outsAt0 m c t.val t.isLt).o9 (ix2 b r) : EReal) = Gf (ix2 b (gi t r))) :
    (dats m 0 c).arrAt 9 cfg0.N = Gf := by
  refine (dats m 0 c).arrAt_eq_of_cover 9 Gf ?_ cover9
  intro t hf
  have ht : t.val % 4 = 3 := (flush0_9 t).mp hf
  show (cfg0.win 9).cut (grid0.coords t) ((dats m 0 c).after 9 t) = _
  rw [after0_9]
  show ((outsAt0 m c t.val t.isLt).o9 : Vec Ideal S64x1024 .f32) = (((cfg0.win 9).blk t).view.read (Elt Ideal) Gf : Vec Ideal S64x1024 .f32)
  funext y
  obtain ⟨b, r, rfl⟩ : ∃ b r, y = ix2 b r := ⟨y 0, y 1, eq_ix2 y⟩
  exact (h t ht b r).trans (rd9 t Gf b r).symm

end Cert.KernelIdeal.Hand

end
-- ==== Proof.KI.Body.lean ====
/-
  The body obligation of the idealized power-flow kernel at a generic grid point: the point's residue modulo 4 says
  which of the three cases it is in, and that case's run applies. The invariant hands the body the four accumulators
  at what the point before left (at anything at the first point) and takes them back at this point's contents; the
  input windows' buffers hold their blocks and are handed back as found; the two result windows' buffers are handed
  back untouched where the window is idle, and with the residual blocks where j = 3.
-/
import proofs.«131548_j16355235463758_1_alg».proof.Proof.KI.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 8000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  rw [show (dats m 0 c).leavesExact 0 t = owns (c : Thread nD τ) (ms0 t) fullShare ((dats m 0 c).after 0 t) from by
    unfold Dat.leavesExact; rw [liveAt_in 0 (by decide) t], after0_0]
  rw [show (dats m 0 c).leavesExact 1 t = owns (c : Thread nD τ) (ms1 t) fullShare ((dats m 0 c).after 1 t) from by
    unfold Dat.leavesExact; rw [liveAt_in 1 (by decide) t], after0_1]
  rw [show (dats m 0 c).leavesExact 2 t = owns (c : Thread nD τ) (ms2 t) fullShare ((dats m 0 c).after 2 t) from by
    unfold Dat.leavesExact; rw [liveAt_in 2 (by decide) t], after0_2]
  rw [show (dats m 0 c).leavesExact 3 t = owns (c : Thread nD τ) (ms3 t) fullShare ((dats m 0 c).after 3 t) from by
    unfold Dat.leavesExact; rw [liveAt_in 3 (by decide) t], after0_3]
  rw [show (dats m 0 c).leavesExact 4 t = owns (c : Thread nD τ) (ms4 t) fullShare ((dats m 0 c).after 4 t) from by
    unfold Dat.leavesExact; rw [liveAt_in 4 (by decide) t], after0_4]
  rw [show (dats m 0 c).leavesExact 5 t = owns (c : Thread nD τ) (ms5 t) fullShare ((dats m 0 c).after 5 t) from by
    unfold Dat.leavesExact; rw [liveAt_in 5 (by decide) t], after0_5]
  rw [show (dats m 0 c).leavesExact 6 t = owns (c : Thread nD τ) (ms6 t) fullShare ((dats m 0 c).after 6 t) from by
    unfold Dat.leavesExact; rw [liveAt_in 6 (by decide) t], after0_6]
  rw [show (dats m 0 c).leavesExact 7 t = owns (c : Thread nD τ) (ms7 t) fullShare ((dats m 0 c).after 7 t) from by
    unfold Dat.leavesExact; rw [liveAt_in 7 (by decide) t], after0_7]
  by_cases h0 : t.val % 4 = 0
  · have hc0 : cond0_0 (grid0.coords t) := (hcond0_0 t).mpr h0
    have hc1 : ¬cond0_1 (grid0.coords t) := fun h => by have := (hcond0_1 t).mp h; omega
    rw [Dat.leavesExact_idle (dats m 0 c) 8 t (idleAt_8 t hc1) (noFlush_8 t hc1), Dat.leavesExact_idle (dats m 0 c) 9 t (idleAt_9 t hc1) (noFlush_9 t hc1)]
    rw [outsAt0_A m c t h0]
    unfold outA; dsimp only
    by_cases hz : t.val = 0
    · rw [PhiS_castSucc m c t, PhiS_zero m c _ _ hz]; unfold PhiAny
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA m c t hc0 hc1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%es0, HS0⟩, ⟨%es1, HS1⟩, ⟨%es2, HS2⟩, ⟨%es3, HS3⟩⟩
      isplitl [HS0 HS1 HS2 HS3]
      ·
        isplitl [HS0]
        · unfold owns; iexists _; isplitr
          swap; · iexact HS0
          ipureintro; exact View.read_writes_of_cover _ _ _ _ _ (coverA0 m c t hc0 hc1)
        isplitl [HS1]
        · unfold owns; iexists _; isplitr
          swap; · iexact HS1
          ipureintro; exact View.read_writes_of_cover _ _ _ _ _ (coverA1 m c t hc0 hc1)
        isplitl [HS2]
        · unfold owns; iexists _; isplitr
          swap; · iexact HS2
          ipureintro; exact View.read_writes_of_cover _ _ _ _ _ (coverA2 m c t hc0 hc1)
        unfold owns; iexists _; isplitr
        swap; · iexact HS3
        ipureintro; exact View.read_writes_of_cover _ _ _ _ _ (coverA3 m c t hc0 hc1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA m c t hc0 hc1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, ⟨%es0, HS0⟩, ⟨%es1, HS1⟩, ⟨%es2, HS2⟩, ⟨%es3, HS3⟩⟩
      isplitl [HS0 HS1 HS2 HS3]
      ·
        isplitl [HS0]
        · unfold owns; iexists _; isplitr
          swap; · iexact HS0
          ipureintro; exact View.read_writes_of_cover _ _ _ _ _ (coverA0 m c t hc0 hc1)
        isplitl [HS1]
        · unfold owns; iexists _; isplitr
          swap; · iexact HS1
          ipureintro; exact View.read_writes_of_cover _ _ _ _ _ (coverA1 m c t hc0 hc1)
        isplitl [HS2]
        · unfold owns; iexists _; isplitr
          swap; · iexact HS2
          ipureintro; exact View.read_writes_of_cover _ _ _ _ _ (coverA2 m c t hc0 hc1)
        unfold owns; iexists _; isplitr
        swap; · iexact HS3
        ipureintro; exact View.read_writes_of_cover _ _ _ _ _ (coverA3 m c t hc0 hc1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9
  · have hc0 : ¬cond0_0 (grid0.coords t) := fun h => h0 ((hcond0_0 t).mp h)
    have hz : t.val ≠ 0 := fun h => h0 (by rw [h])
    by_cases h1 : t.val % 4 = 3
    · have hc1 : cond0_1 (grid0.coords t) := (hcond0_1 t).mpr h1
      rw [show (dats m 0 c).leavesExact 8 t = owns (c : Thread nD τ) (ms8 t) fullShare ((dats m 0 c).after 8 t) from by
        unfold Dat.leavesExact; rw [liveAt_8 t hc1], after0_8]
      rw [show (dats m 0 c).leavesExact 9 t = owns (c : Thread nD τ) (ms9 t) fullShare ((dats m 0 c).after 9 t) from by
        unfold Dat.leavesExact; rw [liveAt_9 t hc1], after0_9]
      rw [outsAt0_C m c t h0 h1]
      unfold outC; dsimp only
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runC m c t hc0 hc1 _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      isplitl [HS2]; · iexact HS2
      isplitl [HS3]; · iexact HS3
      iintro ⟨H0, H1, H2, H3, H4, H5, H6, H7, ⟨%e8, H8⟩, ⟨%e9, H9⟩, ⟨%es0, HS0⟩, ⟨%es1, HS1⟩, ⟨%es2, HS2⟩, ⟨%es3, HS3⟩⟩
      isplitl [HS0 HS1 HS2 HS3]
      ·
        isplitl [HS0]
        · unfold owns; iexists _; isplitr
          swap; · iexact HS0
          ipureintro; exact View.read_writes_of_cover _ _ _ _ _ (coverC0 m c t hc0 hc1 _ _ _ _)
        isplitl [HS1]
        · unfold owns; iexists _; isplitr
          swap; · iexact HS1
          ipureintro; exact View.read_writes_of_cover _ _ _ _ _ (coverC1 m c t hc0 hc1 _ _ _ _)
        isplitl [HS2]
        · unfold owns; iexists _; isplitr
          swap; · iexact HS2
          ipureintro; exact View.read_writes_of_cover _ _ _ _ _ (coverC2 m c t hc0 hc1 _ _ _ _)
        unfold owns; iexists _; isplitr
        swap; · iexact HS3
        ipureintro; exact View.read_writes_of_cover _ _ _ _ _ (coverC3 m c t hc0 hc1 _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (coverC8 m c t hc0 hc1 _ _ _ _)
      unfold owns; iexists _; isplitr
      swap; · iexact H9
      ipureintro; exact View.read_writes_of_cover _ _ _ _ _ (coverC9 m c t hc0 hc1 _ _ _ _)
    · have hc1 : ¬cond0_1 (grid0.coords t) := fun h => h1 ((hcond0_1 t).mp h)
      rw [Dat.leavesExact_idle (dats m 0 c) 8 t (idleAt_8 t hc1) (noFlush_8 t hc1), Dat.leavesExact_idle (dats m 0 c) 9 t (idleAt_9 t hc1) (noFlush_9 t hc1)]
      rw [outsAt0_B m c t h0 h1]
      unfold outB; dsimp only
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB m c t hc0 hc1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      isplitl [HS2]; · iexact HS2
      isplitl [HS3]; · iexact HS3
      iintro ⟨H0, H1, H2, H3, H4, H5, H6, H7, H8, H9, ⟨%es0, HS0⟩, ⟨%es1, HS1⟩, ⟨%es2, HS2⟩, ⟨%es3, HS3⟩⟩
      isplitl [HS0 HS1 HS2 HS3]
      ·
        isplitl [HS0]
        · unfold owns; iexists _; isplitr
          swap; · iexact HS0
          ipureintro; exact View.read_writes_of_cover _ _ _ _ _ (coverB0 m c t hc0 hc1 _ _ _ _)
        isplitl [HS1]
        · unfold owns; iexists _; isplitr
          swap; · iexact HS1
          ipureintro; exact View.read_writes_of_cover _ _ _ _ _ (coverB1 m c t hc0 hc1 _ _ _ _)
        isplitl [HS2]
        · unfold owns; iexists _; isplitr
          swap; · iexact HS2
          ipureintro; exact View.read_writes_of_cover _ _ _ _ _ (coverB2 m c t hc0 hc1 _ _ _ _)
        unfold owns; iexists _; isplitr
        swap; · iexact HS3
        ipureintro; exact View.read_writes_of_cover _ _ _ _ _ (coverB3 m c t hc0 hc1 _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Launch.lean ====
/-
  The launch of the idealized power-flow program and its frame. The program is the one kernel region; the region's
  ten windows stand on eight arrays, the magnitudes and the angles each being read through two windows (one indexed
  by the source block, one by the output block). At entry the full share of each of those two arrays is split in two
  halves, one for each window on it; the other six arrays go to their windows whole. The four accumulators, the
  core's only other scoped buffers, enter the invariant at some contents and leave it so. The run ends with every
  window's array at what the write-backs of the sixteen points leave; an input window's array is never written, so
  the six argument arrays end as they began.
-/
import proofs.«131548_j16355235463758_1_alg».proof.Proof.KI.Body
import Idealize.ShloMosaic.Lib.Pipeline.Launch
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays dealt among the windows -/

/-- A window's array holds at entry what the region finds in the buffer behind it. -/
theorem arrAt_zero (c : Dev nD) (w : Fin cfg0.W) : (dats m 0 c).arrAt w 0 = V m c (Pipeline.arrRef spec0 w) := rfl

theorem share_0 (c : Dev nD) : (dats m 0 c).share 0 = fullShare := rfl
theorem share_1 (c : Dev nD) : (dats m 0 c).share 1 = fullShare := rfl
theorem share_2 (c : Dev nD) : (dats m 0 c).share 2 = fullShare.left := rfl
theorem share_3 (c : Dev nD) : (dats m 0 c).share 3 = fullShare.left := rfl
theorem share_4 (c : Dev nD) : (dats m 0 c).share 4 = fullShare.right := rfl
theorem share_5 (c : Dev nD) : (dats m 0 c).share 5 = fullShare.right := rfl
theorem share_6 (c : Dev nD) : (dats m 0 c).share 6 = fullShare := rfl
theorem share_7 (c : Dev nD) : (dats m 0 c).share 7 = fullShare := rfl
theorem share_8 (c : Dev nD) : (dats m 0 c).share 8 = fullShare := rfl
theorem share_9 (c : Dev nD) : (dats m 0 c).share 9 = fullShare := rfl
theorem arrRef_0 : Pipeline.arrRef spec0 0 = main_arg4 := rfl
theorem arrRef_1 : Pipeline.arrRef spec0 1 = main_arg5 := rfl
theorem arrRef_2 : Pipeline.arrRef spec0 2 = main_arg0 := rfl
theorem arrRef_3 : Pipeline.arrRef spec0 3 = main_arg1 := rfl
theorem arrRef_4 : Pipeline.arrRef spec0 4 = main_arg0 := rfl
theorem arrRef_5 : Pipeline.arrRef spec0 5 = main_arg1 := rfl
theorem arrRef_6 : Pipeline.arrRef spec0 6 = main_arg2 := rfl
theorem arrRef_7 : Pipeline.arrRef spec0 7 = main_arg3 := rfl
theorem arrRef_8 : Pipeline.arrRef spec0 8 = main_v0_0 := rfl
theorem arrRef_9 : Pipeline.arrRef spec0 9 = main_v0_1 := rfl

/-- The buffers behind the windows' arrays, each whole at the full share, make the proof data's arrays at entry:
    the magnitudes' and the angles' full shares split between their two windows. -/
theorem hsplit (c : Dev nD) :
    (Pipeline.arrBufs spec0 c (V m c) : sProp 𝕄) ⊢ (dats m 0 c).arrays ((dats m 0 c).arrAt · 0) := by
  have hL : (Pipeline.arrBufs spec0 c (V m c) : sProp 𝕄)
      = iprop((((c.tc : Thread nD τ).loc main_arg4) ↦{fullShare} V m c main_arg4) ∗ (((c.tc : Thread nD τ).loc main_arg5) ↦{fullShare} V m c main_arg5) ∗ (((c.tc : Thread nD τ).loc main_arg0) ↦{fullShare} V m c main_arg0) ∗ (((c.tc : Thread nD τ).loc main_arg1) ↦{fullShare} V m c main_arg1) ∗ (((c.tc : Thread nD τ).loc main_arg2) ↦{fullShare} V m c main_arg2) ∗ (((c.tc : Thread nD τ).loc main_arg3) ↦{fullShare} V m c main_arg3) ∗ (((c.tc : Thread nD τ).loc main_v0_0) ↦{fullShare} V m c main_v0_0) ∗ (((c.tc : Thread nD τ).loc main_v0_1) ↦{fullShare} V m c main_v0_1)) := by
    unfold Pipeline.arrBufs
    exact BI.bigSep_eq_bigSepL_of_eq [main_arg4, main_arg5, main_arg0, main_arg1, main_arg2, main_arg3, main_v0_0, main_v0_1] (by decide) (by decide) _
  rw [hL]
  unfold Dat.arrays
  rw [bigSep_W0]
  simp only [View.set_whole, arrAt_zero m c]
  simp only [share_0 m c, share_1 m c, share_2 m c, share_3 m c, share_4 m c, share_5 m c, share_6 m c, share_7 m c, share_8 m c, share_9 m c, arrRef_0, arrRef_1, arrRef_2, arrRef_3, arrRef_4, arrRef_5, arrRef_6, arrRef_7, arrRef_8, arrRef_9]
  iintro ⟨H4, H5, H0, H1, H2, H3, H6, H7⟩
  ihave H0' := (pointsTo_share (PosShare.mem_left_op_right fullShare)).1 $$ H0
  icases H0' with ⟨H0l, H0r⟩
  ihave H1' := (pointsTo_share (PosShare.mem_left_op_right fullShare)).1 $$ H1
  icases H1' with ⟨H1l, H1r⟩
  isplitl [H4]; · iexact H4
  isplitl [H5]; · iexact H5
  isplitl [H0l]; · iexact H0l
  isplitl [H1l]; · iexact H1l
  isplitl [H0r]; · iexact H0r
  isplitl [H1r]; · iexact H1r
  isplitl [H2]; · iexact H2
  isplitl [H3]; · iexact H3
  isplitl [H6]; · iexact H6
  iexact H7

/-! ## The invariant at entry and at exit -/

/-- The core's scoped buffers that are no staging buffer are the four accumulators, owned at some contents. -/
theorem scopedRest_eq (c : Dev nD) : (Pipeline.scopedRest spec0 c : sProp 𝕄) = PhiAny c := by
  rw [scopedRest0_eq]; unfold PhiAny; simp only [sc0, sc1, sc2, sc3, owns_whole]; try rfl

theorem hin (c : Dev nD) : iprop((BI.emp : sProp 𝕄) ∗ Pipeline.scopedRest spec0 c) ⊢ (dats m 0 c).Φ 0 := by
  rw [show (dats m 0 c).Φ 0 = PhiS m c 0 (Nat.zero_le _) from rfl, PhiS_zero m c 0 _ rfl, scopedRest_eq]
  iintro ⟨-, H⟩; iexact H

theorem hout (c : Dev nD) : (dats m 0 c).Φ (Fin.last cfg0.N) ⊢ iprop((BI.emp : sProp 𝕄) ∗ Pipeline.scopedRest spec0 c) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 16 := N_0; omega), scopedRest_eq]
  unfold PhiAny
  iintro ⟨HS0, HS1, HS2, HS3⟩
  isplitr; · iempintro
  isplitl [HS0]; · iexists _; iexact HS0
  isplitl [HS1]; · iexists _; iexact HS1
  isplitl [HS2]; · iexists _; iexact HS2
  iexists _; iexact HS3

/-! ## The run -/

set_option backward.isDefEq.respectTransparency.types false in
/-- From any memory with zero counters every weakly fair execution of the program terminates, and every final state
    has each window's array at what the write-backs of all sixteen points leave. -/
theorem run_main : θ_run defs (onTc (τ := τ) (main (F := F))) ⟨m, fun _ => 0, ρ⟩
    (fun r => ∀ c : Dev nD, ∀ w : Fin cfg0.W, r.2.mem ((spec0 w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (fun c => (body_obligation m c).loose) block_pos0 arr_whole0 stage_whole0 (fun _ _ => rfl)
    (Rounds.initOf (Pipeline.cells cfgs cellOf_inj) (Pipeline.launchToks cfgs cellOf_inj)) .rfl
    (V m) (Pipeline.hmain_region cfgs 0 defs₀ Variants.none m main (fun c => rfl))
    (hsplit m) (fun _ => BI.emp) (fun _ => BI.emp) (fun _ => BI.emp)
    (fun c => by rw [unscopedRest0_eq]; iintro -; isplitr <;> iempintro)
    (hin m) (hout m) (fun _ _ => True)
    (fun c s' => by iintro ⟨-, -, HSI⟩; imodintro; isplitr; · ipureintro; trivial
                    iexact HSI)
    (fun s h c w => (h c).1 w)

/-- info: 'Cert.KernelIdeal.Hand.run_main' depends on axioms: [propext, Classical.choice, Quot.sound] -/
#guard_msgs in #print axioms run_main

/-! ## The frame -/

/-- The six argument arrays end as they began: each is the array of an input window, which no write-back touches. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c 2).trans (((dats m 0 c).arrAt_in 2 rfl _).trans (A_eq m c 2))),
     ((h c 3).trans (((dats m 0 c).arrAt_in 3 rfl _).trans (A_eq m c 3))),
     ((h c 6).trans (((dats m 0 c).arrAt_in 6 rfl _).trans (A_eq m c 6))),
     ((h c 7).trans (((dats m 0 c).arrAt_in 7 rfl _).trans (A_eq m c 7))),
     ((h c 0).trans (((dats m 0 c).arrAt_in 0 rfl _).trans (A_eq m c 0))),
     ((h c 1).trans (((dats m 0 c).arrAt_in 1 rfl _).trans (A_eq m c 1)))⟩) (run_main m ρ)

end Cert.KernelIdeal.Hand

end
-- ==== Proof.LibBlockSum.lean ====
/-
  Sums over blocks of consecutive indices, and running sums: a sum over B blocks of S consecutive indices is the sum
  over all B·S indices; a sequence that starts at its first term and adds one more term at each step is the partial sum.
-/
import Mathlib.Algebra.BigOperators.Fin
import Mathlib.Data.Fintype.BigOperators
import Mathlib.Logic.Equiv.Fin.Basic

namespace Cert.BlockSum

open scoped BigOperators

/-- The `r`-th index of the `b`-th block of `S` consecutive indices, among `B` blocks, is below `B * S`. -/
theorem block_lt {B S : ℕ} (b : Fin B) (r : Fin S) : S * b.val + r.val < B * S :=
  calc S * b.val + r.val < S * b.val + S := Nat.add_lt_add_left r.isLt _
    _ = S * (b.val + 1) := (Nat.mul_succ _ _).symm
    _ ≤ S * B := Nat.mul_le_mul_left _ b.isLt
    _ = B * S := Nat.mul_comm _ _

/-- A sum over `B` blocks of `S` consecutive indices is the sum over all `B * S` indices: every index below
    `B * S` is `S * b + r` for exactly one block `b` and one offset `r`. -/
theorem sum_blocks {M : Type*} [AddCommMonoid M] (B S : ℕ) (f : Fin (B * S) → M) :
    ∑ b : Fin B, ∑ r : Fin S, f ⟨S * b.val + r.val, block_lt b r⟩ = ∑ n : Fin (B * S), f n := by
  rw [← finProdFinEquiv.sum_comp, Fintype.sum_prod_type]
  refine Finset.sum_congr rfl fun b _ => Finset.sum_congr rfl fun r _ => ?_
  exact congrArg f (Fin.ext (Nat.add_comm _ _))

/-- Twelve blocks of 1024 consecutive indices make up the 12288 indices. -/
theorem sum_12x1024 {M : Type*} [AddCommMonoid M] (f : Fin 12288 → M) :
    ∑ b : Fin 12, ∑ r : Fin 1024, f ⟨1024 * b.val + r.val, by omega⟩ = ∑ n : Fin 12288, f n :=
  sum_blocks 12 1024 f

/-- Four blocks of 1536 consecutive indices make up the 6144 indices. -/
theorem sum_4x1536 {M : Type*} [AddCommMonoid M] (f : Fin 6144 → M) :
    ∑ b : Fin 4, ∑ r : Fin 1536, f ⟨1536 * b.val + r.val, by omega⟩ = ∑ n : Fin 6144, f n :=
  sum_blocks 4 1536 f

/-- A running sum from its first term: if `a 0 = g 0` and `a (j + 1) = a j + g (j + 1)` for every `j`, then
    `a j` is the sum of `g` over the first `j + 1` indices. -/
theorem running_sum {M : Type*} [AddCommMonoid M] (a g : ℕ → M) (h0 : a 0 = g 0)
    (hs : ∀ j, a (j + 1) = a j + g (j + 1)) (j : ℕ) : a j = ∑ i ∈ Finset.range (j + 1), g i := by
  induction j with
  | zero => rw [h0, Finset.sum_range_one]
  | succ j ih => rw [hs, ih, Finset.sum_range_succ _ (j + 1)]

/-- The sum over the first twelve naturals is the sum over `Fin 12`. -/
theorem sum_range_12 {M : Type*} [AddCommMonoid M] (g : ℕ → M) :
    ∑ i ∈ Finset.range 12, g i = ∑ b : Fin 12, g b.val :=
  Finset.sum_range g

/-- The sum over the first four naturals is the sum over `Fin 4`. -/
theorem sum_range_4 {M : Type*} [AddCommMonoid M] (g : ℕ → M) :
    ∑ i ∈ Finset.range 4, g i = ∑ b : Fin 4, g b.val :=
  Finset.sum_range g

end Cert.BlockSum
-- ==== Proof.KI.Value.lean ====
/-
  The value of the idealized power-flow kernel. After grid point t = 4·i + j each accumulator holds, at (b, r), the
  partial sum of its contraction over the first j + 1 blocks of 1024 source buses, for the output bus 1024·i + r: the
  point adds its own block's sum to what the point before left (to zero where j = 0), and the blocks of the point
  before are those of the same output block. After the point with j = 3 that is the whole contraction over the 4096
  source buses, four consecutive blocks of 1024 making up all of them, and the residual blocks the point stores are
  the specification's residuals at the output block's buses. The four write-backs, one per output block, cover each
  result array, which therefore ends at the specification's array.
-/
import proofs.«131548_j16355235463758_1_alg».proof.Proof.KI.Pieces
import proofs.«131548_j16355235463758_1_alg».proof.Proof.KI.PayIdx
import proofs.«131548_j16355235463758_1_alg».proof.Proof.KI.Blocks
import proofs.«131548_j16355235463758_1_alg».proof.Proof.KI.Launch
import proofs.«131548_j16355235463758_1_alg».proof.Proof.LibBlockSum
import Mathlib.Algebra.BigOperators.Intervals

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

open Cert.Proof

variable (m : (ℓ : Loc nD τ sig) → Buf (Elt Ideal) ℓ) (ρ : Dev nD → PrngReg)

/-! ## A contraction as four block sums -/

/-- Term n of the contraction of the weight u with row i of the matrix M (zero beyond the 4096 buses). -/
def term (u : Fin 64 → Fin 4096 → EReal) (M : Spec.Mat) (b : Fin 64) (i : Fin 4096) (n : ℕ) : EReal :=
  if h : n < 4096 then u b ⟨n, h⟩ * M (ix2 i ⟨n, h⟩) else 0

/-- The sum of the terms of the j-th block of 1024 source buses. -/
def blockSum (u : Fin 64 → Fin 4096 → EReal) (M : Spec.Mat) (b : Fin 64) (i : Fin 4096) (j : ℕ) : EReal :=
  ∑ k : Fin 1024, term u M b i (1024 * j + k.val)

theorem term_gj (u : Fin 64 → Fin 4096 → EReal) (M : Spec.Mat) (b : Fin 64) (i : Fin 4096) (t : Fin cfg0.N) (k : Fin 1024) :
    term u M b i (1024 * (t.val % 4) + k.val) = u b (gj t k) * M (ix2 i (gj t k)) := by
  unfold term; rw [dif_pos (show 1024 * (t.val % 4) + k.val < 4096 from (gj t k).isLt)]; rfl

/-- Four consecutive blocks of 1024 make up the 4096 source buses: the four block sums add up to the contraction. -/
theorem sum_blocks4 (u : Fin 64 → Fin 4096 → EReal) (M : Spec.Mat) (b : Fin 64) (i : Fin 4096) :
    ∑ j ∈ Finset.range 4, blockSum u M b i j = Spec.mv u M b i := by
  rw [Finset.sum_range]
  unfold blockSum Spec.mv
  refine (Cert.BlockSum.sum_blocks 4 1024 (fun n : Fin (4 * 1024) => term u M b i n.val)).trans ?_
  refine Finset.sum_congr rfl fun n _ => ?_
  unfold term; rw [dif_pos n.isLt]

/-- One more block added to the sum of the blocks before it. -/
theorem sum_step (g : ℕ → EReal) (a a' : EReal) (q q' : ℕ) (hq : q' + 1 = q)
    (ha' : a' = ∑ j ∈ Finset.range (q' + 1), g j) (ha : a = a' + g q) : a = ∑ j ∈ Finset.range (q + 1), g j := by
  subst hq; rw [ha, ha', Finset.sum_range_succ _ (q' + 1)]

/-- The first block added to zero. -/
theorem sum_first (g : ℕ → EReal) (a z : EReal) (q : ℕ) (hq : q = 0) (hz : z = 0) (ha : a = z + g q) :
    a = ∑ j ∈ Finset.range (q + 1), g j := by
  subst hq; subst hz; rw [ha, zero_add, Finset.sum_range_one]

/-! ## One point's update of an accumulator, at an index -/

theorem upd0 (c : Dev nD) (t : Fin cfg0.N) (acc : Vec Ideal S64x1024 .f32) (b : Fin 64) (r : Fin 1024) :
    (accGc (F := Ideal) (iblk m c 2 t) (iblk m c 3 t) (iblk m c 0 t) acc (ix2 b r) : EReal)
      = (acc (ix2 b r) : EReal) + blockSum (Spec.cw (aVm m c) (aVa m c)) (aG m c) b (gi t r) (t.val % 4) := by
  refine (accGc_apply (iblk m c 2 t) (iblk m c 3 t) (iblk m c 0 t) acc b r).trans ?_
  congr 1
  unfold blockSum
  refine Finset.sum_congr rfl fun k _ => ?_
  rw [term_gj, blk2 m c t b k, blk3 m c t b k, blk0 m c t r k]
  rfl

theorem upd1 (c : Dev nD) (t : Fin cfg0.N) (acc : Vec Ideal S64x1024 .f32) (b : Fin 64) (r : Fin 1024) :
    (accGs (F := Ideal) (iblk m c 2 t) (iblk m c 3 t) (iblk m c 0 t) acc (ix2 b r) : EReal)
      = (acc (ix2 b r) : EReal) + blockSum (Spec.sw (aVm m c) (aVa m c)) (aG m c) b (gi t r) (t.val % 4) := by
  refine (accGs_apply (iblk m c 2 t) (iblk m c 3 t) (iblk m c 0 t) acc b r).trans ?_
  congr 1
  unfold blockSum
  refine Finset.sum_congr rfl fun k _ => ?_
  rw [term_gj, blk2 m c t b k, blk3 m c t b k, blk0 m c t r k]
  rfl

theorem upd2 (c : Dev nD) (t : Fin cfg0.N) (acc : Vec Ideal S64x1024 .f32) (b : Fin 64) (r : Fin 1024) :
    (accBc (F := Ideal) (iblk m c 2 t) (iblk m c 3 t) (iblk m c 1 t) acc (ix2 b r) : EReal)
      = (acc (ix2 b r) : EReal) + blockSum (Spec.cw (aVm m c) (aVa m c)) (aB m c) b (gi t r) (t.val % 4) := by
  refine (accBc_apply (iblk m c 2 t) (iblk m c 3 t) (iblk m c 1 t) acc b r).trans ?_
  congr 1
  unfold blockSum
  refine Finset.sum_congr rfl fun k _ => ?_
  rw [term_gj, blk2 m c t b k, blk3 m c t b k, blk1 m c t r k]
  rfl

theorem upd3 (c : Dev nD) (t : Fin cfg0.N) (acc : Vec Ideal S64x1024 .f32) (b : Fin 64) (r : Fin 1024) :
    (accBs (F := Ideal) (iblk m c 2 t) (iblk m c 3 t) (iblk m c 1 t) acc (ix2 b r) : EReal)
      = (acc (ix2 b r) : EReal) + blockSum (Spec.sw (aVm m c) (aVa m c)) (aB m c) b (gi t r) (t.val % 4) := by
  refine (accBs_apply (iblk m c 2 t) (iblk m c 3 t) (iblk m c 1 t) acc b r).trans ?_
  congr 1
  unfold blockSum
  refine Finset.sum_congr rfl fun k _ => ?_
  rw [term_gj, blk2 m c t b k, blk3 m c t b k, blk1 m c t r k]
  rfl

/-! ## The accumulators after each point -/

/-- After point t the four accumulators hold, at (b, r), the sums of the first t % 4 + 1 block sums of their
    contractions at the output bus of (t, r). -/
def Inv (c : Dev nD) (t : Fin cfg0.N) : Prop :=
  ∀ (b : Fin 64) (r : Fin 1024),
    ((outsAt0 m c t.val t.isLt).s0 (ix2 b r) : EReal) = ∑ j ∈ Finset.range (t.val % 4 + 1), blockSum (Spec.cw (aVm m c) (aVa m c)) (aG m c) b (gi t r) j
    ∧ ((outsAt0 m c t.val t.isLt).s1 (ix2 b r) : EReal) = ∑ j ∈ Finset.range (t.val % 4 + 1), blockSum (Spec.sw (aVm m c) (aVa m c)) (aG m c) b (gi t r) j
    ∧ ((outsAt0 m c t.val t.isLt).s2 (ix2 b r) : EReal) = ∑ j ∈ Finset.range (t.val % 4 + 1), blockSum (Spec.cw (aVm m c) (aVa m c)) (aB m c) b (gi t r) j
    ∧ ((outsAt0 m c t.val t.isLt).s3 (ix2 b r) : EReal) = ∑ j ∈ Finset.range (t.val % 4 + 1), blockSum (Spec.sw (aVm m c) (aVa m c)) (aB m c) b (gi t r) j

/-- The point before t. -/
def prev (t : Fin cfg0.N) : Fin cfg0.N := ⟨t.val - 1, Nat.lt_of_le_of_lt (Nat.sub_le _ _) t.isLt⟩

theorem gi_prev (t : Fin cfg0.N) (h0 : ¬t.val % 4 = 0) (r : Fin 1024) : gi (prev t) r = gi t r := by
  apply Fin.ext; rw [gi_val, gi_val]; show 1024 * ((t.val - 1) / 4) + r.val = _; omega

theorem inv_all (c : Dev nD) : ∀ (n : ℕ) (t : Fin cfg0.N), t.val = n → Inv m c t := by
  intro n
  induction n using Nat.strong_induction_on with
  | _ n ih =>
    intro t ht b r
    by_cases h0 : t.val % 4 = 0
    · rw [outsAt0_A m c t h0, outA_eq m c t _ _]
      dsimp only
      exact ⟨sum_first _ _ _ _ h0 (zero8_apply _) (upd0 m c t _ b r), sum_first _ _ _ _ h0 (zero9_apply _) (upd1 m c t _ b r),
        sum_first _ _ _ _ h0 (zero10_apply _) (upd2 m c t _ b r), sum_first _ _ _ _ h0 (zero11_apply _) (upd3 m c t _ b r)⟩
    · have hp := ih (t.val - 1) (by omega) (prev t) rfl b r
      rw [gi_prev t h0 r] at hp
      have hq : (prev t).val % 4 + 1 = t.val % 4 := by show (t.val - 1) % 4 + 1 = _; omega
      obtain ⟨p0, p1, p2, p3⟩ := hp
      by_cases h1 : t.val % 4 = 3
      · rw [outsAt0_C m c t h0 h1, outC_eq m c t _ _ _]
        dsimp only
        exact ⟨sum_step _ _ _ _ _ hq p0 (upd0 m c t _ b r), sum_step _ _ _ _ _ hq p1 (upd1 m c t _ b r),
          sum_step _ _ _ _ _ hq p2 (upd2 m c t _ b r), sum_step _ _ _ _ _ hq p3 (upd3 m c t _ b r)⟩
      · rw [outsAt0_B m c t h0 h1, outB_eq m c t _ _ _]
        dsimp only
        exact ⟨sum_step _ _ _ _ _ hq p0 (upd0 m c t _ b r), sum_step _ _ _ _ _ hq p1 (upd1 m c t _ b r),
          sum_step _ _ _ _ _ hq p2 (upd2 m c t _ b r), sum_step _ _ _ _ _ hq p3 (upd3 m c t _ b r)⟩

/-! ## The residual blocks, and the result arrays -/

/-- Where j = 3 the first result buffer holds the active-power residuals of the output block's buses. -/
theorem o8_eq (c : Dev nD) (t : Fin cfg0.N) (h1 : t.val % 4 = 3) (b : Fin 64) (r : Fin 1024) :
    ((outsAt0 m c t.val t.isLt).o8 (ix2 b r) : EReal)
      = Spec.arrP (aVm m c) (aVa m c) (aPin m c) (aG m c) (aB m c) (ix2 b (gi t r)) := by
  have h0 : ¬t.val % 4 = 0 := by omega
  obtain ⟨q0, q1, q2, q3⟩ := inv_all m c t.val t rfl b r
  rw [h1, sum_blocks4] at q0 q1 q2 q3
  rw [outsAt0_C m c t h0 h1, outC_eq m c t _ _ _] at q0 q1 q2 q3
  dsimp only at q0 q1 q2 q3
  rw [outsAt0_C m c t h0 h1, outC_eq m c t _ _ _]
  dsimp only
  refine (resPblk_apply _ _ _ _ _ _ _ b r).trans ?_
  rw [q0, q1, q2, q3, blk4 m c t b r, blk5 m c t b r, blk6 m c t b r, Spec.arrP_apply]
  rfl

/-- Where j = 3 the second result buffer holds the reactive-power residuals of the output block's buses. -/
theorem o9_eq (c : Dev nD) (t : Fin cfg0.N) (h1 : t.val % 4 = 3) (b : Fin 64) (r : Fin 1024) :
    ((outsAt0 m c t.val t.isLt).o9 (ix2 b r) : EReal)
      = Spec.arrQ (aVm m c) (aVa m c) (aQin m c) (aG m c) (aB m c) (ix2 b (gi t r)) := by
  have h0 : ¬t.val % 4 = 0 := by omega
  obtain ⟨q0, q1, q2, q3⟩ := inv_all m c t.val t rfl b r
  rw [h1, sum_blocks4] at q0 q1 q2 q3
  rw [outsAt0_C m c t h0 h1, outC_eq m c t _ _ _] at q0 q1 q2 q3
  dsimp only at q0 q1 q2 q3
  rw [outsAt0_C m c t h0 h1, outC_eq m c t _ _ _]
  dsimp only
  refine (resQblk_apply _ _ _ _ _ _ _ b r).trans ?_
  rw [q0, q1, q2, q3, blk4 m c t b r, blk5 m c t b r, blk7 m c t b r, Spec.arrQ_apply]
  rfl

/-- The first result array ends at the active-power residuals. -/
theorem kernel_P (c : Dev nD) : (dats m 0 c).arrAt 8 cfg0.N = Spec.arrP (aVm m c) (aVa m c) (aPin m c) (aG m c) (aB m c) :=
  final8 m c _ fun t h1 b r => o8_eq m c t h1 b r

/-- The second result array ends at the reactive-power residuals. -/
theorem kernel_Q (c : Dev nD) : (dats m 0 c).arrAt 9 cfg0.N = Spec.arrQ (aVm m c) (aVa m c) (aQin m c) (aG m c) (aB m c) :=
  final9 m c _ fun t h1 b r => o9_eq m c t h1 b r

/-! ## The run with its results named -/

/-- Every weakly fair execution terminates with the two result arrays at the specification's arrays of the argument
    arrays, and the arguments unchanged. -/
theorem value_run : θ_run defs (onTc (τ := τ) (main (F := Ideal))) ⟨m, fun _ => 0, ρ⟩ (fun r => ∀ c : Dev nD,
      r.2.mem ((c.tc : Thread nD τ).loc main_v0_0) = Spec.arrP (aVm m c) (aVa m c) (aPin m c) (aG m c) (aB m c)
      ∧ r.2.mem ((c.tc : Thread nD τ).loc main_v0_1) = Spec.arrQ (aVm m c) (aVa m c) (aQin m c) (aG m c) (aB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c 8).trans (kernel_P m c), (h c 9).trans (kernel_Q m c),
     ((h c 2).trans (((dats m 0 c).arrAt_in 2 rfl _).trans (A_eq m c 2))),
     ((h c 3).trans (((dats m 0 c).arrAt_in 3 rfl _).trans (A_eq m c 3))),
     ((h c 6).trans (((dats m 0 c).arrAt_in 6 rfl _).trans (A_eq m c 6))),
     ((h c 7).trans (((dats m 0 c).arrAt_in 7 rfl _).trans (A_eq m c 7))),
     ((h c 0).trans (((dats m 0 c).arrAt_in 0 rfl _).trans (A_eq m c 0))),
     ((h c 1).trans (((dats m 0 c).arrAt_in 1 rfl _).trans (A_eq m c 1)))⟩) (run_main m ρ)

end Cert.KernelIdeal.Hand

end
-- ==== Proof.RefValue.lean ====
/-
  The reference program's two results are the specification's two arrays: each of its four contractions is the plain
  sum over the 4096 source buses of a weight times a matrix entry, and the rest is the same elementwise expression.
-/
import proofs.«131548_j16355235463758_1_alg».proof.Proof.Gen.ReferenceIdeal.Read
import proofs.«131548_j16355235463758_1_alg».proof.Proof.Spec
import Idealize.ShloMosaic.PureOps.Ideal
import Idealize.ShloMosaic.Lib.ValueIdx

noncomputable section

namespace Cert.Proof.RefValue

open Cert.Proof Cert.ReferenceIdeal Cert.ReferenceIdeal.Read
open Idealize.ShloMosaic Idealize.ShloMosaic.ValueIdx
open scoped BigOperators

/-- The reference's first result is the active-power residual array. -/
theorem ref_P (x0 x1 x2 : Spec.Arr) (x4 x5 : Spec.Mat) :
    val_main_v20 (F := Ideal) x0 x1 x2 x4 x5 = Spec.arrP x0 x1 x2 x4 x5 := by
  funext j
  obtain ⟨b, i, rfl⟩ : ∃ (b : Fin 64) (i : Fin 4096), j = ix2 b i := ⟨j 0, j 1, eq_ix2 j⟩
  have el4 : ∀ k, lidx_main_v4 (ix2 b i) k = ix2 b k := fun k => funext fun a => Fin.ext (by
    match a with | ⟨0, _⟩ => rfl | ⟨1, _⟩ => rfl)
  have er4 : ∀ k, ridx_main_v4 (ix2 b i) k = ix2 i k := fun k => funext fun a => Fin.ext (by
    match a with | ⟨0, _⟩ => rfl | ⟨1, _⟩ => rfl)
  have el5 : ∀ k, lidx_main_v5 (ix2 b i) k = ix2 b k := fun k => funext fun a => Fin.ext (by
    match a with | ⟨0, _⟩ => rfl | ⟨1, _⟩ => rfl)
  have er5 : ∀ k, ridx_main_v5 (ix2 b i) k = ix2 i k := fun k => funext fun a => Fin.ext (by
    match a with | ⟨0, _⟩ => rfl | ⟨1, _⟩ => rfl)
  have el6 : ∀ k, lidx_main_v6 (ix2 b i) k = ix2 b k := fun k => funext fun a => Fin.ext (by
    match a with | ⟨0, _⟩ => rfl | ⟨1, _⟩ => rfl)
  have er6 : ∀ k, ridx_main_v6 (ix2 b i) k = ix2 i k := fun k => funext fun a => Fin.ext (by
    match a with | ⟨0, _⟩ => rfl | ⟨1, _⟩ => rfl)
  have el7 : ∀ k, lidx_main_v7 (ix2 b i) k = ix2 b k := fun k => funext fun a => Fin.ext (by
    match a with | ⟨0, _⟩ => rfl | ⟨1, _⟩ => rfl)
  have er7 : ∀ k, ridx_main_v7 (ix2 b i) k = ix2 i k := fun k => funext fun a => Fin.ext (by
    match a with | ⟨0, _⟩ => rfl | ⟨1, _⟩ => rfl)
  rw [val_main_v20_apply, val_main_v13_apply, val_main_v12_apply, val_main_v9_apply, val_main_v11_apply,
    val_main_v8_apply, val_main_v10_apply, val_main_v4_apply, val_main_v7_apply, val_main_v5_apply, val_main_v6_apply]
  simp only [el4, er4, el5, er5, el6, er6, el7, er7, val_main_v2_apply, val_main_v3_apply, val_main_v0_apply,
    val_main_v1_apply, Spec.arrP_apply, Spec.resP, Spec.mv, Spec.cw, Spec.sw, Ideal.hostUnary_cos_def,
    Ideal.hostUnary_sin_def, Ideal.mulf_def, Ideal.addf_def, Ideal.subf_def]

/-- The reference's second result is the reactive-power residual array. -/
theorem ref_Q (x0 x1 x3 : Spec.Arr) (x4 x5 : Spec.Mat) :
    val_main_v21 (F := Ideal) x0 x1 x3 x4 x5 = Spec.arrQ x0 x1 x3 x4 x5 := by
  funext j
  obtain ⟨b, i, rfl⟩ : ∃ (b : Fin 64) (i : Fin 4096), j = ix2 b i := ⟨j 0, j 1, eq_ix2 j⟩
  have el4 : ∀ k, lidx_main_v4 (ix2 b i) k = ix2 b k := fun k => funext fun a => Fin.ext (by
    match a with | ⟨0, _⟩ => rfl | ⟨1, _⟩ => rfl)
  have er4 : ∀ k, ridx_main_v4 (ix2 b i) k = ix2 i k := fun k => funext fun a => Fin.ext (by
    match a with | ⟨0, _⟩ => rfl | ⟨1, _⟩ => rfl)
  have el5 : ∀ k, lidx_main_v5 (ix2 b i) k = ix2 b k := fun k => funext fun a => Fin.ext (by
    match a with | ⟨0, _⟩ => rfl | ⟨1, _⟩ => rfl)
  have er5 : ∀ k, ridx_main_v5 (ix2 b i) k = ix2 i k := fun k => funext fun a => Fin.ext (by
    match a with | ⟨0, _⟩ => rfl | ⟨1, _⟩ => rfl)
  have el6 : ∀ k, lidx_main_v6 (ix2 b i) k = ix2 b k := fun k => funext fun a => Fin.ext (by
    match a with | ⟨0, _⟩ => rfl | ⟨1, _⟩ => rfl)
  have er6 : ∀ k, ridx_main_v6 (ix2 b i) k = ix2 i k := fun k => funext fun a => Fin.ext (by
    match a with | ⟨0, _⟩ => rfl | ⟨1, _⟩ => rfl)
  have el7 : ∀ k, lidx_main_v7 (ix2 b i) k = ix2 b k := fun k => funext fun a => Fin.ext (by
    match a with | ⟨0, _⟩ => rfl | ⟨1, _⟩ => rfl)
  have er7 : ∀ k, ridx_main_v7 (ix2 b i) k = ix2 i k := fun k => funext fun a => Fin.ext (by
    match a with | ⟨0, _⟩ => rfl | ⟨1, _⟩ => rfl)
  rw [val_main_v21_apply, val_main_v19_apply, val_main_v18_apply, val_main_v15_apply, val_main_v17_apply,
    val_main_v14_apply, val_main_v16_apply, val_main_v4_apply, val_main_v7_apply, val_main_v5_apply, val_main_v6_apply]
  simp only [el4, er4, el5, er5, el6, er6, el7, er7, val_main_v2_apply, val_main_v3_apply, val_main_v0_apply,
    val_main_v1_apply, Spec.arrQ_apply, Spec.resQ, Spec.mv, Spec.cw, Spec.sw, Ideal.hostUnary_cos_def,
    Ideal.hostUnary_sin_def, Ideal.mulf_def, Ideal.addf_def, Ideal.subf_def]

end Cert.Proof.RefValue

end
-- ==== Proof.lean ====
/-
  The certificate of the power-flow kernel against its reference. Both compute, for every batch b and bus i, the
  residuals

    P(b,i) = V(b,i)·(cos θ(b,i)·((G c)(b,i) + (B s)(b,i)) + sin θ(b,i)·((G s)(b,i) − (B c)(b,i))) − P_in(b,i)
    Q(b,i) = V(b,i)·(sin θ(b,i)·((G c)(b,i) + (B s)(b,i)) − cos θ(b,i)·((G s)(b,i) − (B c)(b,i))) − Q_in(b,i)

  with c = V·cos θ, s = V·sin θ and (M u)(b,i) = ∑ k, u(b,k)·M(i,k). The reference forms each of the four contractions
  as one sum over the 4096 source buses; the kernel walks a 4 × 4 grid of blocks of 1024 buses, adds the four
  partial contractions of a point's blocks into four accumulators that it zeroes at the first source block, and at
  the last source block combines the completed accumulators into the two residual blocks of the point's output
  buses. On the extended reals the two groupings of a sum are the same element (addition is commutative and
  associative there), the rounding of the kernel's operands to a shorter format is the identity, and the cosine and
  the sine are one function in the kernel and on the host; so the two programs end with equal results, with no use
  of the inputs' finiteness. The three frames: each program runs to the end without a fault and leaves its six
  argument arrays as they were (the kernel's magnitudes and angles are each read through two windows, which hold
  the array at half a share each).
-/
import proofs.«131548_j16355235463758_1_alg».proof.Defs
import proofs.«131548_j16355235463758_1_alg».proof.Proof.Gen.Kernel
import proofs.«131548_j16355235463758_1_alg».proof.Proof.Gen.KernelIdeal
import proofs.«131548_j16355235463758_1_alg».proof.Proof.Gen.ReferenceIdeal
import proofs.«131548_j16355235463758_1_alg».proof.Proof.Gen.ReferenceIdeal.Run
import proofs.«131548_j16355235463758_1_alg».proof.Proof.Gen.ReferenceIdeal.Read
import proofs.«131548_j16355235463758_1_alg».proof.Proof.Gen.Pre_finite_inputs
import proofs.«131548_j16355235463758_1_alg».proof.Proof.K.Launch
import proofs.«131548_j16355235463758_1_alg».proof.Proof.KI.Value
import proofs.«131548_j16355235463758_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its arguments unchanged. -/
theorem frame_p : Cert.frame_Kernel := fun m ρ _ => Cert.Kernel.Hand.frame m ρ

/-- So does its idealization. -/
theorem frame_pi : Cert.frame_KernelIdeal := fun m ρ _ => Cert.KernelIdeal.Hand.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealization is the kernel's own text read on the extended reals. -/
theorem preserves : Cert.preserves_Kernel_KernelIdeal := trivial

/-- From memories agreeing on the arguments both programs end with the two residual arrays of those arguments. -/
theorem algebraic : Cert.algebraic_KernelIdeal_ReferenceIdeal := by
  intro m ρ m' ρ' _ hagree
  refine ⟨fun c => Spec.arrP (Cert.KernelIdeal.Hand.aVm m c) (Cert.KernelIdeal.Hand.aVa m c) (Cert.KernelIdeal.Hand.aPin m c) (Cert.KernelIdeal.Hand.aG m c) (Cert.KernelIdeal.Hand.aB m c),
    fun c => Spec.arrQ (Cert.KernelIdeal.Hand.aVm m c) (Cert.KernelIdeal.Hand.aVa m c) (Cert.KernelIdeal.Hand.aQin m c) (Cert.KernelIdeal.Hand.aG m c) (Cert.KernelIdeal.Hand.aB m c),
    Cert.KernelIdeal.Hand.value_run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v20_eq _ _ _ _ _).trans ((Cert.Proof.RefValue.ref_P _ _ _ _ _).trans ?_)
    rw [(hagree c).1, (hagree c).2.1, (hagree c).2.2.1, (hagree c).2.2.2.2.1, (hagree c).2.2.2.2.2]
  · refine (Cert.ReferenceIdeal.Read.val_main_v21_eq _ _ _ _ _).trans ((Cert.Proof.RefValue.ref_Q _ _ _ _ _).trans ?_)
    rw [(hagree c).1, (hagree c).2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
